-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S2x640000 32) (main_v33 : IVec S_ 1) : IVec S_ 1 :=
  let main_v34 : IVec S1x640000 32 := (extractStridedSlice S1x640000 ![0, 0] · slices_S2x640000_S1x640000_0_0) main_arg1
  let main_v35 : IVec S640000 32 := shapeCast S640000 main_v34 shapeCasts_S1x640000_S640000
  let main_c_12 : IVec S_ 32 := constantI S_ 32 0#32
  let main_v36 : IVec S640000 32 := broadcastInDim S640000 ![] bcast_S_S640000 main_c_12
  let main_v37 : IVec S640000 1 := cmpi .sge main_v35 main_v36
  let main_c_13 : IVec S_ 1 := constantI S_ 1 1#1
  let main_v38 : IVec S_ 1 := (fun x v => Host.reduce IntOp.andi x v reducesTo_S640000_S_d0 h_S_) main_v37 main_c_13
  let main_v39 : IVec S_ 1 := andi main_v33 main_v38
  let main_v40 : IVec S1x640000 32 := (extractStridedSlice S1x640000 ![0, 0] · slices_S2x640000_S1x640000_0_0) main_arg1
  let main_v41 : IVec S640000 32 := shapeCast S640000 main_v40 shapeCasts_S1x640000_S640000
  let main_c_14 : IVec S_ 32 := constantI S_ 32 10000#32
  let main_v42 : IVec S640000 32 := broadcastInDim S640000 ![] bcast_S_S640000 main_c_14
  let main_v43 : IVec S640000 1 := cmpi .slt main_v41 main_v42
  let main_c_15 : IVec S_ 1 := constantI S_ 1 1#1
  let main_v44 : IVec S_ 1 := (fun x v => Host.reduce IntOp.andi x v reducesTo_S640000_S_d0 h_S_) main_v43 main_c_15
  let main_v45 : IVec S_ 1 := andi main_v39 main_v44
  main_v45

def fn_part1 {F : FTy → Type} [FloatOps F] (main_arg1 : IVec S2x640000 32) (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S640000x1 : Shape := ⟨2, ![640000, 1]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S128x1 : Shape := ⟨2, ![128, 1]⟩
abbrev S1x10000 : Shape := ⟨2, ![1, 10000]⟩
abbrev S128x10000 : Shape := ⟨2, ![128, 10000]⟩

abbrev nBuf : Space → Nat
  | .hbm => 32
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S640000x1, .i32⟩
  | .hbm, ⟨13, _⟩ => ⟨S1x640000, .i32⟩
  | .hbm, ⟨14, _⟩ => ⟨S_, .i32⟩
  | .hbm, ⟨15, _⟩ => ⟨S640000, .i32⟩
  | .hbm, ⟨16, _⟩ => ⟨S_, .i32⟩
  | .hbm, ⟨17, _⟩ => ⟨S10000, .i32⟩
  | .hbm, ⟨18, _⟩ => ⟨S640000x1, .i32⟩
  | .hbm, ⟨19, _⟩ => ⟨S10000, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S1x128, .f32⟩
  | .hbm, ⟨29, _⟩ => ⟨S10000x128, .f32⟩
  | .hbm, ⟨30, _⟩ => ⟨S1x128, .f32⟩
  | .hbm, ⟨31, _⟩ => ⟨S10000x128, .f32⟩
  | .local _ .vmem, ⟨0, _⟩ => ⟨S10000x128, .f32⟩
  | .local _ .vmem, ⟨1, _⟩ => ⟨S128x1, .i32⟩
  | .local _ .vmem, ⟨2, _⟩ => ⟨S128x1, .i32⟩
  | .local _ .vmem, ⟨3, _⟩ => ⟨S1x128, .i32⟩
  | .local _ .vmem, ⟨4, _⟩ => ⟨S1x128, .i32⟩
  | .local _ .vmem, ⟨5, _⟩ => ⟨S10000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .bf16⟩
  | .local _ .vmem, ⟨12, _⟩ => ⟨S10000x128, .f32⟩
  | .local _ .vmem, ⟨13, _⟩ => ⟨S128x1, .i32⟩
  | .local _ .vmem, ⟨14, _⟩ => ⟨S128x1, .i32⟩
  | .local _ .vmem, ⟨15, _⟩ => ⟨S1x128, .i32⟩
  | .local _ .vmem, ⟨16, _⟩ => ⟨S1x128, .i32⟩
  | .local _ .vmem, ⟨17, _⟩ => ⟨S10000x1, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S10000x128, .f32⟩
  | .local _ .vmem, ⟨22, _⟩ => ⟨S10000x128, .f32⟩
  | .local _ .vmem, ⟨23, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19

abbrev nD : Nat := 1
abbrev τ : Topo := Topo.v7x

variable {F : FTy → Type} [FloatOps F]

abbrev grid0 : Pipeline.Grid := ⟨1, ![5000], ![false]⟩

def k0_cond2 (i : grid0.Coords) : BitVec 1 :=
  let arg0 : BitVec 32 := BitVec.ofNat 32 (i 0).val
  let c4999_i32 : BitVec 32 := 4999#32
  let v30 : BitVec 1 := Scalar.cmpi .eq arg0 c4999_i32
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![5000], ![false]⟩

def k1_cond2 (i : grid1.Coords) : BitVec 1 :=
  let arg0 : BitVec 32 := BitVec.ofNat 32 (i 0).val
  let c4999_i32 : BitVec 32 := 4999#32
  let v30 : BitVec 1 := Scalar.cmpi .eq arg0 c4999_i32
  let v31 : BitVec 32 := Scalar.extui v30
  let c0_i32_11 : BitVec 32 := 0#32
  let v32 : BitVec 1 := Scalar.cmpi .ne v31 c0_i32_11
  v32

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10000x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10000x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x640000_S1x640000_1_0 : S2x640000.Slices ![1, 0] S1x640000
  shapeCasts_S1x640000_S640000 : S1x640000.ShapeCasts S640000
  slices_S2x640000_S1x640000_0_0 : S2x640000.Slices ![0, 0] S1x640000
  shapeCasts_S640000_S640000x1 : S640000.ShapeCasts S640000x1
  shapeCasts_S640000_S1x640000 : S640000.ShapeCasts S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  shapeCasts_S10000_S10000x1 : S10000.ShapeCasts S10000x1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S10000x1_d0_w32 : S10000x1.Iotas .tc 32 [0]
  iota_S1x10000_d1_w32 : S1x10000.Iotas .tc 32 [1]
  broadcasts_S1x10000_S128x10000 : S1x10000.Broadcasts S128x10000
  broadcasts_S128x1_S128x10000 : S128x1.Broadcasts S128x10000
  natLt_1_32 : 1 < 32
  broadcasts_S10000x1_S10000x128 : S10000x1.Broadcasts S10000x128
  broadcasts_S1x128_S10000x128 : S1x128.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S128x128_S128x128_0_0 : ∀ a, (![0, 0] : Fin 2 → Nat) a + S128x128.size a ≤ S128x128.size a
  h_S128x128 : 0 < S128x128.numel
  scatter_S10000_S640000x1_S640000_n_0_0_1_wf : ScatterDims.WF S10000 S640000x1 S640000 [] [0] [0] 1
  dot_S128x10000_S10000x128_S128x128_1_0_0_1_n_n_wf : DotDims.WF S128x10000 S10000x128 S128x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S640000x1.size a
  hwx0_1 : ∀ i : grid0.Coords, EltTy.bits .i32 = 32 ∨ (Rect.block (s := S640000x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x640000.size a
  hwx0_2 : ∀ i : grid0.Coords, EltTy.bits .i32 = 32 ∨ (Rect.block (s := S1x640000) S1x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S10000x1.size a
  hwx0_3 : ∀ i : grid0.Coords, EltTy.bits .f32 = 32 ∨ (Rect.block (s := S10000x1) S10000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S10000x128.size a
  hwx0_7 : ∀ i : grid0.Coords, EltTy.bits .f32 = 32 ∨ (Rect.block (s := S10000x128) S10000x128.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S640000x1.size a
  hwx1_1 : ∀ i : grid1.Coords, EltTy.bits .i32 = 32 ∨ (Rect.block (s := S640000x1) S128x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x640000.size a
  hwx1_2 : ∀ i : grid1.Coords, EltTy.bits .i32 = 32 ∨ (Rect.block (s := S1x640000) S1x128.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S10000x1.size a
  hwx1_3 : ∀ i : grid1.Coords, EltTy.bits .f32 = 32 ∨ (Rect.block (s := S10000x1) S10000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S10000x128.size a
  hwx1_7 : ∀ i : grid1.Coords, EltTy.bits .f32 = 32 ∨ (Rect.block (s := S10000x128) S10000x128.size (cc1_transform_7 i) (hinb1_7 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S10000x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v17) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S10000x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S10000x128, .f32⟩
  | .hbm, ⟨57, _⟩ => ⟨S640000x1, .i32⟩
  | .hbm, ⟨58, _⟩ => ⟨S10000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S1x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x128, .f32⟩
  | .hbm, ⟨79, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Shared0.lean ====
/-
  Region 0 (the first layer's kernel) at the contents `V` its core holds when the region is entered: each
  window's block at a grid point, the two conditions of the body in closed form (the first point resets the
  accumulator and casts the features once; the last point finishes the layer), where the output window is idle,
  and what the two scratch buffers and the output hold point by point — the accumulator after point n is the
  accumulator before it plus chunk n's contribution, started from zero at point 0; the output, stored at the last
  point only, is the layer's final expression of the last accumulator.
-/
import proofs.«422308_j53472342835254_2_alg».proof.Proof.Gen.KernelIdeal.Launch
import proofs.«422308_j53472342835254_2_alg».proof.Proof.Gen.KernelIdeal.Skeleton
import proofs.«422308_j53472342835254_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first conditional's test: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's test: the grid coordinate is the last one, 4999. -/
abbrev cond0_1 (i : grid0.Coords) : Prop := k0_cond2 i = 1#1
theorem hcond0_1 : ∀ t : Fin cfg0.N, cond0_1 (grid0.coords t) ↔ t.val = 4999 :=
  (by decide +kernel : ∀ t : Fin grid0.N, cond0_1 (grid0.coords t) ↔ t.val = 4999)

/-! ## Where the output window is idle -/

theorem idleAt0_7 (i : grid0.Coords) (h : ¬cond0_1 i) : cfg0.idle 7 i = true := by
  show (!(k0_cond2 i == 1#1)) = true
  simp only [Bool.not_eq_true', beq_eq_false_iff_ne, ne_eq]; exact h
theorem liveAt0_7 (i : grid0.Coords) (h : cond0_1 i) : cfg0.idle 7 i = false := by
  show (!(k0_cond2 i == 1#1)) = false
  simp only [Bool.not_eq_false', beq_iff_eq]; exact h
theorem noFlush0_7 (t : Fin cfg0.N) (h : ¬cond0_1 (grid0.coords t)) : (cfg0.win 7).flush t = false := by
  have h1 := (not_congr (hcond0_1 t)).mp h
  have h2 := (not_congr (flush0_7 t)).mpr (by have := t.isLt; have hN : cfg0.N = 5000 := N_0; omega)
  simpa using h2

/-! ## The scratch buffers -/

/-- The accumulator scratch (f32) and the cast-features scratch (bf16), whole scoped buffers of the kernel's own. -/
abbrev scM0_0 : Memref sig .tc .vmem S10000x128 .f32 := Memref.whole cc0_scratch0
abbrev scM0_1 : Memref sig .tc .vmem S10000x128 .bf16 := Memref.whole cc0_scratch1

/-! ## What the scratch buffers and the output hold -/

/-- Position `n` as a grid point (positions are taken modulo the grid's 5000 points). -/
def tpt (n : ℕ) : Fin cfg0.N := ⟨n % 5000, lt_of_lt_of_eq (Nat.mod_lt _ (by decide)) (show (5000 : ℕ) = cfg0.N from N_0.symm)⟩
theorem tpt_val (t : Fin cfg0.N) : tpt t.val = t :=
  Fin.ext (Nat.mod_eq_of_lt (lt_of_lt_of_eq t.isLt (show cfg0.N = 5000 from N_0)))

/-- The features cast once, at the first point. -/
def xb0 (c : Dev nD) : Vec F S10000x128 .bf16 := k0_pay2 (iblk0 V c 0 (tpt 0))

/-- The accumulator after point `n`. -/
def accAt0 (c : Dev nD) : ℕ → Vec F S10000x128 .f32
  | 0 => k0_pay3 (iblk0 V c 1 (tpt 0)) (iblk0 V c 2 (tpt 0)) (xb0 V c) (k0_pay1 (F := F))
  | n + 1 => k0_pay3 (iblk0 V c 1 (tpt (n + 1))) (iblk0 V c 2 (tpt (n + 1))) (xb0 V c) (accAt0 c n)

/-- The output block stored at the last point. -/
def out0 (c : Dev nD) : Vec F S10000x128 .f32 :=
  k0_pay4 (accAt0 V c 4999) (iblk0 V c 3 (tpt 4999)) (iblk0 V c 4 (tpt 4999)) (iblk0 V c 5 (tpt 4999)) (iblk0 V c 0 (tpt 4999)) (iblk0 V c 6 (tpt 4999))

end Cert.KernelIdeal.R0

end
-- ==== Proof.Run0.lean ====
/-
  The kernel body of region 0 on any whole staging and scratch memrefs, in each of its three cases: at the first
  grid point it zeroes the accumulator, casts the features into the second scratch, and adds the first chunk's
  contribution; at a middle point it adds that chunk's contribution to the accumulator it finds; at the last point
  it does the same and then stores the finished layer into the output block.  Each run leaves the inputs as they were.
-/
import proofs.«422308_j53472342835254_2_alg».proof.Proof.Shared0
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however they are spelt. -/
theorem run0_hz : (![0, 0] : Fin 2 → Nat) = fun _ => 0 := funext fun a => by fin_cases a <;> rfl

/-- A store through the whole-shape rectangle at zero offsets, made last, leaves its payload in the buffer whatever
    the earlier stores and the prior contents were: the store covers every index, and the last cover wins. -/
theorem run0_read_writes_whole_last {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _
    (fun y => ⟨_, List.mem_cons.mpr (Or.inl rfl), View.mem_set_unit_zero h inb y⟩)).trans
    (View.canon_cons_unit_zero h inb w L)

set_option maxHeartbeats 1000000 in
/-- FIRST POINT: accumulator := chunk's contribution over zero; cast features stored; the output block untouched. -/
theorem run0_A (c : Dev nD) (i : grid0.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : cond0_0 i) (hc1 : ¬cond0_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 x2 x3 (k0_pay2 x1) (k0_pay1 (F := F))) ∗ owns (c : Thread nD τ) arg10 fullShare (k0_pay2 x1)) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: the update, stored last, covers the buffer; its operands read back the zero fill and the cast features
  isplitl [H9]
  · iexists _; isplitr
    swap; · iexact H9
    ipureintro
    refine (run0_read_writes_whole_last (S := S10000x128) _ _ run0_hz _ _ _).trans ?_
    sl_unfold_words
    simp only [View.readAt_eq_ld, harg1.read_unread, harg2.read_unread, harg3.read_unread,
      View.ld_unit_zero (S := S128x1) run0_hz, View.ld_unit_zero (S := S1x128) run0_hz, View.ld_unit_zero (S := S10000x128) run0_hz,
      View.readCov_unit_zero (S := S10000x128) _ run0_hz]
  -- the cast features: one store of the cast of the features covers the buffer
  iexists _; isplitr
  swap; · iexact H10
  ipureintro
  sl_unfold_words
  refine (run0_read_writes_whole_last (S := S10000x128) _ _ run0_hz _ _ _).trans ?_
  simp only [View.readAt_eq_ld, harg1.read_unread, View.ld_unit_zero (S := S10000x128) run0_hz]

set_option maxHeartbeats 1000000 in
/-- MIDDLE POINT: accumulator := accumulator + chunk's contribution; the cast features and the output block untouched. -/
theorem run0_B (c : Dev nD) (i : grid0.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond0_0 i) (hc1 : ¬cond0_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 x2 x3 a10 a9) ∗ owns (c : Thread nD τ) arg10 fullShare a10) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: one store of the update over what the buffer held covers it
  isplitl [H9]
  · iexists _; isplitr
    swap; · iexact H9
    ipureintro
    refine (run0_read_writes_whole_last (S := S10000x128) _ _ run0_hz _ _ _).trans ?_
    simp only [View.readAt_eq_ld, harg2.read_unread, harg3.read_unread, harg9.read_unread, harg10.read_unread,
      View.ld_unit_zero (S := S128x1) run0_hz, View.ld_unit_zero (S := S1x128) run0_hz, View.ld_unit_zero (S := S10000x128) run0_hz]
  iexists _; isplitr; · ipureintro; exact harg10.read_unread _
  iexact H10

set_option maxHeartbeats 1000000 in
/-- LAST POINT: accumulator := accumulator + chunk's contribution, then the output block := the finished layer. -/
theorem run0_C (c : Dev nD) (i : grid0.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond0_0 i) (hc1 : cond0_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay4 (k0_pay3 x2 x3 a10 a9) x4 x5 x6 x1 x7) ∗ owns (c : Thread nD τ) arg9 fullShare (k0_pay3 x2 x3 a10 a9) ∗ owns (c : Thread nD τ) arg10 fullShare a10) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the output block: one store of the finished layer covers it; its first operand reads back the updated accumulator
  isplitl [H8]
  · iexists _; isplitr
    swap; · iexact H8
    ipureintro
    refine (run0_read_writes_whole_last (S := S10000x128) _ _ run0_hz _ _ _).trans ?_
    sl_unfold_words
    simp only [View.readAt_eq_ld, harg1.read_unread, harg2.read_unread, harg3.read_unread, harg4.read_unread,
      harg5.read_unread, harg6.read_unread, harg7.read_unread, harg9.read_unread, harg10.read_unread,
      View.ld_unit_zero (S := S128x1) run0_hz, View.ld_unit_zero (S := S1x128) run0_hz, View.ld_unit_zero (S := S10000x128) run0_hz,
      View.ld_unit_zero (S := S10000x1) run0_hz, View.ld_unit_zero (S := S128x128) run0_hz,
      View.readCov_unit_zero (S := S10000x128) _ run0_hz]
  -- the accumulator: one store of the update over what the buffer held covers it
  isplitl [H9]
  · iexists _; isplitr
    swap; · iexact H9
    ipureintro
    sl_unfold_words
    refine (run0_read_writes_whole_last (S := S10000x128) _ _ run0_hz _ _ _).trans ?_
    simp only [View.readAt_eq_ld, harg2.read_unread, harg3.read_unread, harg9.read_unread, harg10.read_unread,
      View.ld_unit_zero (S := S128x1) run0_hz, View.ld_unit_zero (S := S1x128) run0_hz, View.ld_unit_zero (S := S10000x128) run0_hz]
  iexists _; isplitr; · ipureintro; exact harg10.read_unread _
  iexact H10

end Cert.KernelIdeal.R0

end
-- ==== Proof.Region0.lean ====
/-
  Region 0 as a pipeline: what its core owns between grid points and the obligation its body meets at each point.
  Before the first point the kernel's two scratch buffers hold anything; after point n the accumulator scratch
  holds the accumulator after n points (Shared: `accAt0`) and the second scratch the features cast once (`xb0`).
  Every input window's buffer is left holding its block; the output window is idle (left as found, not written
  back) at every point but the last, where it is left holding the finished layer (`out0`).
-/
import proofs.«422308_j53472342835254_2_alg».proof.Proof.Run0

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The scoped buffers of the core that are neither this region's staging buffers nor its two scratch buffers, each
    whole at some contents: they ride along untouched. -/
def Rest0 (c : Dev nD) : sProp 𝕄 :=
  Pipeline.scopedRestBut (Ix := Unit) (Name := ℕ) (U := UR sig nD τ) (Lvl := ℕ) (Val := Elt F) spec0 c [cc0_scratch0, cc0_scratch1]

/-- The class's invariant with the two scratch buffers as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d)) ∗ Rest0 c) ∗ (∃ r, prngReg c r)) := by
  unfold Pipeline.ΦA Rest0
  rw [Pipeline.scopedRest_split_of_list (win := spec0) (c := c) [cc0_scratch0, cc0_scratch1] (by decide) (by decide)]
  simp only [scM0_0, scM0_1, owns_whole]; rfl

/-- Before position `n`: anything in the scratch buffers before the first point; afterwards the accumulator after
    `n - 1` points and the cast features. -/
def PhiS0 (c : Dev nD) : ℕ → sProp 𝕄
  | 0 => Pipeline.ΦA spec0 c
  | n + 1 => iprop(((owns (c : Thread nD τ) scM0_0 fullShare (accAt0 V c n) ∗ owns (c : Thread nD τ) scM0_1 fullShare (xb0 V c)) ∗ Rest0 c) ∗ (∃ r, prngReg c r))

theorem PhiS0_pos (c : Dev nD) (n : ℕ) (hz : n ≠ 0) :
    PhiS0 V c n = iprop(((owns (c : Thread nD τ) scM0_0 fullShare (accAt0 V c (n - 1)) ∗ owns (c : Thread nD τ) scM0_1 fullShare (xb0 V c)) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 V c
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0 V c := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

theorem Phi_castSucc0 (c : Dev nD) (t : Fin cfg0.N) : (dat0 V c).Φ t.castSucc = PhiS0 V c t.val := by
  dsimp only [dat0]; simp only [Fin.coe_castSucc]

/-! ## The accumulator and the output at a point -/

theorem tpt_of_val (t : Fin cfg0.N) (n : ℕ) (h : t.val = n) : tpt n = t := (congrArg tpt h.symm).trans (tpt_val t)

/-- After a point that is not the first: the accumulator before it plus this point's chunk. -/
theorem accAt0_pos (c : Dev nD) (t : Fin cfg0.N) (h : t.val ≠ 0) :
    accAt0 V c t.val = k0_pay3 (iblk0 V c 1 t) (iblk0 V c 2 t) (xb0 V c) (accAt0 V c (t.val - 1)) := by
  obtain ⟨n, hn⟩ := t
  cases n with
  | zero => exact absurd rfl h
  | succ n =>
    have e : tpt (n + 1) = ⟨n + 1, hn⟩ := tpt_val ⟨n + 1, hn⟩
    show k0_pay3 (iblk0 V c 1 (tpt (n + 1))) (iblk0 V c 2 (tpt (n + 1))) (xb0 V c) (accAt0 V c n) = _
    rw [e]; rfl

/-- At the first point the cast features are this point's, and the accumulator is its chunk over zero. -/
theorem xb0_first (c : Dev nD) (t : Fin cfg0.N) (h : t.val = 0) : xb0 V c = k0_pay2 (iblk0 V c 0 t) := by
  unfold xb0; rw [tpt_of_val t 0 h]
theorem accAt0_first (c : Dev nD) (t : Fin cfg0.N) (h : t.val = 0) :
    accAt0 V c t.val = k0_pay3 (iblk0 V c 1 t) (iblk0 V c 2 t) (k0_pay2 (iblk0 V c 0 t)) (k0_pay1 (F := F)) := by
  rw [h]
  show k0_pay3 (iblk0 V c 1 (tpt 0)) (iblk0 V c 2 (tpt 0)) (xb0 V c) (k0_pay1 (F := F)) = _
  rw [xb0_first V c t h, tpt_of_val t 0 h]

/-- At the last point the output block is the finished layer of this point's accumulator and blocks. -/
theorem out0_last (c : Dev nD) (t : Fin cfg0.N) (h : t.val = 4999) :
    out0 V c = k0_pay4 (accAt0 V c t.val) (iblk0 V c 3 t) (iblk0 V c 4 t) (iblk0 V c 5 t) (iblk0 V c 0 t) (iblk0 V c 6 t) := by
  unfold out0; rw [tpt_of_val t 4999 h, h]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

theorem leavesIn0 (c : Dev nD) (t : Fin cfg0.N) :
    (dat0 V c).leavesExact 0 t = owns (c : Thread nD τ) (st0_0 t) fullShare (iblk0 V c 0 t)
    ∧ (dat0 V c).leavesExact 1 t = owns (c : Thread nD τ) (st0_1 t) fullShare (iblk0 V c 1 t)
    ∧ (dat0 V c).leavesExact 2 t = owns (c : Thread nD τ) (st0_2 t) fullShare (iblk0 V c 2 t)
    ∧ (dat0 V c).leavesExact 3 t = owns (c : Thread nD τ) (st0_3 t) fullShare (iblk0 V c 3 t)
    ∧ (dat0 V c).leavesExact 4 t = owns (c : Thread nD τ) (st0_4 t) fullShare (iblk0 V c 4 t)
    ∧ (dat0 V c).leavesExact 5 t = owns (c : Thread nD τ) (st0_5 t) fullShare (iblk0 V c 5 t)
    ∧ (dat0 V c).leavesExact 6 t = owns (c : Thread nD τ) (st0_6 t) fullShare (iblk0 V c 6 t) := by
  refine ⟨?_, ?_, ?_, ?_, ?_, ?_, ?_⟩ <;> (unfold Dat.leavesExact; dsimp only [dat0])

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) from rfl, Phi_castSucc0]
  obtain ⟨e0, e1, e2, e3, e4, e5, e6⟩ := leavesIn0 V c t
  rw [e0, e1, e2, e3, e4, e5, e6]
  have hN : t.val < 5000 := lt_of_lt_of_eq t.isLt N_0
  by_cases h1 : t.val = 4999
  · -- the last point
    have hc0 : ¬cond0_0 (grid0.coords t) := fun h => by have := (hcond0_0 t).mp h; omega
    have hc1 : cond0_1 (grid0.coords t) := (hcond0_1 t).mpr h1
    rw [show (dat0 V c).leavesExact 7 t = owns (c : Thread nD τ) (st0_7 t) fullShare ((dat0 V c).after 7 t) from by
      unfold Dat.leavesExact; rw [liveAt0_7 _ hc1], after0_7]
    rw [PhiS0_pos V c t.val (by omega)]
    show _ ⊢ wp _ _ _ _ (fun _ => iprop((((owns (c : Thread nD τ) scM0_0 fullShare (accAt0 V c t.val) ∗ owns (c : Thread nD τ) scM0_1 fullShare (xb0 V c)) ∗ Rest0 c) ∗ (∃ r, prngReg c r)) ∗ _))
    rw [out0_last V c t h1, accAt0_pos V c t (by omega)]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (accAt0 V c (t.val - 1)) (xb0 V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond0_1 (grid0.coords t) := fun h => h1 ((hcond0_1 t).mp h)
    rw [Dat.leavesExact_idle (dat0 V c) 7 t (idleAt0_7 _ hc1) (noFlush0_7 t hc1)]
    by_cases h0 : t.val = 0
    · -- the first point
      have hc0 : cond0_0 (grid0.coords t) := (hcond0_0 t).mpr h0
      rw [show PhiS0 V c t.val = Pipeline.ΦA spec0 c from by rw [h0]; rfl, PhiA0_eq]
      show _ ⊢ wp _ _ _ _ (fun _ => iprop((((owns (c : Thread nD τ) scM0_0 fullShare (accAt0 V c t.val) ∗ owns (c : Thread nD τ) scM0_1 fullShare (xb0 V c)) ∗ Rest0 c) ∗ (∃ r, prngReg c r)) ∗ _))
      rw [accAt0_first V c t h0, xb0_first V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) ((dat0 V c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a middle point
      have hc0 : ¬cond0_0 (grid0.coords t) := fun h => h0 ((hcond0_0 t).mp h)
      rw [PhiS0_pos V c t.val h0]
      show _ ⊢ wp _ _ _ _ (fun _ => iprop((((owns (c : Thread nD τ) scM0_0 fullShare (accAt0 V c t.val) ∗ owns (c : Thread nD τ) scM0_1 fullShare (xb0 V c)) ∗ Rest0 c) ∗ (∃ r, prngReg c r)) ∗ _))
      rw [accAt0_pos V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) ((dat0 V c).before 7 t d7) (accAt0 V c (t.val - 1)) (xb0 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 from rfl]
  exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 5000 := N_0; omega), PhiA0_eq]
  iintro ⟨⟨⟨H0, H1⟩, HR⟩, Hg⟩
  isplitr [Hg]
  · isplitr [HR]
    · isplitl [H0]; · iexists _; iexact H0
      iexists _; iexact H1
    iexact HR
  iexact Hg

end Cert.KernelIdeal.R0

end
-- ==== Proof.Shared1.lean ====
/-
  Region 1 (the second layer's kernel) at the contents `V` its core holds when the region is entered: each
  window's block at a grid point, the two conditions of the body in closed form (the first point resets the
  accumulator and casts the features once; the last point finishes the layer), where the output window is idle,
  and what the two scratch buffers and the output hold point by point — the accumulator after point n is the
  accumulator before it plus chunk n's contribution, started from zero at point 0; the output, stored at the last
  point only, is the layer's final expression of the last accumulator.
-/
import proofs.«422308_j53472342835254_2_alg».proof.Proof.Gen.KernelIdeal.Launch
import proofs.«422308_j53472342835254_2_alg».proof.Proof.Gen.KernelIdeal.Skeleton
import proofs.«422308_j53472342835254_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's test: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's test: the grid coordinate is the last one, 4999. -/
abbrev cond1_1 (i : grid1.Coords) : Prop := k1_cond2 i = 1#1
theorem hcond1_1 : ∀ t : Fin cfg1.N, cond1_1 (grid1.coords t) ↔ t.val = 4999 :=
  (by decide +kernel : ∀ t : Fin grid1.N, cond1_1 (grid1.coords t) ↔ t.val = 4999)

/-! ## Where the output window is idle -/

theorem idleAt1_7 (i : grid1.Coords) (h : ¬cond1_1 i) : cfg1.idle 7 i = true := by
  show (!(k1_cond2 i == 1#1)) = true
  simp only [Bool.not_eq_true', beq_eq_false_iff_ne, ne_eq]; exact h
theorem liveAt1_7 (i : grid1.Coords) (h : cond1_1 i) : cfg1.idle 7 i = false := by
  show (!(k1_cond2 i == 1#1)) = false
  simp only [Bool.not_eq_false', beq_iff_eq]; exact h
theorem noFlush1_7 (t : Fin cfg1.N) (h : ¬cond1_1 (grid1.coords t)) : (cfg1.win 7).flush t = false := by
  have h1 := (not_congr (hcond1_1 t)).mp h
  have h2 := (not_congr (flush1_7 t)).mpr (by have := t.isLt; have hN : cfg1.N = 5000 := N_1; omega)
  simpa using h2

/-! ## The scratch buffers -/

/-- The accumulator scratch (f32) and the cast-features scratch (bf16), whole scoped buffers of the kernel's own. -/
abbrev scM1_0 : Memref sig .tc .vmem S10000x128 .f32 := Memref.whole cc1_scratch0
abbrev scM1_1 : Memref sig .tc .vmem S10000x128 .bf16 := Memref.whole cc1_scratch1

/-! ## What the scratch buffers and the output hold -/

/-- Position `n` as a grid point (positions are taken modulo the grid's 5000 points). -/
def tpt (n : ℕ) : Fin cfg1.N := ⟨n % 5000, lt_of_lt_of_eq (Nat.mod_lt _ (by decide)) (show (5000 : ℕ) = cfg1.N from N_1.symm)⟩
theorem tpt_val (t : Fin cfg1.N) : tpt t.val = t :=
  Fin.ext (Nat.mod_eq_of_lt (lt_of_lt_of_eq t.isLt (show cfg1.N = 5000 from N_1)))

/-- The features cast once, at the first point. -/
def xb1 (c : Dev nD) : Vec F S10000x128 .bf16 := k1_pay2 (iblk1 V c 0 (tpt 0))

/-- The accumulator after point `n`. -/
def accAt1 (c : Dev nD) : ℕ → Vec F S10000x128 .f32
  | 0 => k1_pay3 (iblk1 V c 1 (tpt 0)) (iblk1 V c 2 (tpt 0)) (xb1 V c) (k1_pay1 (F := F))
  | n + 1 => k1_pay3 (iblk1 V c 1 (tpt (n + 1))) (iblk1 V c 2 (tpt (n + 1))) (xb1 V c) (accAt1 c n)

/-- The output block stored at the last point. -/
def out1 (c : Dev nD) : Vec F S10000x128 .f32 :=
  k1_pay4 (accAt1 V c 4999) (iblk1 V c 3 (tpt 4999)) (iblk1 V c 4 (tpt 4999)) (iblk1 V c 5 (tpt 4999)) (iblk1 V c 0 (tpt 4999)) (iblk1 V c 6 (tpt 4999))

end Cert.KernelIdeal.R1

end
-- ==== Proof.Run1.lean ====
/-
  The kernel body of region 1 on any whole staging and scratch memrefs, in each of its three cases: at the first
  grid point it zeroes the accumulator, casts the features into the second scratch, and adds the first chunk's
  contribution; at a middle point it adds that chunk's contribution to the accumulator it finds; at the last point
  it does the same and then stores the finished layer into the output block.  Each run leaves the inputs as they were.
-/
import proofs.«422308_j53472342835254_2_alg».proof.Proof.Shared1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however they are spelt. -/
theorem run1_hz : (![0, 0] : Fin 2 → Nat) = fun _ => 0 := funext fun a => by fin_cases a <;> rfl

/-- A store through the whole-shape rectangle at zero offsets, made last, leaves its payload in the buffer whatever
    the earlier stores and the prior contents were: the store covers every index, and the last cover wins. -/
theorem run1_read_writes_whole_last {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _
    (fun y => ⟨_, List.mem_cons.mpr (Or.inl rfl), View.mem_set_unit_zero h inb y⟩)).trans
    (View.canon_cons_unit_zero h inb w L)

set_option maxHeartbeats 1000000 in
/-- FIRST POINT: accumulator := chunk's contribution over zero; cast features stored; the output block untouched. -/
theorem run1_A (c : Dev nD) (i : grid1.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : cond1_0 i) (hc1 : ¬cond1_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k1_pay3 x2 x3 (k1_pay2 x1) (k1_pay1 (F := F))) ∗ owns (c : Thread nD τ) arg10 fullShare (k1_pay2 x1)) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: the update, stored last, covers the buffer; its operands read back the zero fill and the cast features
  isplitl [H9]
  · iexists _; isplitr
    swap; · iexact H9
    ipureintro
    refine (run1_read_writes_whole_last (S := S10000x128) _ _ run1_hz _ _ _).trans ?_
    sl_unfold_words
    simp only [View.readAt_eq_ld, harg1.read_unread, harg2.read_unread, harg3.read_unread,
      View.ld_unit_zero (S := S128x1) run1_hz, View.ld_unit_zero (S := S1x128) run1_hz, View.ld_unit_zero (S := S10000x128) run1_hz,
      View.readCov_unit_zero (S := S10000x128) _ run1_hz]
  -- the cast features: one store of the cast of the features covers the buffer
  iexists _; isplitr
  swap; · iexact H10
  ipureintro
  sl_unfold_words
  refine (run1_read_writes_whole_last (S := S10000x128) _ _ run1_hz _ _ _).trans ?_
  simp only [View.readAt_eq_ld, harg1.read_unread, View.ld_unit_zero (S := S10000x128) run1_hz]

set_option maxHeartbeats 1000000 in
/-- MIDDLE POINT: accumulator := accumulator + chunk's contribution; the cast features and the output block untouched. -/
theorem run1_B (c : Dev nD) (i : grid1.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond1_0 i) (hc1 : ¬cond1_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k1_pay3 x2 x3 a10 a9) ∗ owns (c : Thread nD τ) arg10 fullShare a10) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: one store of the update over what the buffer held covers it
  isplitl [H9]
  · iexists _; isplitr
    swap; · iexact H9
    ipureintro
    refine (run1_read_writes_whole_last (S := S10000x128) _ _ run1_hz _ _ _).trans ?_
    simp only [View.readAt_eq_ld, harg2.read_unread, harg3.read_unread, harg9.read_unread, harg10.read_unread,
      View.ld_unit_zero (S := S128x1) run1_hz, View.ld_unit_zero (S := S1x128) run1_hz, View.ld_unit_zero (S := S10000x128) run1_hz]
  iexists _; isplitr; · ipureintro; exact harg10.read_unread _
  iexact H10

set_option maxHeartbeats 1000000 in
/-- LAST POINT: accumulator := accumulator + chunk's contribution, then the output block := the finished layer. -/
theorem run1_C (c : Dev nD) (i : grid1.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond1_0 i) (hc1 : cond1_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k1_pay4 (k1_pay3 x2 x3 a10 a9) x4 x5 x6 x1 x7) ∗ owns (c : Thread nD τ) arg9 fullShare (k1_pay3 x2 x3 a10 a9) ∗ owns (c : Thread nD τ) arg10 fullShare a10) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the output block: one store of the finished layer covers it; its first operand reads back the updated accumulator
  isplitl [H8]
  · iexists _; isplitr
    swap; · iexact H8
    ipureintro
    refine (run1_read_writes_whole_last (S := S10000x128) _ _ run1_hz _ _ _).trans ?_
    sl_unfold_words
    simp only [View.readAt_eq_ld, harg1.read_unread, harg2.read_unread, harg3.read_unread, harg4.read_unread,
      harg5.read_unread, harg6.read_unread, harg7.read_unread, harg9.read_unread, harg10.read_unread,
      View.ld_unit_zero (S := S128x1) run1_hz, View.ld_unit_zero (S := S1x128) run1_hz, View.ld_unit_zero (S := S10000x128) run1_hz,
      View.ld_unit_zero (S := S10000x1) run1_hz, View.ld_unit_zero (S := S128x128) run1_hz,
      View.readCov_unit_zero (S := S10000x128) _ run1_hz]
  -- the accumulator: one store of the update over what the buffer held covers it
  isplitl [H9]
  · iexists _; isplitr
    swap; · iexact H9
    ipureintro
    sl_unfold_words
    refine (run1_read_writes_whole_last (S := S10000x128) _ _ run1_hz _ _ _).trans ?_
    simp only [View.readAt_eq_ld, harg2.read_unread, harg3.read_unread, harg9.read_unread, harg10.read_unread,
      View.ld_unit_zero (S := S128x1) run1_hz, View.ld_unit_zero (S := S1x128) run1_hz, View.ld_unit_zero (S := S10000x128) run1_hz]
  iexists _; isplitr; · ipureintro; exact harg10.read_unread _
  iexact H10

end Cert.KernelIdeal.R1

end
-- ==== Proof.Region1.lean ====
/-
  Region 1 as a pipeline: what its core owns between grid points and the obligation its body meets at each point.
  Before the first point the kernel's two scratch buffers hold anything; after point n the accumulator scratch
  holds the accumulator after n points (Shared: `accAt1`) and the second scratch the features cast once (`xb1`).
  Every input window's buffer is left holding its block; the output window is idle (left as found, not written
  back) at every point but the last, where it is left holding the finished layer (`out1`).
-/
import proofs.«422308_j53472342835254_2_alg».proof.Proof.Run1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The scoped buffers of the core that are neither this region's staging buffers nor its two scratch buffers, each
    whole at some contents: they ride along untouched. -/
def Rest1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch buffers as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ Rest1 c) ∗ (∃ r, prngReg c r)) := by
  unfold Pipeline.ΦA Rest1
  rw [Pipeline.scopedRest_split_of_list (win := spec1) (c := c) [cc1_scratch0, cc1_scratch1] (by decide) (by decide)]
  simp only [scM1_0, scM1_1, owns_whole]; rfl

/-- Before position `n`: anything in the scratch buffers before the first point; afterwards the accumulator after
    `n - 1` points and the cast features. -/
def PhiS1 (c : Dev nD) : ℕ → sProp 𝕄
  | 0 => Pipeline.ΦA spec1 c
  | n + 1 => iprop(((owns (c : Thread nD τ) scM1_0 fullShare (accAt1 V c n) ∗ owns (c : Thread nD τ) scM1_1 fullShare (xb1 V c)) ∗ Rest1 c) ∗ (∃ r, prngReg c r))

theorem PhiS1_pos (c : Dev nD) (n : ℕ) (hz : n ≠ 0) :
    PhiS1 V c n = iprop(((owns (c : Thread nD τ) scM1_0 fullShare (accAt1 V c (n - 1)) ∗ owns (c : Thread nD τ) scM1_1 fullShare (xb1 V c)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

theorem Phi_castSucc1 (c : Dev nD) (t : Fin cfg1.N) : (dat1 V c).Φ t.castSucc = PhiS1 V c t.val := by
  dsimp only [dat1]; simp only [Fin.coe_castSucc]

/-! ## The accumulator and the output at a point -/

theorem tpt_of_val (t : Fin cfg1.N) (n : ℕ) (h : t.val = n) : tpt n = t := (congrArg tpt h.symm).trans (tpt_val t)

/-- After a point that is not the first: the accumulator before it plus this point's chunk. -/
theorem accAt1_pos (c : Dev nD) (t : Fin cfg1.N) (h : t.val ≠ 0) :
    accAt1 V c t.val = k1_pay3 (iblk1 V c 1 t) (iblk1 V c 2 t) (xb1 V c) (accAt1 V c (t.val - 1)) := by
  obtain ⟨n, hn⟩ := t
  cases n with
  | zero => exact absurd rfl h
  | succ n =>
    have e : tpt (n + 1) = ⟨n + 1, hn⟩ := tpt_val ⟨n + 1, hn⟩
    show k1_pay3 (iblk1 V c 1 (tpt (n + 1))) (iblk1 V c 2 (tpt (n + 1))) (xb1 V c) (accAt1 V c n) = _
    rw [e]; rfl

/-- At the first point the cast features are this point's, and the accumulator is its chunk over zero. -/
theorem xb1_first (c : Dev nD) (t : Fin cfg1.N) (h : t.val = 0) : xb1 V c = k1_pay2 (iblk1 V c 0 t) := by
  unfold xb1; rw [tpt_of_val t 0 h]
theorem accAt1_first (c : Dev nD) (t : Fin cfg1.N) (h : t.val = 0) :
    accAt1 V c t.val = k1_pay3 (iblk1 V c 1 t) (iblk1 V c 2 t) (k1_pay2 (iblk1 V c 0 t)) (k1_pay1 (F := F)) := by
  rw [h]
  show k1_pay3 (iblk1 V c 1 (tpt 0)) (iblk1 V c 2 (tpt 0)) (xb1 V c) (k1_pay1 (F := F)) = _
  rw [xb1_first V c t h, tpt_of_val t 0 h]

/-- At the last point the output block is the finished layer of this point's accumulator and blocks. -/
theorem out1_last (c : Dev nD) (t : Fin cfg1.N) (h : t.val = 4999) :
    out1 V c = k1_pay4 (accAt1 V c t.val) (iblk1 V c 3 t) (iblk1 V c 4 t) (iblk1 V c 5 t) (iblk1 V c 0 t) (iblk1 V c 6 t) := by
  unfold out1; rw [tpt_of_val t 4999 h, h]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leavesIn1 (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t)
    ∧ (dat1 V c).leavesExact 4 t = owns (c : Thread nD τ) (st1_4 t) fullShare (iblk1 V c 4 t)
    ∧ (dat1 V c).leavesExact 5 t = owns (c : Thread nD τ) (st1_5 t) fullShare (iblk1 V c 5 t)
    ∧ (dat1 V c).leavesExact 6 t = owns (c : Thread nD τ) (st1_6 t) fullShare (iblk1 V c 6 t) := by
  refine ⟨?_, ?_, ?_, ?_, ?_, ?_, ?_⟩ <;> (unfold Dat.leavesExact; dsimp only [dat1])

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) from rfl, Phi_castSucc1]
  obtain ⟨e0, e1, e2, e3, e4, e5, e6⟩ := leavesIn1 V c t
  rw [e0, e1, e2, e3, e4, e5, e6]
  have hN : t.val < 5000 := lt_of_lt_of_eq t.isLt N_1
  by_cases h1 : t.val = 4999
  · -- the last point
    have hc0 : ¬cond1_0 (grid1.coords t) := fun h => by have := (hcond1_0 t).mp h; omega
    have hc1 : cond1_1 (grid1.coords t) := (hcond1_1 t).mpr h1
    rw [show (dat1 V c).leavesExact 7 t = owns (c : Thread nD τ) (st1_7 t) fullShare ((dat1 V c).after 7 t) from by
      unfold Dat.leavesExact; rw [liveAt1_7 _ hc1], after1_7]
    rw [PhiS1_pos V c t.val (by omega)]
    show _ ⊢ wp _ _ _ _ (fun _ => iprop((((owns (c : Thread nD τ) scM1_0 fullShare (accAt1 V c t.val) ∗ owns (c : Thread nD τ) scM1_1 fullShare (xb1 V c)) ∗ Rest1 c) ∗ (∃ r, prngReg c r)) ∗ _))
    rw [out1_last V c t h1, accAt1_pos V c t (by omega)]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (accAt1 V c (t.val - 1)) (xb1 V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond1_1 (grid1.coords t) := fun h => h1 ((hcond1_1 t).mp h)
    rw [Dat.leavesExact_idle (dat1 V c) 7 t (idleAt1_7 _ hc1) (noFlush1_7 t hc1)]
    by_cases h0 : t.val = 0
    · -- the first point
      have hc0 : cond1_0 (grid1.coords t) := (hcond1_0 t).mpr h0
      rw [show PhiS1 V c t.val = Pipeline.ΦA spec1 c from by rw [h0]; rfl, PhiA1_eq]
      show _ ⊢ wp _ _ _ _ (fun _ => iprop((((owns (c : Thread nD τ) scM1_0 fullShare (accAt1 V c t.val) ∗ owns (c : Thread nD τ) scM1_1 fullShare (xb1 V c)) ∗ Rest1 c) ∗ (∃ r, prngReg c r)) ∗ _))
      rw [accAt1_first V c t h0, xb1_first V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a middle point
      have hc0 : ¬cond1_0 (grid1.coords t) := fun h => h0 ((hcond1_0 t).mp h)
      rw [PhiS1_pos V c t.val h0]
      show _ ⊢ wp _ _ _ _ (fun _ => iprop((((owns (c : Thread nD τ) scM1_0 fullShare (accAt1 V c t.val) ∗ owns (c : Thread nD τ) scM1_1 fullShare (xb1 V c)) ∗ Rest1 c) ∗ (∃ r, prngReg c r)) ∗ _))
      rw [accAt1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) (accAt1 V c (t.val - 1)) (xb1 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 from rfl]
  exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 5000 := N_1; omega), PhiA1_eq]
  iintro ⟨⟨⟨H0, H1⟩, HR⟩, Hg⟩
  isplitr [Hg]
  · isplitr [HR]
    · isplitl [H0]; · iexists _; iexact H0
      iexists _; iexact H1
    iexact HR
  iexact Hg

end Cert.KernelIdeal.R1

end
-- ==== Proof.MainRun.lean ====
/-
  The whole program as a chain of four items — the host operations before the first kernel region, that region,
  the one host operation between the regions, the second region — with the contents of every unscoped buffer named
  at each boundary: as launched; after the first host stretch; after region 0 (its arrays at what its write-backs
  leave, everything else as entered); after the second stretch; after region 1.  Every weakly fair execution
  terminates without a fault; at the end the result array holds what region 1's write-backs leave, and every
  argument array holds what it was launched with: no host operation writes an argument, and a region only reads one.
-/
import proofs.«422308_j53472342835254_2_alg».proof.Proof.Region0
import proofs.«422308_j53472342835254_2_alg».proof.Proof.Region1
import proofs.«422308_j53472342835254_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Main

open Cert.KernelIdeal Cert.KernelIdeal.Gen Cert.KernelIdeal.R0 Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev Vat1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vat1 m ρ) c).arrAt w cfg0.N
theorem W2_arr (c : Dev nD) (w : Fin cfg0.W) :
    W2 m ρ c (Proc.devRef .tc (Pipeline.arrRef spec0 w)) = (dat0 (Vat1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vat2 : (c : Dev nD) → (b : Ref sig .tc) → Buf (Elt F) ((c : Thread nD τ).loc b) := fun c b => W2 m ρ c b
theorem hF0 (c : Dev nD) (w : Fin cfg0.W) : (dat0 (Vat1 m ρ) c).arrAt w cfg0.N = Vat2 m ρ c (Pipeline.arrRef spec0 w) :=
  (W2_arr m ρ c w).symm
theorem hrest0 (c : Dev nD) : ∀ b, b ∉ Finset.univ.image (Pipeline.arrRef spec0) → Vat2 m ρ c b = Vat1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev Vat3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (Vat3 m ρ) c).arrAt w cfg1.N
theorem W4_arr (c : Dev nD) (w : Fin cfg1.W) :
    W4 m ρ c (Proc.devRef .tc (Pipeline.arrRef spec1 w)) = (dat1 (Vat3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vat4 : (c : Dev nD) → (b : Ref sig .tc) → Buf (Elt F) ((c : Thread nD τ).loc b) := fun c b => W4 m ρ c b
theorem hF1 (c : Dev nD) (w : Fin cfg1.W) : (dat1 (Vat3 m ρ) c).arrAt w cfg1.N = Vat4 m ρ c (Pipeline.arrRef spec1 w) :=
  (W4_arr m ρ c w).symm
theorem hrest1 (c : Dev nD) : ∀ b, b ∉ Finset.univ.image (Pipeline.arrRef spec1) → Vat4 m ρ c b = Vat3 m ρ c b :=
  fun b hb => W4_of_ne m ρ c b fun w e => hb (Finset.mem_image.mpr ⟨w, Finset.mem_univ _, e⟩)

/-- A host stretch leaves a reference it does not write as it found it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched; the result is what region 1 leaves -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (Vat1 m ρ) c).arrAt_in 0 rfl _).trans (A_eq0 (Vat1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 4).trans (((dat0 (Vat1 m ρ) c).arrAt_in 4 rfl _).trans (A_eq0 (Vat1 m ρ) c 4))
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 6).trans (((dat0 (Vat1 m ρ) c).arrAt_in 6 rfl _).trans (A_eq0 (Vat1 m ρ) c 6))
    _ = W0 m ρ c (Proc.devRef .tc main_arg4) := W1_of m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 4).trans (((dat1 (Vat3 m ρ) c).arrAt_in 4 rfl _).trans (A_eq1 (Vat3 m ρ) c 4))
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 6).trans (((dat1 (Vat3 m ρ) c).arrAt_in 6 rfl _).trans (A_eq1 (Vat3 m ρ) c 6))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W4_main_v19 (c : Dev nD) : W4 m ρ c (Proc.devRef .tc main_v19) = (dat1 (Vat3 m ρ) c).arrAt 7 cfg1.N :=
  W4_arr m ρ c 7

/-! ## The proof data family and the thread state -/

abbrev admK : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admK p) c
  | ⟨0, _⟩ => fun c => dat0 (Vat1 m ρ) c
  | ⟨1, _⟩ => fun c => dat1 (Vat3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- Region 0 over the thread state: entered with every unscoped buffer at the boundary's contents, left at the next
    boundary's: its arrays are split out of the unscoped buffers and put back at what the pipeline leaves; the
    generator register goes into the region's invariant and comes back; nothing is owed. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vat1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vat1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (Vat1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vat1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (Vat1 m ρ c) (Vat2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left at the next
    boundary's: its arrays are split out of the unscoped buffers and put back at what the pipeline leaves; the
    generator register goes into the region's invariant and comes back; nothing is owed. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vat3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vat3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (Vat3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vat3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (Vat3 m ρ c) (Vat4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev mainSegs : List (Pipeline.Seg (pcfgs (F := F)) admK (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (mainSegs m ρ) := (main_chain c).trans (by chain_rfl)

set_option backward.isDefEq.respectTransparency.types false in
/-- THE RUN. From any memory with zero counters every weakly fair execution terminates, nothing faulting; the result
    array ends at what region 1's write-backs leave and every argument array as launched. -/
theorem run_main : θ_run defs (onTc (τ := τ) (main (F := F))) ⟨m, fun _ => 0, ρ⟩ (fun r => ∀ c : Dev nD,
      r.2.mem ((c.tc : Thread nD τ).loc main_v19) = (dat1 (Vat3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) admK (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ ((∃ r, prngReg c r) ∗ ∃ W, owes (c : Thread nD τ) (0 : CellTallies nD τ sig Unit) W))
        ⊢ iprop((StableHlo.held (c : Thread nD τ) (Pipeline.ucRefs τ sig) (W4 m ρ c) ∗ ∃ r, prngReg c r) ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v19 (by decide))).trans (W4_main_v19 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Main

end
-- ==== Proof.Bits.Shared0.lean ====
/-
  Region 0 (the first layer's kernel) at the contents `V` its core holds when the region is entered: each
  window's block at a grid point, the two conditions of the body in closed form (the first point resets the
  accumulator and casts the features once; the last point finishes the layer), where the output window is idle,
  and what the two scratch buffers and the output hold point by point — the accumulator after point n is the
  accumulator before it plus chunk n's contribution, started from zero at point 0; the output, stored at the last
  point only, is the layer's final expression of the last accumulator.
-/
import proofs.«422308_j53472342835254_2_alg».proof.Proof.Gen.Kernel.Launch
import proofs.«422308_j53472342835254_2_alg».proof.Proof.Gen.Kernel.Skeleton
import proofs.«422308_j53472342835254_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first conditional's test: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's test: the grid coordinate is the last one, 4999. -/
abbrev cond0_1 (i : grid0.Coords) : Prop := k0_cond2 i = 1#1
theorem hcond0_1 : ∀ t : Fin cfg0.N, cond0_1 (grid0.coords t) ↔ t.val = 4999 :=
  (by decide +kernel : ∀ t : Fin grid0.N, cond0_1 (grid0.coords t) ↔ t.val = 4999)

/-! ## Where the output window is idle -/

theorem idleAt0_7 (i : grid0.Coords) (h : ¬cond0_1 i) : cfg0.idle 7 i = true := by
  show (!(k0_cond2 i == 1#1)) = true
  simp only [Bool.not_eq_true', beq_eq_false_iff_ne, ne_eq]; exact h
theorem liveAt0_7 (i : grid0.Coords) (h : cond0_1 i) : cfg0.idle 7 i = false := by
  show (!(k0_cond2 i == 1#1)) = false
  simp only [Bool.not_eq_false', beq_iff_eq]; exact h
theorem noFlush0_7 (t : Fin cfg0.N) (h : ¬cond0_1 (grid0.coords t)) : (cfg0.win 7).flush t = false := by
  have h1 := (not_congr (hcond0_1 t)).mp h
  have h2 := (not_congr (flush0_7 t)).mpr (by have := t.isLt; have hN : cfg0.N = 5000 := N_0; omega)
  simpa using h2

/-! ## The scratch buffers -/

/-- The accumulator scratch (f32) and the cast-features scratch (bf16), whole scoped buffers of the kernel's own. -/
abbrev scM0_0 : Memref sig .tc .vmem S10000x128 .f32 := Memref.whole cc0_scratch0
abbrev scM0_1 : Memref sig .tc .vmem S10000x128 .bf16 := Memref.whole cc0_scratch1

/-! ## What the scratch buffers and the output hold -/

/-- Position `n` as a grid point (positions are taken modulo the grid's 5000 points). -/
def tpt (n : ℕ) : Fin cfg0.N := ⟨n % 5000, lt_of_lt_of_eq (Nat.mod_lt _ (by decide)) (show (5000 : ℕ) = cfg0.N from N_0.symm)⟩
theorem tpt_val (t : Fin cfg0.N) : tpt t.val = t :=
  Fin.ext (Nat.mod_eq_of_lt (lt_of_lt_of_eq t.isLt (show cfg0.N = 5000 from N_0)))

/-- The features cast once, at the first point. -/
def xb0 (c : Dev nD) : Vec F S10000x128 .bf16 := k0_pay2 (iblk0 V c 0 (tpt 0))

/-- The accumulator after point `n`. -/
def accAt0 (c : Dev nD) : ℕ → Vec F S10000x128 .f32
  | 0 => k0_pay3 (iblk0 V c 1 (tpt 0)) (iblk0 V c 2 (tpt 0)) (xb0 V c) (k0_pay1 (F := F))
  | n + 1 => k0_pay3 (iblk0 V c 1 (tpt (n + 1))) (iblk0 V c 2 (tpt (n + 1))) (xb0 V c) (accAt0 c n)

/-- The output block stored at the last point. -/
def out0 (c : Dev nD) : Vec F S10000x128 .f32 :=
  k0_pay4 (accAt0 V c 4999) (iblk0 V c 3 (tpt 4999)) (iblk0 V c 4 (tpt 4999)) (iblk0 V c 5 (tpt 4999)) (iblk0 V c 0 (tpt 4999)) (iblk0 V c 6 (tpt 4999))

end Cert.Kernel.R0

end
-- ==== Proof.Bits.Run0.lean ====
/-
  The kernel body of region 0 on any whole staging and scratch memrefs, in each of its three cases: at the first
  grid point it zeroes the accumulator, casts the features into the second scratch, and adds the first chunk's
  contribution; at a middle point it adds that chunk's contribution to the accumulator it finds; at the last point
  it does the same and then stores the finished layer into the output block.  Each run leaves the inputs as they were.
-/
import proofs.«422308_j53472342835254_2_alg».proof.Proof.Bits.Shared0
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however they are spelt. -/
theorem run0_hz : (![0, 0] : Fin 2 → Nat) = fun _ => 0 := funext fun a => by fin_cases a <;> rfl

/-- A store through the whole-shape rectangle at zero offsets, made last, leaves its payload in the buffer whatever
    the earlier stores and the prior contents were: the store covers every index, and the last cover wins. -/
theorem run0_read_writes_whole_last {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _
    (fun y => ⟨_, List.mem_cons.mpr (Or.inl rfl), View.mem_set_unit_zero h inb y⟩)).trans
    (View.canon_cons_unit_zero h inb w L)

set_option maxHeartbeats 1000000 in
/-- FIRST POINT: accumulator := chunk's contribution over zero; cast features stored; the output block untouched. -/
theorem run0_A (c : Dev nD) (i : grid0.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : cond0_0 i) (hc1 : ¬cond0_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 x2 x3 (k0_pay2 x1) (k0_pay1 (F := F))) ∗ owns (c : Thread nD τ) arg10 fullShare (k0_pay2 x1)) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: the update, stored last, covers the buffer; its operands read back the zero fill and the cast features
  isplitl [H9]
  · iexists _; isplitr
    swap; · iexact H9
    ipureintro
    refine (run0_read_writes_whole_last (S := S10000x128) _ _ run0_hz _ _ _).trans ?_
    sl_unfold_words
    simp only [View.readAt_eq_ld, harg1.read_unread, harg2.read_unread, harg3.read_unread,
      View.ld_unit_zero (S := S128x1) run0_hz, View.ld_unit_zero (S := S1x128) run0_hz, View.ld_unit_zero (S := S10000x128) run0_hz,
      View.readCov_unit_zero (S := S10000x128) _ run0_hz]
  -- the cast features: one store of the cast of the features covers the buffer
  iexists _; isplitr
  swap; · iexact H10
  ipureintro
  sl_unfold_words
  refine (run0_read_writes_whole_last (S := S10000x128) _ _ run0_hz _ _ _).trans ?_
  simp only [View.readAt_eq_ld, harg1.read_unread, View.ld_unit_zero (S := S10000x128) run0_hz]

set_option maxHeartbeats 1000000 in
/-- MIDDLE POINT: accumulator := accumulator + chunk's contribution; the cast features and the output block untouched. -/
theorem run0_B (c : Dev nD) (i : grid0.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond0_0 i) (hc1 : ¬cond0_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 x2 x3 a10 a9) ∗ owns (c : Thread nD τ) arg10 fullShare a10) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: one store of the update over what the buffer held covers it
  isplitl [H9]
  · iexists _; isplitr
    swap; · iexact H9
    ipureintro
    refine (run0_read_writes_whole_last (S := S10000x128) _ _ run0_hz _ _ _).trans ?_
    simp only [View.readAt_eq_ld, harg2.read_unread, harg3.read_unread, harg9.read_unread, harg10.read_unread,
      View.ld_unit_zero (S := S128x1) run0_hz, View.ld_unit_zero (S := S1x128) run0_hz, View.ld_unit_zero (S := S10000x128) run0_hz]
  iexists _; isplitr; · ipureintro; exact harg10.read_unread _
  iexact H10

set_option maxHeartbeats 1000000 in
/-- LAST POINT: accumulator := accumulator + chunk's contribution, then the output block := the finished layer. -/
theorem run0_C (c : Dev nD) (i : grid0.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond0_0 i) (hc1 : cond0_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay4 (k0_pay3 x2 x3 a10 a9) x4 x5 x6 x1 x7) ∗ owns (c : Thread nD τ) arg9 fullShare (k0_pay3 x2 x3 a10 a9) ∗ owns (c : Thread nD τ) arg10 fullShare a10) -∗ K ⟨⟩))
      ⊢ wp frame (wpE (defs₀ (F := F)) Variants.none c none) E (cc0__sage_kernel i arg1 harg1 arg2 harg2 arg3 harg3 arg4 harg4 arg5 harg5 arg6 harg6 arg7 harg7 arg8 harg8 arg9 harg9 arg10 harg10) K := by
  simp only [cc0__sage_kernel_eq_skeleton]; unfold cc0__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the output block: one store of the finished layer covers it; its first operand reads back the updated accumulator
  isplitl [H8]
  · iexists _; isplitr
    swap; · iexact H8
    ipureintro
    refine (run0_read_writes_whole_last (S := S10000x128) _ _ run0_hz _ _ _).trans ?_
    sl_unfold_words
    simp only [View.readAt_eq_ld, harg1.read_unread, harg2.read_unread, harg3.read_unread, harg4.read_unread,
      harg5.read_unread, harg6.read_unread, harg7.read_unread, harg9.read_unread, harg10.read_unread,
      View.ld_unit_zero (S := S128x1) run0_hz, View.ld_unit_zero (S := S1x128) run0_hz, View.ld_unit_zero (S := S10000x128) run0_hz,
      View.ld_unit_zero (S := S10000x1) run0_hz, View.ld_unit_zero (S := S128x128) run0_hz,
      View.readCov_unit_zero (S := S10000x128) _ run0_hz]
  -- the accumulator: one store of the update over what the buffer held covers it
  isplitl [H9]
  · iexists _; isplitr
    swap; · iexact H9
    ipureintro
    sl_unfold_words
    refine (run0_read_writes_whole_last (S := S10000x128) _ _ run0_hz _ _ _).trans ?_
    simp only [View.readAt_eq_ld, harg2.read_unread, harg3.read_unread, harg9.read_unread, harg10.read_unread,
      View.ld_unit_zero (S := S128x1) run0_hz, View.ld_unit_zero (S := S1x128) run0_hz, View.ld_unit_zero (S := S10000x128) run0_hz]
  iexists _; isplitr; · ipureintro; exact harg10.read_unread _
  iexact H10

end Cert.Kernel.R0

end
-- ==== Proof.Bits.Region0.lean ====
/-
  Region 0 as a pipeline: what its core owns between grid points and the obligation its body meets at each point.
  Before the first point the kernel's two scratch buffers hold anything; after point n the accumulator scratch
  holds the accumulator after n points (Shared: `accAt0`) and the second scratch the features cast once (`xb0`).
  Every input window's buffer is left holding its block; the output window is idle (left as found, not written
  back) at every point but the last, where it is left holding the finished layer (`out0`).
-/
import proofs.«422308_j53472342835254_2_alg».proof.Proof.Bits.Run0

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The scoped buffers of the core that are neither this region's staging buffers nor its two scratch buffers, each
    whole at some contents: they ride along untouched. -/
def Rest0 (c : Dev nD) : sProp 𝕄 :=
  Pipeline.scopedRestBut (Ix := Unit) (Name := ℕ) (U := UR sig nD τ) (Lvl := ℕ) (Val := Elt F) spec0 c [cc0_scratch0, cc0_scratch1]

/-- The class's invariant with the two scratch buffers as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d)) ∗ Rest0 c) ∗ (∃ r, prngReg c r)) := by
  unfold Pipeline.ΦA Rest0
  rw [Pipeline.scopedRest_split_of_list (win := spec0) (c := c) [cc0_scratch0, cc0_scratch1] (by decide) (by decide)]
  simp only [scM0_0, scM0_1, owns_whole]; rfl

/-- Before position `n`: anything in the scratch buffers before the first point; afterwards the accumulator after
    `n - 1` points and the cast features. -/
def PhiS0 (c : Dev nD) : ℕ → sProp 𝕄
  | 0 => Pipeline.ΦA spec0 c
  | n + 1 => iprop(((owns (c : Thread nD τ) scM0_0 fullShare (accAt0 V c n) ∗ owns (c : Thread nD τ) scM0_1 fullShare (xb0 V c)) ∗ Rest0 c) ∗ (∃ r, prngReg c r))

theorem PhiS0_pos (c : Dev nD) (n : ℕ) (hz : n ≠ 0) :
    PhiS0 V c n = iprop(((owns (c : Thread nD τ) scM0_0 fullShare (accAt0 V c (n - 1)) ∗ owns (c : Thread nD τ) scM0_1 fullShare (xb0 V c)) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 V c
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0 V c := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

theorem Phi_castSucc0 (c : Dev nD) (t : Fin cfg0.N) : (dat0 V c).Φ t.castSucc = PhiS0 V c t.val := by
  dsimp only [dat0]; simp only [Fin.coe_castSucc]

/-! ## The accumulator and the output at a point -/

theorem tpt_of_val (t : Fin cfg0.N) (n : ℕ) (h : t.val = n) : tpt n = t := (congrArg tpt h.symm).trans (tpt_val t)

/-- After a point that is not the first: the accumulator before it plus this point's chunk. -/
theorem accAt0_pos (c : Dev nD) (t : Fin cfg0.N) (h : t.val ≠ 0) :
    accAt0 V c t.val = k0_pay3 (iblk0 V c 1 t) (iblk0 V c 2 t) (xb0 V c) (accAt0 V c (t.val - 1)) := by
  obtain ⟨n, hn⟩ := t
  cases n with
  | zero => exact absurd rfl h
  | succ n =>
    have e : tpt (n + 1) = ⟨n + 1, hn⟩ := tpt_val ⟨n + 1, hn⟩
    show k0_pay3 (iblk0 V c 1 (tpt (n + 1))) (iblk0 V c 2 (tpt (n + 1))) (xb0 V c) (accAt0 V c n) = _
    rw [e]; rfl

/-- At the first point the cast features are this point's, and the accumulator is its chunk over zero. -/
theorem xb0_first (c : Dev nD) (t : Fin cfg0.N) (h : t.val = 0) : xb0 V c = k0_pay2 (iblk0 V c 0 t) := by
  unfold xb0; rw [tpt_of_val t 0 h]
theorem accAt0_first (c : Dev nD) (t : Fin cfg0.N) (h : t.val = 0) :
    accAt0 V c t.val = k0_pay3 (iblk0 V c 1 t) (iblk0 V c 2 t) (k0_pay2 (iblk0 V c 0 t)) (k0_pay1 (F := F)) := by
  rw [h]
  show k0_pay3 (iblk0 V c 1 (tpt 0)) (iblk0 V c 2 (tpt 0)) (xb0 V c) (k0_pay1 (F := F)) = _
  rw [xb0_first V c t h, tpt_of_val t 0 h]

/-- At the last point the output block is the finished layer of this point's accumulator and blocks. -/
theorem out0_last (c : Dev nD) (t : Fin cfg0.N) (h : t.val = 4999) :
    out0 V c = k0_pay4 (accAt0 V c t.val) (iblk0 V c 3 t) (iblk0 V c 4 t) (iblk0 V c 5 t) (iblk0 V c 0 t) (iblk0 V c 6 t) := by
  unfold out0; rw [tpt_of_val t 4999 h, h]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

theorem leavesIn0 (c : Dev nD) (t : Fin cfg0.N) :
    (dat0 V c).leavesExact 0 t = owns (c : Thread nD τ) (st0_0 t) fullShare (iblk0 V c 0 t)
    ∧ (dat0 V c).leavesExact 1 t = owns (c : Thread nD τ) (st0_1 t) fullShare (iblk0 V c 1 t)
    ∧ (dat0 V c).leavesExact 2 t = owns (c : Thread nD τ) (st0_2 t) fullShare (iblk0 V c 2 t)
    ∧ (dat0 V c).leavesExact 3 t = owns (c : Thread nD τ) (st0_3 t) fullShare (iblk0 V c 3 t)
    ∧ (dat0 V c).leavesExact 4 t = owns (c : Thread nD τ) (st0_4 t) fullShare (iblk0 V c 4 t)
    ∧ (dat0 V c).leavesExact 5 t = owns (c : Thread nD τ) (st0_5 t) fullShare (iblk0 V c 5 t)
    ∧ (dat0 V c).leavesExact 6 t = owns (c : Thread nD τ) (st0_6 t) fullShare (iblk0 V c 6 t) := by
  refine ⟨?_, ?_, ?_, ?_, ?_, ?_, ?_⟩ <;> (unfold Dat.leavesExact; dsimp only [dat0])

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) from rfl, Phi_castSucc0]
  obtain ⟨e0, e1, e2, e3, e4, e5, e6⟩ := leavesIn0 V c t
  rw [e0, e1, e2, e3, e4, e5, e6]
  have hN : t.val < 5000 := lt_of_lt_of_eq t.isLt N_0
  by_cases h1 : t.val = 4999
  · -- the last point
    have hc0 : ¬cond0_0 (grid0.coords t) := fun h => by have := (hcond0_0 t).mp h; omega
    have hc1 : cond0_1 (grid0.coords t) := (hcond0_1 t).mpr h1
    rw [show (dat0 V c).leavesExact 7 t = owns (c : Thread nD τ) (st0_7 t) fullShare ((dat0 V c).after 7 t) from by
      unfold Dat.leavesExact; rw [liveAt0_7 _ hc1], after0_7]
    rw [PhiS0_pos V c t.val (by omega)]
    show _ ⊢ wp _ _ _ _ (fun _ => iprop((((owns (c : Thread nD τ) scM0_0 fullShare (accAt0 V c t.val) ∗ owns (c : Thread nD τ) scM0_1 fullShare (xb0 V c)) ∗ Rest0 c) ∗ (∃ r, prngReg c r)) ∗ _))
    rw [out0_last V c t h1, accAt0_pos V c t (by omega)]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (accAt0 V c (t.val - 1)) (xb0 V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond0_1 (grid0.coords t) := fun h => h1 ((hcond0_1 t).mp h)
    rw [Dat.leavesExact_idle (dat0 V c) 7 t (idleAt0_7 _ hc1) (noFlush0_7 t hc1)]
    by_cases h0 : t.val = 0
    · -- the first point
      have hc0 : cond0_0 (grid0.coords t) := (hcond0_0 t).mpr h0
      rw [show PhiS0 V c t.val = Pipeline.ΦA spec0 c from by rw [h0]; rfl, PhiA0_eq]
      show _ ⊢ wp _ _ _ _ (fun _ => iprop((((owns (c : Thread nD τ) scM0_0 fullShare (accAt0 V c t.val) ∗ owns (c : Thread nD τ) scM0_1 fullShare (xb0 V c)) ∗ Rest0 c) ∗ (∃ r, prngReg c r)) ∗ _))
      rw [accAt0_first V c t h0, xb0_first V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) ((dat0 V c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a middle point
      have hc0 : ¬cond0_0 (grid0.coords t) := fun h => h0 ((hcond0_0 t).mp h)
      rw [PhiS0_pos V c t.val h0]
      show _ ⊢ wp _ _ _ _ (fun _ => iprop((((owns (c : Thread nD τ) scM0_0 fullShare (accAt0 V c t.val) ∗ owns (c : Thread nD τ) scM0_1 fullShare (xb0 V c)) ∗ Rest0 c) ∗ (∃ r, prngReg c r)) ∗ _))
      rw [accAt0_pos V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) ((dat0 V c).before 7 t d7) (accAt0 V c (t.val - 1)) (xb0 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 from rfl]
  exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 5000 := N_0; omega), PhiA0_eq]
  iintro ⟨⟨⟨H0, H1⟩, HR⟩, Hg⟩
  isplitr [Hg]
  · isplitr [HR]
    · isplitl [H0]; · iexists _; iexact H0
      iexists _; iexact H1
    iexact HR
  iexact Hg

end Cert.Kernel.R0

end
-- ==== Proof.Bits.Shared1.lean ====
/-
  Region 1 (the second layer's kernel) at the contents `V` its core holds when the region is entered: each
  window's block at a grid point, the two conditions of the body in closed form (the first point resets the
  accumulator and casts the features once; the last point finishes the layer), where the output window is idle,
  and what the two scratch buffers and the output hold point by point — the accumulator after point n is the
  accumulator before it plus chunk n's contribution, started from zero at point 0; the output, stored at the last
  point only, is the layer's final expression of the last accumulator.
-/
import proofs.«422308_j53472342835254_2_alg».proof.Proof.Gen.Kernel.Launch
import proofs.«422308_j53472342835254_2_alg».proof.Proof.Gen.Kernel.Skeleton
import proofs.«422308_j53472342835254_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's test: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's test: the grid coordinate is the last one, 4999. -/
abbrev cond1_1 (i : grid1.Coords) : Prop := k1_cond2 i = 1#1
theorem hcond1_1 : ∀ t : Fin cfg1.N, cond1_1 (grid1.coords t) ↔ t.val = 4999 :=
  (by decide +kernel : ∀ t : Fin grid1.N, cond1_1 (grid1.coords t) ↔ t.val = 4999)

/-! ## Where the output window is idle -/

theorem idleAt1_7 (i : grid1.Coords) (h : ¬cond1_1 i) : cfg1.idle 7 i = true := by
  show (!(k1_cond2 i == 1#1)) = true
  simp only [Bool.not_eq_true', beq_eq_false_iff_ne, ne_eq]; exact h
theorem liveAt1_7 (i : grid1.Coords) (h : cond1_1 i) : cfg1.idle 7 i = false := by
  show (!(k1_cond2 i == 1#1)) = false
  simp only [Bool.not_eq_false', beq_iff_eq]; exact h
theorem noFlush1_7 (t : Fin cfg1.N) (h : ¬cond1_1 (grid1.coords t)) : (cfg1.win 7).flush t = false := by
  have h1 := (not_congr (hcond1_1 t)).mp h
  have h2 := (not_congr (flush1_7 t)).mpr (by have := t.isLt; have hN : cfg1.N = 5000 := N_1; omega)
  simpa using h2

/-! ## The scratch buffers -/

/-- The accumulator scratch (f32) and the cast-features scratch (bf16), whole scoped buffers of the kernel's own. -/
abbrev scM1_0 : Memref sig .tc .vmem S10000x128 .f32 := Memref.whole cc1_scratch0
abbrev scM1_1 : Memref sig .tc .vmem S10000x128 .bf16 := Memref.whole cc1_scratch1

/-! ## What the scratch buffers and the output hold -/

/-- Position `n` as a grid point (positions are taken modulo the grid's 5000 points). -/
def tpt (n : ℕ) : Fin cfg1.N := ⟨n % 5000, lt_of_lt_of_eq (Nat.mod_lt _ (by decide)) (show (5000 : ℕ) = cfg1.N from N_1.symm)⟩
theorem tpt_val (t : Fin cfg1.N) : tpt t.val = t :=
  Fin.ext (Nat.mod_eq_of_lt (lt_of_lt_of_eq t.isLt (show cfg1.N = 5000 from N_1)))

/-- The features cast once, at the first point. -/
def xb1 (c : Dev nD) : Vec F S10000x128 .bf16 := k1_pay2 (iblk1 V c 0 (tpt 0))

/-- The accumulator after point `n`. -/
def accAt1 (c : Dev nD) : ℕ → Vec F S10000x128 .f32
  | 0 => k1_pay3 (iblk1 V c 1 (tpt 0)) (iblk1 V c 2 (tpt 0)) (xb1 V c) (k1_pay1 (F := F))
  | n + 1 => k1_pay3 (iblk1 V c 1 (tpt (n + 1))) (iblk1 V c 2 (tpt (n + 1))) (xb1 V c) (accAt1 c n)

/-- The output block stored at the last point. -/
def out1 (c : Dev nD) : Vec F S10000x128 .f32 :=
  k1_pay4 (accAt1 V c 4999) (iblk1 V c 3 (tpt 4999)) (iblk1 V c 4 (tpt 4999)) (iblk1 V c 5 (tpt 4999)) (iblk1 V c 0 (tpt 4999)) (iblk1 V c 6 (tpt 4999))

end Cert.Kernel.R1

end
-- ==== Proof.Bits.Run1.lean ====
/-
  The kernel body of region 1 on any whole staging and scratch memrefs, in each of its three cases: at the first
  grid point it zeroes the accumulator, casts the features into the second scratch, and adds the first chunk's
  contribution; at a middle point it adds that chunk's contribution to the accumulator it finds; at the last point
  it does the same and then stores the finished layer into the output block.  Each run leaves the inputs as they were.
-/
import proofs.«422308_j53472342835254_2_alg».proof.Proof.Bits.Shared1
import Idealize.ShloMosaic.Lib.Pipeline.Value

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however they are spelt. -/
theorem run1_hz : (![0, 0] : Fin 2 → Nat) = fun _ => 0 := funext fun a => by fin_cases a <;> rfl

/-- A store through the whole-shape rectangle at zero offsets, made last, leaves its payload in the buffer whatever
    the earlier stores and the prior contents were: the store covers every index, and the last cover wins. -/
theorem run1_read_writes_whole_last {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _
    (fun y => ⟨_, List.mem_cons.mpr (Or.inl rfl), View.mem_set_unit_zero h inb y⟩)).trans
    (View.canon_cons_unit_zero h inb w L)

set_option maxHeartbeats 1000000 in
/-- FIRST POINT: accumulator := chunk's contribution over zero; cast features stored; the output block untouched. -/
theorem run1_A (c : Dev nD) (i : grid1.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : cond1_0 i) (hc1 : ¬cond1_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k1_pay3 x2 x3 (k1_pay2 x1) (k1_pay1 (F := F))) ∗ owns (c : Thread nD τ) arg10 fullShare (k1_pay2 x1)) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: the update, stored last, covers the buffer; its operands read back the zero fill and the cast features
  isplitl [H9]
  · iexists _; isplitr
    swap; · iexact H9
    ipureintro
    refine (run1_read_writes_whole_last (S := S10000x128) _ _ run1_hz _ _ _).trans ?_
    sl_unfold_words
    simp only [View.readAt_eq_ld, harg1.read_unread, harg2.read_unread, harg3.read_unread,
      View.ld_unit_zero (S := S128x1) run1_hz, View.ld_unit_zero (S := S1x128) run1_hz, View.ld_unit_zero (S := S10000x128) run1_hz,
      View.readCov_unit_zero (S := S10000x128) _ run1_hz]
  -- the cast features: one store of the cast of the features covers the buffer
  iexists _; isplitr
  swap; · iexact H10
  ipureintro
  sl_unfold_words
  refine (run1_read_writes_whole_last (S := S10000x128) _ _ run1_hz _ _ _).trans ?_
  simp only [View.readAt_eq_ld, harg1.read_unread, View.ld_unit_zero (S := S10000x128) run1_hz]

set_option maxHeartbeats 1000000 in
/-- MIDDLE POINT: accumulator := accumulator + chunk's contribution; the cast features and the output block untouched. -/
theorem run1_B (c : Dev nD) (i : grid1.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond1_0 i) (hc1 : ¬cond1_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (x8 : Vec F S10000x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k1_pay3 x2 x3 a10 a9) ∗ owns (c : Thread nD τ) arg10 fullShare a10) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the accumulator: one store of the update over what the buffer held covers it
  isplitl [H9]
  · iexists _; isplitr
    swap; · iexact H9
    ipureintro
    refine (run1_read_writes_whole_last (S := S10000x128) _ _ run1_hz _ _ _).trans ?_
    simp only [View.readAt_eq_ld, harg2.read_unread, harg3.read_unread, harg9.read_unread, harg10.read_unread,
      View.ld_unit_zero (S := S128x1) run1_hz, View.ld_unit_zero (S := S1x128) run1_hz, View.ld_unit_zero (S := S10000x128) run1_hz]
  iexists _; isplitr; · ipureintro; exact harg10.read_unread _
  iexact H10

set_option maxHeartbeats 1000000 in
/-- LAST POINT: accumulator := accumulator + chunk's contribution, then the output block := the finished layer. -/
theorem run1_C (c : Dev nD) (i : grid1.Coords) (arg1 : Memref sig .tc .vmem S10000x128 .f32) (harg1 : arg1.IsWhole) (arg2 : Memref sig .tc .vmem S128x1 .i32) (harg2 : arg2.IsWhole) (arg3 : Memref sig .tc .vmem S1x128 .i32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S10000x128 .bf16) (harg10 : arg10.IsWhole)
    (hc0 : ¬cond1_0 i) (hc1 : cond1_1 i) (x1 : Vec F S10000x128 .f32) (x2 : Vec F S128x1 .i32) (x3 : Vec F S1x128 .i32) (x4 : Vec F S10000x1 .f32) (x5 : Vec F S128x128 .f32) (x6 : Vec F S1x128 .f32) (x7 : Vec F S128x128 .f32) (a9 : Vec F S10000x128 .f32) (a10 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare a9 ∗ owns (c : Thread nD τ) arg10 fullShare a10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k1_pay4 (k1_pay3 x2 x3 a10 a9) x4 x5 x6 x1 x7) ∗ owns (c : Thread nD τ) arg9 fullShare (k1_pay3 x2 x3 a10 a9) ∗ owns (c : Thread nD τ) arg10 fullShare a10) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10) K := by
  simp only [cc1__sage_kernel_eq_skeleton]; unfold cc1__sage_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  -- the output block: one store of the finished layer covers it; its first operand reads back the updated accumulator
  isplitl [H8]
  · iexists _; isplitr
    swap; · iexact H8
    ipureintro
    refine (run1_read_writes_whole_last (S := S10000x128) _ _ run1_hz _ _ _).trans ?_
    sl_unfold_words
    simp only [View.readAt_eq_ld, harg1.read_unread, harg2.read_unread, harg3.read_unread, harg4.read_unread,
      harg5.read_unread, harg6.read_unread, harg7.read_unread, harg9.read_unread, harg10.read_unread,
      View.ld_unit_zero (S := S128x1) run1_hz, View.ld_unit_zero (S := S1x128) run1_hz, View.ld_unit_zero (S := S10000x128) run1_hz,
      View.ld_unit_zero (S := S10000x1) run1_hz, View.ld_unit_zero (S := S128x128) run1_hz,
      View.readCov_unit_zero (S := S10000x128) _ run1_hz]
  -- the accumulator: one store of the update over what the buffer held covers it
  isplitl [H9]
  · iexists _; isplitr
    swap; · iexact H9
    ipureintro
    sl_unfold_words
    refine (run1_read_writes_whole_last (S := S10000x128) _ _ run1_hz _ _ _).trans ?_
    simp only [View.readAt_eq_ld, harg2.read_unread, harg3.read_unread, harg9.read_unread, harg10.read_unread,
      View.ld_unit_zero (S := S128x1) run1_hz, View.ld_unit_zero (S := S1x128) run1_hz, View.ld_unit_zero (S := S10000x128) run1_hz]
  iexists _; isplitr; · ipureintro; exact harg10.read_unread _
  iexact H10

end Cert.Kernel.R1

end
-- ==== Proof.Bits.Region1.lean ====
/-
  Region 1 as a pipeline: what its core owns between grid points and the obligation its body meets at each point.
  Before the first point the kernel's two scratch buffers hold anything; after point n the accumulator scratch
  holds the accumulator after n points (Shared: `accAt1`) and the second scratch the features cast once (`xb1`).
  Every input window's buffer is left holding its block; the output window is idle (left as found, not written
  back) at every point but the last, where it is left holding the finished layer (`out1`).
-/
import proofs.«422308_j53472342835254_2_alg».proof.Proof.Bits.Run1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- The scoped buffers of the core that are neither this region's staging buffers nor its two scratch buffers, each
    whole at some contents: they ride along untouched. -/
def Rest1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch buffers as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ Rest1 c) ∗ (∃ r, prngReg c r)) := by
  unfold Pipeline.ΦA Rest1
  rw [Pipeline.scopedRest_split_of_list (win := spec1) (c := c) [cc1_scratch0, cc1_scratch1] (by decide) (by decide)]
  simp only [scM1_0, scM1_1, owns_whole]; rfl

/-- Before position `n`: anything in the scratch buffers before the first point; afterwards the accumulator after
    `n - 1` points and the cast features. -/
def PhiS1 (c : Dev nD) : ℕ → sProp 𝕄
  | 0 => Pipeline.ΦA spec1 c
  | n + 1 => iprop(((owns (c : Thread nD τ) scM1_0 fullShare (accAt1 V c n) ∗ owns (c : Thread nD τ) scM1_1 fullShare (xb1 V c)) ∗ Rest1 c) ∗ (∃ r, prngReg c r))

theorem PhiS1_pos (c : Dev nD) (n : ℕ) (hz : n ≠ 0) :
    PhiS1 V c n = iprop(((owns (c : Thread nD τ) scM1_0 fullShare (accAt1 V c (n - 1)) ∗ owns (c : Thread nD τ) scM1_1 fullShare (xb1 V c)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

theorem Phi_castSucc1 (c : Dev nD) (t : Fin cfg1.N) : (dat1 V c).Φ t.castSucc = PhiS1 V c t.val := by
  dsimp only [dat1]; simp only [Fin.coe_castSucc]

/-! ## The accumulator and the output at a point -/

theorem tpt_of_val (t : Fin cfg1.N) (n : ℕ) (h : t.val = n) : tpt n = t := (congrArg tpt h.symm).trans (tpt_val t)

/-- After a point that is not the first: the accumulator before it plus this point's chunk. -/
theorem accAt1_pos (c : Dev nD) (t : Fin cfg1.N) (h : t.val ≠ 0) :
    accAt1 V c t.val = k1_pay3 (iblk1 V c 1 t) (iblk1 V c 2 t) (xb1 V c) (accAt1 V c (t.val - 1)) := by
  obtain ⟨n, hn⟩ := t
  cases n with
  | zero => exact absurd rfl h
  | succ n =>
    have e : tpt (n + 1) = ⟨n + 1, hn⟩ := tpt_val ⟨n + 1, hn⟩
    show k1_pay3 (iblk1 V c 1 (tpt (n + 1))) (iblk1 V c 2 (tpt (n + 1))) (xb1 V c) (accAt1 V c n) = _
    rw [e]; rfl

/-- At the first point the cast features are this point's, and the accumulator is its chunk over zero. -/
theorem xb1_first (c : Dev nD) (t : Fin cfg1.N) (h : t.val = 0) : xb1 V c = k1_pay2 (iblk1 V c 0 t) := by
  unfold xb1; rw [tpt_of_val t 0 h]
theorem accAt1_first (c : Dev nD) (t : Fin cfg1.N) (h : t.val = 0) :
    accAt1 V c t.val = k1_pay3 (iblk1 V c 1 t) (iblk1 V c 2 t) (k1_pay2 (iblk1 V c 0 t)) (k1_pay1 (F := F)) := by
  rw [h]
  show k1_pay3 (iblk1 V c 1 (tpt 0)) (iblk1 V c 2 (tpt 0)) (xb1 V c) (k1_pay1 (F := F)) = _
  rw [xb1_first V c t h, tpt_of_val t 0 h]

/-- At the last point the output block is the finished layer of this point's accumulator and blocks. -/
theorem out1_last (c : Dev nD) (t : Fin cfg1.N) (h : t.val = 4999) :
    out1 V c = k1_pay4 (accAt1 V c t.val) (iblk1 V c 3 t) (iblk1 V c 4 t) (iblk1 V c 5 t) (iblk1 V c 0 t) (iblk1 V c 6 t) := by
  unfold out1; rw [tpt_of_val t 4999 h, h]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leavesIn1 (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t)
    ∧ (dat1 V c).leavesExact 4 t = owns (c : Thread nD τ) (st1_4 t) fullShare (iblk1 V c 4 t)
    ∧ (dat1 V c).leavesExact 5 t = owns (c : Thread nD τ) (st1_5 t) fullShare (iblk1 V c 5 t)
    ∧ (dat1 V c).leavesExact 6 t = owns (c : Thread nD τ) (st1_6 t) fullShare (iblk1 V c 6 t) := by
  refine ⟨?_, ?_, ?_, ?_, ?_, ?_, ?_⟩ <;> (unfold Dat.leavesExact; dsimp only [dat1])

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) from rfl, Phi_castSucc1]
  obtain ⟨e0, e1, e2, e3, e4, e5, e6⟩ := leavesIn1 V c t
  rw [e0, e1, e2, e3, e4, e5, e6]
  have hN : t.val < 5000 := lt_of_lt_of_eq t.isLt N_1
  by_cases h1 : t.val = 4999
  · -- the last point
    have hc0 : ¬cond1_0 (grid1.coords t) := fun h => by have := (hcond1_0 t).mp h; omega
    have hc1 : cond1_1 (grid1.coords t) := (hcond1_1 t).mpr h1
    rw [show (dat1 V c).leavesExact 7 t = owns (c : Thread nD τ) (st1_7 t) fullShare ((dat1 V c).after 7 t) from by
      unfold Dat.leavesExact; rw [liveAt1_7 _ hc1], after1_7]
    rw [PhiS1_pos V c t.val (by omega)]
    show _ ⊢ wp _ _ _ _ (fun _ => iprop((((owns (c : Thread nD τ) scM1_0 fullShare (accAt1 V c t.val) ∗ owns (c : Thread nD τ) scM1_1 fullShare (xb1 V c)) ∗ Rest1 c) ∗ (∃ r, prngReg c r)) ∗ _))
    rw [out1_last V c t h1, accAt1_pos V c t (by omega)]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (accAt1 V c (t.val - 1)) (xb1 V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond1_1 (grid1.coords t) := fun h => h1 ((hcond1_1 t).mp h)
    rw [Dat.leavesExact_idle (dat1 V c) 7 t (idleAt1_7 _ hc1) (noFlush1_7 t hc1)]
    by_cases h0 : t.val = 0
    · -- the first point
      have hc0 : cond1_0 (grid1.coords t) := (hcond1_0 t).mpr h0
      rw [show PhiS1 V c t.val = Pipeline.ΦA spec1 c from by rw [h0]; rfl, PhiA1_eq]
      show _ ⊢ wp _ _ _ _ (fun _ => iprop((((owns (c : Thread nD τ) scM1_0 fullShare (accAt1 V c t.val) ∗ owns (c : Thread nD τ) scM1_1 fullShare (xb1 V c)) ∗ Rest1 c) ∗ (∃ r, prngReg c r)) ∗ _))
      rw [accAt1_first V c t h0, xb1_first V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a middle point
      have hc0 : ¬cond1_0 (grid1.coords t) := fun h => h0 ((hcond1_0 t).mp h)
      rw [PhiS1_pos V c t.val h0]
      show _ ⊢ wp _ _ _ _ (fun _ => iprop((((owns (c : Thread nD τ) scM1_0 fullShare (accAt1 V c t.val) ∗ owns (c : Thread nD τ) scM1_1 fullShare (xb1 V c)) ∗ Rest1 c) ∗ (∃ r, prngReg c r)) ∗ _))
      rw [accAt1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) (accAt1 V c (t.val - 1)) (xb1 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 from rfl]
  exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 5000 := N_1; omega), PhiA1_eq]
  iintro ⟨⟨⟨H0, H1⟩, HR⟩, Hg⟩
  isplitr [Hg]
  · isplitr [HR]
    · isplitl [H0]; · iexists _; iexact H0
      iexists _; iexact H1
    iexact HR
  iexact Hg

end Cert.Kernel.R1

end
-- ==== Proof.Bits.MainRun.lean ====
/-
  The whole program as a chain of four items — the host operations before the first kernel region, that region,
  the one host operation between the regions, the second region — with the contents of every unscoped buffer named
  at each boundary: as launched; after the first host stretch; after region 0 (its arrays at what its write-backs
  leave, everything else as entered); after the second stretch; after region 1.  Every weakly fair execution
  terminates without a fault; at the end the result array holds what region 1's write-backs leave, and every
  argument array holds what it was launched with: no host operation writes an argument, and a region only reads one.
-/
import proofs.«422308_j53472342835254_2_alg».proof.Proof.Bits.Region0
import proofs.«422308_j53472342835254_2_alg».proof.Proof.Bits.Region1
import proofs.«422308_j53472342835254_2_alg».proof.Proof.Gen.Kernel.Regions
import Idealize.ShloMosaic.Lib.Pipeline.RegionsLoop
import Idealize.ShloMosaic.Lib.Pipeline.FrameSuffix

set_option maxRecDepth 16384

noncomputable section

namespace Cert.Kernel.Main

open Cert.Kernel Cert.Kernel.Gen Cert.Kernel.R0 Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev Vat1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vat1 m ρ) c).arrAt w cfg0.N
theorem W2_arr (c : Dev nD) (w : Fin cfg0.W) :
    W2 m ρ c (Proc.devRef .tc (Pipeline.arrRef spec0 w)) = (dat0 (Vat1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vat2 : (c : Dev nD) → (b : Ref sig .tc) → Buf (Elt F) ((c : Thread nD τ).loc b) := fun c b => W2 m ρ c b
theorem hF0 (c : Dev nD) (w : Fin cfg0.W) : (dat0 (Vat1 m ρ) c).arrAt w cfg0.N = Vat2 m ρ c (Pipeline.arrRef spec0 w) :=
  (W2_arr m ρ c w).symm
theorem hrest0 (c : Dev nD) : ∀ b, b ∉ Finset.univ.image (Pipeline.arrRef spec0) → Vat2 m ρ c b = Vat1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev Vat3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (Vat3 m ρ) c).arrAt w cfg1.N
theorem W4_arr (c : Dev nD) (w : Fin cfg1.W) :
    W4 m ρ c (Proc.devRef .tc (Pipeline.arrRef spec1 w)) = (dat1 (Vat3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vat4 : (c : Dev nD) → (b : Ref sig .tc) → Buf (Elt F) ((c : Thread nD τ).loc b) := fun c b => W4 m ρ c b
theorem hF1 (c : Dev nD) (w : Fin cfg1.W) : (dat1 (Vat3 m ρ) c).arrAt w cfg1.N = Vat4 m ρ c (Pipeline.arrRef spec1 w) :=
  (W4_arr m ρ c w).symm
theorem hrest1 (c : Dev nD) : ∀ b, b ∉ Finset.univ.image (Pipeline.arrRef spec1) → Vat4 m ρ c b = Vat3 m ρ c b :=
  fun b hb => W4_of_ne m ρ c b fun w e => hb (Finset.mem_image.mpr ⟨w, Finset.mem_univ _, e⟩)

/-- A host stretch leaves a reference it does not write as it found it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched; the result is what region 1 leaves -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (Vat1 m ρ) c).arrAt_in 0 rfl _).trans (A_eq0 (Vat1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 4).trans (((dat0 (Vat1 m ρ) c).arrAt_in 4 rfl _).trans (A_eq0 (Vat1 m ρ) c 4))
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 6).trans (((dat0 (Vat1 m ρ) c).arrAt_in 6 rfl _).trans (A_eq0 (Vat1 m ρ) c 6))
    _ = W0 m ρ c (Proc.devRef .tc main_arg4) := W1_of m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 4).trans (((dat1 (Vat3 m ρ) c).arrAt_in 4 rfl _).trans (A_eq1 (Vat3 m ρ) c 4))
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 6).trans (((dat1 (Vat3 m ρ) c).arrAt_in 6 rfl _).trans (A_eq1 (Vat3 m ρ) c 6))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W4_main_v19 (c : Dev nD) : W4 m ρ c (Proc.devRef .tc main_v19) = (dat1 (Vat3 m ρ) c).arrAt 7 cfg1.N :=
  W4_arr m ρ c 7

/-! ## The proof data family and the thread state -/

abbrev admK : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admK p) c
  | ⟨0, _⟩ => fun c => dat0 (Vat1 m ρ) c
  | ⟨1, _⟩ => fun c => dat1 (Vat3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- Region 0 over the thread state: entered with every unscoped buffer at the boundary's contents, left at the next
    boundary's: its arrays are split out of the unscoped buffers and put back at what the pipeline leaves; the
    generator register goes into the region's invariant and comes back; nothing is owed. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vat1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vat1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (Vat1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vat1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (Vat1 m ρ c) (Vat2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left at the next
    boundary's: its arrays are split out of the unscoped buffers and put back at what the pipeline leaves; the
    generator register goes into the region's invariant and comes back; nothing is owed. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vat3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vat3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (Vat3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vat3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (Vat3 m ρ c) (Vat4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev mainSegs : List (Pipeline.Seg (pcfgs (F := F)) admK (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (mainSegs m ρ) := (main_chain c).trans (by chain_rfl)

set_option backward.isDefEq.respectTransparency.types false in
/-- THE RUN. From any memory with zero counters every weakly fair execution terminates, nothing faulting; the result
    array ends at what region 1's write-backs leave and every argument array as launched. -/
theorem run_main : θ_run defs (onTc (τ := τ) (main (F := F))) ⟨m, fun _ => 0, ρ⟩ (fun r => ∀ c : Dev nD,
      r.2.mem ((c.tc : Thread nD τ).loc main_v19) = (dat1 (Vat3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) admK (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ ((∃ r, prngReg c r) ∗ ∃ W, owes (c : Thread nD τ) (0 : CellTallies nD τ sig Unit) W))
        ⊢ iprop((StableHlo.held (c : Thread nD τ) (Pipeline.ucRefs τ sig) (W4 m ρ c) ∗ ∃ r, prngReg c r) ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v19 (by decide))).trans (W4_main_v19 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Kernel.Main

end
-- ==== Proof.Spec.lean ====
/-
  The mathematics both programs compute, over the extended reals: two graph layers with mean aggregation.
  For a node n, the edges INTO n are the edges whose destination word is n; the layer's aggregate at n is the
  sum over those edges of the source node's feature row, times the reciprocal of max(number of such edges, 1);
  the layer is relu((aggregate · W_l + b) + x · W_r).  An edge whose destination word names no node is in no
  node's set, so it contributes nowhere.  The source word of an edge is read as a node modulo the node count,
  which is the word itself whenever it is in range (`SrcOk`).
-/
import Idealize.ShloMosaic.PureOps.Ideal
import Idealize.ShloMosaic.Lib.ValueIdx

noncomputable section

namespace Cert.Spec

open Idealize.ShloMosaic Idealize.ShloMosaic.ValueIdx

abbrev SX : Shape := ⟨2, ![10000, 128]⟩
abbrev SE : Shape := ⟨2, ![2, 640000]⟩
abbrev SW : Shape := ⟨2, ![128, 128]⟩
abbrev SB : Shape := ⟨1, ![128]⟩

/-- The source word of edge `e` (row 0 of the edge list). -/
def srcW (ei : SE.Idx → BitVec 32) (e : Fin 640000) : BitVec 32 := ei (ix2 (0 : Fin 2) e)
/-- The destination word of edge `e` (row 1 of the edge list). -/
def dstW (ei : SE.Idx → BitVec 32) (e : Fin 640000) : BitVec 32 := ei (ix2 (1 : Fin 2) e)

/-- Every source word names a node. -/
def SrcOk (ei : SE.Idx → BitVec 32) : Prop := ∀ e : Fin 640000, (srcW ei e).toNat < 10000

/-- The edges whose destination is node `n`. -/
def into (ei : SE.Idx → BitVec 32) (n : Fin 10000) : Finset (Fin 640000) :=
  Finset.univ.filter fun e => dstW ei e = BitVec.ofNat 32 n.val

/-- The source node of edge `e`: its source word modulo the node count (the word itself when in range). -/
def srcN (ei : SE.Idx → BitVec 32) (e : Fin 640000) : Fin 10000 :=
  ⟨(srcW ei e).toNat % 10000, Nat.mod_lt _ (by norm_num)⟩

/-- The sum over the edges into `n` of the source row's entry `k`. -/
def nsum (x : SX.Idx → EReal) (ei : SE.Idx → BitVec 32) (n : Fin 10000) (k : Fin 128) : EReal :=
  ∑ e ∈ into ei n, x (ix2 (srcN ei e) k)

/-- The reciprocal of max(in-degree of `n`, 1), a real. -/
def invdeg (ei : SE.Idx → BitVec 32) (n : Fin 10000) : EReal :=
  ((1 / max ((into ei n).card : ℝ) 1 : ℝ) : EReal)

/-- One layer: relu((mean-aggregate · W_l + b) + x · W_r), entry by entry. -/
def layer (x : SX.Idx → EReal) (ei : SE.Idx → BitVec 32) (Wl : SW.Idx → EReal) (b : SB.Idx → EReal)
    (Wr : SW.Idx → EReal) : SX.Idx → EReal := fun i =>
  max (((∑ k : Fin 128, (nsum x ei (i 0) k * invdeg ei (i 0)) * Wl (ix2 k (i 1))) + b (ix1 (i 1)))
      + ∑ k : Fin 128, x (ix2 (i 0) k) * Wr (ix2 k (i 1))) 0

/-- The two layers. -/
def net (x : SX.Idx → EReal) (ei : SE.Idx → BitVec 32) (W1l : SW.Idx → EReal) (b1 : SB.Idx → EReal) (W1r : SW.Idx → EReal)
    (W2l : SW.Idx → EReal) (b2 : SB.Idx → EReal) (W2r : SW.Idx → EReal) : SX.Idx → EReal :=
  layer (layer x ei W1l b1 W1r) ei W2l b2 W2r

end Cert.Spec

end
-- ==== Proof.PayValue.lean ====
/-
  The arithmetic of the layer's body at the extended reals, read one element at a time. There a change of float
  format is the identity and every operation is the exact one, so the four values the body stores are closed
  expressions of what it loaded:
  • the reset value is the zero array;
  • the cast features are the features;
  • the accumulated value at `(n, k)` is the accumulator there plus the sum, over the edges `e` of the chunk whose
    destination word is `n`, of the features at row `source e`, column `k` — the two one-hot matrices
    `[e, j] ↦ (j = source e)` and `[n, e] ↦ (n = destination e)` multiply out to a gather followed by a scatter-add,
    because in the extended reals `0 * x = 0` for every `x`, the infinities included;
  • the finished value at `(n, j)` is `max (((acc ⊙ g) · Wl + b) + x · Wr) 0` with the two products written as sums over
    the 128 middle positions.
  The second region computes the same four values.
-/
import proofs.«422308_j53472342835254_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen
open Idealize.ShloMosaic Idealize.ShloMosaic.ValueIdx

variable {α : Type}

/-! ## Layout operations at an index -/

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products at an index -/

theorem lhsA_0 (i : S128x128.Idx) (q : dot_S128x10000_S10000x128_S128x128_1_0_0_1_n_n.contr.Idx) :
    (dot_S128x10000_S10000x128_S128x128_1_0_0_1_n_n.lhsIdx i q 0).val = (i 0).val := by
  unfold DotDims.lhsIdx
  rw [dif_neg (show ¬(0 : Fin S128x10000.rank) ∈ dot_S128x10000_S10000x128_S128x128_1_0_0_1_n_n.lhsBatch by decide), dif_pos (show (0 : Fin S128x10000.rank) ∈ dot_S128x10000_S10000x128_S128x128_1_0_0_1_n_n.lhsNonContracting by decide)]
  rfl
theorem lhsA_1 (i : S128x128.Idx) (q : dot_S128x10000_S10000x128_S128x128_1_0_0_1_n_n.contr.Idx) :
    (dot_S128x10000_S10000x128_S128x128_1_0_0_1_n_n.lhsIdx i q 1).val = (q ⟨0, by decide⟩).val :=
  dot_S128x10000_S10000x128_S128x128_1_0_0_1_n_n.lhsIdx_val_of_single rfl i q
theorem rhsA_0 (i : S128x128.Idx) (q : dot_S128x10000_S10000x128_S128x128_1_0_0_1_n_n.contr.Idx) :
    (dot_S128x10000_S10000x128_S128x128_1_0_0_1_n_n.rhsIdx i q 0).val = (q ⟨0, by decide⟩).val :=
  dot_S128x10000_S10000x128_S128x128_1_0_0_1_n_n.rhsIdx_val_of_single rfl i q
theorem rhsA_1 (i : S128x128.Idx) (q : dot_S128x10000_S10000x128_S128x128_1_0_0_1_n_n.contr.Idx) :
    (dot_S128x10000_S10000x128_S128x128_1_0_0_1_n_n.rhsIdx i q 1).val = (i 1).val := by
  unfold DotDims.rhsIdx
  rw [dif_neg (show ¬(1 : Fin S10000x128.rank) ∈ dot_S128x10000_S10000x128_S128x128_1_0_0_1_n_n.rhsBatch by decide), dif_pos (show (1 : Fin S10000x128.rank) ∈ dot_S128x10000_S10000x128_S128x128_1_0_0_1_n_n.rhsNonContracting by decide)]
  rfl

/-- The `[128, 10000] × [10000, 128]` product into the zero array, at `(e, k)`: the sum over the 10000 rows. -/
theorem matmulA_apply {φ₁ φ₂ : FTy} (A : FVec Ideal S128x10000 φ₁) (B : FVec Ideal S10000x128 φ₂) (e : Fin 128) (k : Fin 128) :
    matmul dot_S128x10000_S10000x128_S128x128_1_0_0_1_n_n none A B (constant (F := Ideal) S128x128 .f32 0x00000000#32) (ix2 e k)
      = ∑ j : Fin 10000, A (ix2 e j) * B (ix2 j k) := by
  refine (Ideal.matmul_constant_zero_apply dot_S128x10000_S10000x128_S128x128_1_0_0_1_n_n none A B (ix2 e k)).trans ?_
  rw [← Equiv.sum_comp (contrEquiv1 dot_S128x10000_S10000x128_S128x128_1_0_0_1_n_n 10000 rfl rfl).symm]
  refine Finset.sum_congr rfl fun j _ => ?_
  have hk := contrEquiv1_symm_val dot_S128x10000_S10000x128_S128x128_1_0_0_1_n_n 10000 rfl rfl j
  have el : dot_S128x10000_S10000x128_S128x128_1_0_0_1_n_n.lhsIdx (ix2 e k) ((contrEquiv1 dot_S128x10000_S10000x128_S128x128_1_0_0_1_n_n 10000 rfl rfl).symm j) = ix2 e j := funext fun a => Fin.ext (by
    match a with
    | ⟨0, _⟩ => exact lhsA_0 _ _
    | ⟨1, _⟩ => exact (lhsA_1 _ _).trans hk)
  have er : dot_S128x10000_S10000x128_S128x128_1_0_0_1_n_n.rhsIdx (ix2 e k) ((contrEquiv1 dot_S128x10000_S10000x128_S128x128_1_0_0_1_n_n 10000 rfl rfl).symm j) = ix2 j k := funext fun a => Fin.ext (by
    match a with
    | ⟨0, _⟩ => exact (rhsA_0 _ _).trans hk
    | ⟨1, _⟩ => exact rhsA_1 _ _)
  rw [el, er]

theorem lhsB_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsB_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsB_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsB_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The `[10000, 128] × [128, 128]` product into the zero array, at `(n, j)`: the sum over the 128 middle positions. -/
theorem matmulB_apply {φ₁ φ₂ : FTy} (A : FVec Ideal S10000x128 φ₁) (B : FVec Ideal S128x128 φ₂) (n : Fin 10000) (j : Fin 128) :
    matmul dot_S10000x128_S128x128_S10000x128_1_0_0_1_n_n none A B (constant (F := Ideal) S10000x128 .f32 0x00000000#32) (ix2 n j)
      = ∑ k : Fin 128, A (ix2 n k) * B (ix2 k j) := by
  refine (Ideal.matmul_constant_zero_apply dot_S10000x128_S128x128_S10000x128_1_0_0_1_n_n none A B (ix2 n j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 n j) ((contrEquiv1 dot_S10000x128_S128x128_S10000x128_1_0_0_1_n_n 128 rfl rfl).symm k) = ix2 n k := funext fun a => Fin.ext (by
    match a with
    | ⟨0, _⟩ => exact lhsB_0 _ _
    | ⟨1, _⟩ => exact (lhsB_1 _ _).trans hk)
  have er : dot_S10000x128_S128x128_S10000x128_1_0_0_1_n_n.rhsIdx (ix2 n j) ((contrEquiv1 dot_S10000x128_S128x128_S10000x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## The first two payloads -/

theorem pay1_apply (i : S10000x128.Idx) : k0_pay1 (F := Ideal) i = 0 := by
  unfold k0_pay1
  rw [shapeCast_self]
  exact Ideal.ofBits_zero_f32

theorem pay2_eq (x : Vec Ideal S10000x128 .f32) : k0_pay2 x = x :=
  (shapeCast_self _ _).trans (funext fun i => rfl)

/-! ## Words at an index -/

/-- An integer comparison at an index compares the elements. -/
theorem cmpi_apply {s : Shape} {w : ℕ} (p : CmpIPredicate) (x y : IVec s w) (i : s.Idx) :
    cmpi p x y i = IntOp.cmpi p (x i) (y i) := rfl

/-- The row of column numbers reads, at `(u, j)`, the word of `j`. -/
theorem iota_row_apply (h : S1x10000.Iotas .tc 32 [1]) (u : Fin 1) (j : Fin 10000) :
    iota .tc S1x10000 32 [1] h (ix2 u j) = BitVec.ofNat 32 j.val :=
  iota_single_apply .tc S1x10000 32 1 h (ix2 u j)

/-- The column of row numbers reads, at `(n, u)`, the word of `n`. -/
theorem iota_col_apply (h : S10000x1.Iotas .tc 32 [0]) (n : Fin 10000) (u : Fin 1) :
    iota .tc S10000x1 32 [0] h (ix2 n u) = BitVec.ofNat 32 n.val :=
  iota_single_apply .tc S10000x1 32 0 h (ix2 n u)

/-- The comparison bit of two words, widened and read as a real: one where they agree, zero elsewhere. -/
theorem sitofp_eq_bit (a b : BitVec 32) :
    (FloatOps.sitofp (F := Ideal) .f32 ((IntOp.cmpi .eq a b).setWidth 32) : EReal) = if a = b then 1 else 0 := by
  have key : ∀ c : Bool, ((((BitVec.ofBool c).setWidth 32).toInt : ℝ) : EReal) = if c = true then 1 else 0 := by
    intro c
    cases c
    · have e0 : ((BitVec.ofBool false).setWidth 32).toInt = 0 := by decide
      rw [e0]; simp
    · have e1 : ((BitVec.ofBool true).setWidth 32).toInt = 1 := by decide
      rw [e1]; simp
  show ((((BitVec.ofBool (a == b)).setWidth 32).toInt : ℝ) : EReal) = _
  rw [key]
  by_cases h : a = b
  · rw [if_pos h, if_pos (by simpa using h)]
  · rw [if_neg h, if_neg (by simpa using h)]

/-- A sum against the indicator of one word below 10000 picks that row: zero times anything is zero in the extended
    reals, so no finiteness is asked of `f`. -/
theorem onehot_row_sum (w : BitVec 32) (hw : w.toNat < 10000) (f : Fin 10000 → EReal) :
    ∑ j : Fin 10000, (if BitVec.ofNat 32 j.val = w then (1 : EReal) else 0) * f j
      = f ⟨w.toNat % 10000, Nat.mod_lt _ (by decide)⟩ := by
  rw [Finset.sum_eq_single (⟨w.toNat % 10000, Nat.mod_lt _ (by decide)⟩ : Fin 10000)]
  · rw [if_pos, one_mul]
    apply BitVec.eq_of_toNat_eq
    rw [BitVec.toNat_ofNat]
    show w.toNat % 10000 % 2 ^ 32 = w.toNat
    omega
  · intro j _ hj
    rw [if_neg, zero_mul]
    intro h
    apply hj
    apply Fin.ext
    show j.val = w.toNat % 10000
    have e1 : w.toNat = j.val % 2 ^ 32 := by rw [← h, BitVec.toNat_ofNat]
    have := j.isLt
    omega
  · intro h; exact absurd (Finset.mem_univ _) h

/-! ## The accumulating payload and the finishing payload -/

theorem pay3_apply (s : Vec Ideal S128x1 .i32) (d : Vec Ideal S1x128 .i32) (xb : Vec Ideal S10000x128 .bf16)
    (acc : Vec Ideal S10000x128 .f32) (hs : ∀ e : Fin 128, (s (ix2 e 0)).toNat < 10000) (n : Fin 10000) (k : Fin 128) :
    k0_pay3 s d xb acc (ix2 n k) = acc (ix2 n k)
      + ∑ e ∈ Finset.univ.filter (fun e : Fin 128 => d (ix2 0 e) = BitVec.ofNat 32 n.val),
          xb (ix2 ⟨(s (ix2 e 0)).toNat % 10000, Nat.mod_lt _ (by decide)⟩ k) := by
  unfold k0_pay3
  simp only [shapeCast_self, addf_apply, matmulB_apply, truncf_apply, matmulA_apply, sitofp_apply, extui_apply, cmpi_apply,
    broadcastTo_1b_ab_apply, broadcastTo_a1_ab_apply, sitofp_eq_bit]
  congr 1
  rw [Finset.sum_filter]
  refine Finset.sum_congr rfl fun e _ => ?_
  rw [iota_col_apply]
  have inner : ∑ x : Fin 10000, (if iota .tc S1x10000 32 [1] iota_S1x10000_d1_w32 (ix2 0 x) = s (ix2 e 0) then (1 : EReal) else 0)
        * xb (ix2 x k) = xb (ix2 ⟨(s (ix2 e 0)).toNat % 10000, Nat.mod_lt _ (by decide)⟩ k) :=
    (Finset.sum_congr rfl fun x _ => by rw [iota_row_apply]).trans
      (onehot_row_sum (s (ix2 e 0)) (hs e) (fun j => xb (ix2 j k)))
  rw [inner]
  by_cases h : d (ix2 0 e) = BitVec.ofNat 32 n.val
  · rw [if_pos h, if_pos h.symm, one_mul]
  · rw [if_neg h, if_neg (fun h' => h h'.symm), zero_mul]

theorem scalar_zero_f32 : (Scalar.ofBits .f32 0x00000000#32 : Ideal .f32) = 0 := Ideal.ofBits_zero_f32

theorem pay4_apply (acc : Vec Ideal S10000x128 .f32) (g : Vec Ideal S10000x1 .f32) (Wl : Vec Ideal S128x128 .f32)
    (b : Vec Ideal S1x128 .f32) (x : Vec Ideal S10000x128 .f32) (Wr : Vec Ideal S128x128 .f32) (n : Fin 10000) (j : Fin 128) :
    k0_pay4 acc g Wl b x Wr (ix2 n j)
      = max (((∑ k : Fin 128, (acc (ix2 n k) * g (ix2 n 0)) * Wl (ix2 k j)) + b (ix2 0 j))
          + ∑ k : Fin 128, x (ix2 n k) * Wr (ix2 k j)) 0 := by
  unfold k0_pay4
  simp only [maximumf_apply, addf_apply, mulf_apply, broadcast_apply, matmulB_apply, broadcastTo_1b_ab_apply,
    broadcastTo_a1_ab_apply, shapeCast_self, scalar_zero_f32]

/-! ## The second region's payloads are the first's -/

theorem k1_pay1_eq : k1_pay1 (F := Ideal) = k0_pay1 := rfl

theorem k1_pay2_eq (x : Vec Ideal S10000x128 .f32) : k1_pay2 x = k0_pay2 x := by
  unfold k1_pay2 k0_pay2
  simp only [shapeCast_self]

theorem k1_pay3_eq (s : Vec Ideal S128x1 .i32) (d : Vec Ideal S1x128 .i32) (xb : Vec Ideal S10000x128 .bf16)
    (acc : Vec Ideal S10000x128 .f32) : k1_pay3 s d xb acc = k0_pay3 s d xb acc := rfl

theorem k1_pay4_eq (acc : Vec Ideal S10000x128 .f32) (g : Vec Ideal S10000x1 .f32) (Wl : Vec Ideal S128x128 .f32)
    (b : Vec Ideal S1x128 .f32) (x : Vec Ideal S10000x128 .f32) (Wr : Vec Ideal S128x128 .f32) :
    k1_pay4 acc g Wl b x Wr = k0_pay4 acc g Wl b x Wr := by
  unfold k1_pay4 k0_pay4
  simp only [shapeCast_self]

end Cert.KernelIdeal.PayValue

end
-- ==== Proof.KernelValue0.lean ====
/-
  The first layer's kernel, read as mathematics over the extended reals.  The grid has 5000 points; point t reads
  rows 128 t … 128 t + 127 of the source column and columns 128 t … 128 t + 127 of the destination row (one chunk of
  128 edges), and the whole of the features, the reciprocal degrees, the two weight matrices and the bias row.
  Each point adds to the accumulator, at node n and feature k, the entry k of the source row of every edge of its
  chunk whose destination word is n.  So after point t the accumulator at (n, k) is the sum over the edges below
  128 (t + 1) with destination n of x(source node, k) (induction on t; a sum over the edges below 128 (t + 1) splits
  into the edges below 128 t and the 128 edges of chunk t), after the last point it is the sum over all the edges
  into n, and the block stored at the last point, relu((that sum · 1/deg) · W_l + b + x · W_r), is the layer.
-/
import proofs.«422308_j53472342835254_2_alg».proof.Proof.Shared0
import proofs.«422308_j53472342835254_2_alg».proof.Proof.Spec
import proofs.«422308_j53472342835254_2_alg».proof.Proof.PayValue
import Idealize.ShloMosaic.Lib.ValueIdx
import Mathlib.Algebra.BigOperators.Group.Finset.Basic

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem

/-! ## Sums over the edges, chunk by chunk -/

/-- Edge number `e` of the chunk of 128 edges that grid point `t` reads. -/
def chunkEdge (t : ℕ) (ht : t < 5000) (e : Fin 128) : Fin 640000 := ⟨128 * t + e.val, by have := e.isLt; omega⟩

theorem chunkEdge_val (t : ℕ) (ht : t < 5000) (e : Fin 128) : (chunkEdge t ht e).val = 128 * t + e.val := rfl

/-- A sum over the edges below 128(t+1) that satisfy `P` is the sum over those below 128t plus the sum over
    chunk `t`'s 128 edges that satisfy `P`. -/
theorem sum_chunk_succ {M : Type*} [AddCommMonoid M] (P : Fin 640000 → Prop) [DecidablePred P] (f : Fin 640000 → M)
    (t : ℕ) (ht : t < 5000) :
    ∑ e' ∈ Finset.univ.filter (fun e' : Fin 640000 => e'.val < 128 * (t + 1) ∧ P e'), f e'
      = ∑ e' ∈ Finset.univ.filter (fun e' : Fin 640000 => e'.val < 128 * t ∧ P e'), f e'
        + ∑ e ∈ Finset.univ.filter (fun e : Fin 128 => P (chunkEdge t ht e)), f (chunkEdge t ht e) := by
  classical
  have hsplit : Finset.univ.filter (fun e' : Fin 640000 => e'.val < 128 * (t + 1) ∧ P e')
      = Finset.univ.filter (fun e' : Fin 640000 => e'.val < 128 * t ∧ P e')
        ∪ Finset.univ.filter (fun e' : Fin 640000 => (128 * t ≤ e'.val ∧ e'.val < 128 * (t + 1)) ∧ P e') := by
    ext e'
    simp only [Finset.mem_union, Finset.mem_filter, Finset.mem_univ, true_and]
    constructor
    · rintro ⟨h1, h2⟩
      by_cases h : e'.val < 128 * t
      · exact Or.inl ⟨h, h2⟩
      · exact Or.inr ⟨⟨by omega, h1⟩, h2⟩
    · rintro (⟨h1, h2⟩ | ⟨⟨_, h1⟩, h2⟩)
      · exact ⟨by omega, h2⟩
      · exact ⟨h1, h2⟩
  have hdisj : Disjoint (Finset.univ.filter (fun e' : Fin 640000 => e'.val < 128 * t ∧ P e'))
      (Finset.univ.filter (fun e' : Fin 640000 => (128 * t ≤ e'.val ∧ e'.val < 128 * (t + 1)) ∧ P e')) := by
    rw [Finset.disjoint_left]
    intro e' h1 h2
    simp only [Finset.mem_filter, Finset.mem_univ, true_and] at h1 h2
    omega
  rw [hsplit, Finset.sum_union hdisj]
  refine congrArg (HAdd.hAdd _) ?_
  symm
  refine Finset.sum_nbij' (fun e : Fin 128 => chunkEdge t ht e)
    (fun e' : Fin 640000 => (⟨(e'.val - 128 * t) % 128, Nat.mod_lt _ (by decide)⟩ : Fin 128)) ?_ ?_ ?_ ?_ ?_
  · intro e he
    simp only [Finset.mem_filter, Finset.mem_univ, true_and] at he ⊢
    have := e.isLt
    exact ⟨⟨by rw [chunkEdge_val]; omega, by rw [chunkEdge_val]; omega⟩, he⟩
  · intro e' he'
    simp only [Finset.mem_filter, Finset.mem_univ, true_and] at he' ⊢
    obtain ⟨⟨h1, h2⟩, h3⟩ := he'
    have : chunkEdge t ht ⟨(e'.val - 128 * t) % 128, Nat.mod_lt _ (by decide)⟩ = e' := by
      apply Fin.ext
      rw [chunkEdge_val]
      show 128 * t + (e'.val - 128 * t) % 128 = e'.val
      omega
    rw [this]; exact h3
  · intro e he
    apply Fin.ext
    have := e.isLt
    show (128 * t + e.val - 128 * t) % 128 = e.val
    omega
  · intro e' he'
    simp only [Finset.mem_filter, Finset.mem_univ, true_and] at he'
    obtain ⟨⟨h1, h2⟩, h3⟩ := he'
    apply Fin.ext
    rw [chunkEdge_val]
    show 128 * t + (e'.val - 128 * t) % 128 = e'.val
    omega
  · intro e he
    rfl

/-- Below 0 there is no edge. -/
theorem sum_chunk_zero {M : Type*} [AddCommMonoid M] (P : Fin 640000 → Prop) [DecidablePred P] (f : Fin 640000 → M) :
    ∑ e' ∈ Finset.univ.filter (fun e' : Fin 640000 => e'.val < 128 * 0 ∧ P e'), f e' = 0 := by
  rw [Finset.filter_false_of_mem, Finset.sum_empty]
  intro e' _ h
  omega

/-- Every edge is below 128 · 5000. -/
theorem filter_chunk_all (P : Fin 640000 → Prop) [DecidablePred P] :
    Finset.univ.filter (fun e' : Fin 640000 => e'.val < 128 * (4999 + 1) ∧ P e') = Finset.univ.filter P :=
  Finset.filter_congr fun e' _ => ⟨fun h => h.2, fun h => ⟨by have := e'.isLt; omega, h⟩⟩

/-! ## The four payloads, entry by entry -/

/-- The accumulator's reset value is zero everywhere. -/
theorem k0_pay1_at (i : S10000x128.Idx) : k0_pay1 (F := Ideal) i = 0 := Cert.KernelIdeal.PayValue.pay1_apply i

/-- Casting the features to the narrower float format changes nothing over the extended reals. -/
theorem k0_pay2_at (x : Vec Ideal S10000x128 .f32) : k0_pay2 x = x := Cert.KernelIdeal.PayValue.pay2_eq x

/-- One point's update: the two one-hot products add, at node `n`, the source rows of the chunk's edges whose destination
    word is `n`. -/
theorem k0_pay3_at (s : Vec Ideal S128x1 .i32) (d : Vec Ideal S1x128 .i32) (xb : Vec Ideal S10000x128 .bf16)
    (acc : Vec Ideal S10000x128 .f32) (hs : ∀ e : Fin 128, (s (ix2 e 0)).toNat < 10000) (n : Fin 10000) (k : Fin 128) :
    k0_pay3 s d xb acc (ix2 n k) = acc (ix2 n k) + ∑ e ∈ Finset.univ.filter (fun e : Fin 128 => d (ix2 0 e) = BitVec.ofNat 32 n.val),
      xb (ix2 ⟨(s (ix2 e 0)).toNat % 10000, Nat.mod_lt _ (by decide)⟩ k) :=
  Cert.KernelIdeal.PayValue.pay3_apply s d xb acc hs n k

/-- The last point's expression: relu((acc · g) · W_l + b + x · W_r). -/
theorem k0_pay4_at (acc : Vec Ideal S10000x128 .f32) (g : Vec Ideal S10000x1 .f32) (Wl : Vec Ideal S128x128 .f32)
    (b : Vec Ideal S1x128 .f32) (x : Vec Ideal S10000x128 .f32) (Wr : Vec Ideal S128x128 .f32) (n : Fin 10000) (j : Fin 128) :
    k0_pay4 acc g Wl b x Wr (ix2 n j) = max (((∑ k : Fin 128, (acc (ix2 n k) * g (ix2 n 0)) * Wl (ix2 k j)) + b (ix2 0 j))
      + ∑ k : Fin 128, x (ix2 n k) * Wr (ix2 k j)) 0 :=
  Cert.KernelIdeal.PayValue.pay4_apply acc g Wl b x Wr n j

variable (V : (c : Dev nD) → (b : Ref sig .tc) → Buf (Elt Ideal) ((c : Thread nD τ).loc b))

/-! ## From blocks to the arrays -/

/-- The block indices of the two moving windows at every grid point: point `t` takes block `t` of the source
    column and block `t` of the destination row. -/
theorem idx_moving0 : ∀ t : Fin cfg0.N, win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Entry `e` of point `t`'s source block is row `128 t + e` of the source column. -/
theorem blk0_src (c : Dev nD) (t : Fin cfg0.N) (e : Fin 128) (k : S640000x1.Idx)
    (hk0 : (k 0).val = 128 * t.val + e.val) (hk1 : (k 1).val = 0) :
    (iblk0 V c 1 t : Vec Ideal S128x1 .i32) (ix2 e 0) = (V c (Pipeline.arrRef spec0 1) : S640000x1.Idx → BitVec 32) k := by
  have hi := idx_moving0 t
  unfold iblk0
  rw [View.read_apply]
  show (V c (Pipeline.arrRef spec0 1) : S640000x1.Idx → BitVec 32) _ = _
  refine congrArg _ (funext fun a => Fin.ext ?_)
  match a with
  | ⟨0, _⟩ => show win0_1.index t 0 * 128 + 1 * e.val = (k 0).val; rw [hi.1, hk0]; omega
  | ⟨1, _⟩ => show win0_1.index t 1 * 1 + 1 * 0 = (k 1).val; rw [hi.2.1, hk1]

/-- Entry `e` of point `t`'s destination block is column `128 t + e` of the destination row. -/
theorem blk0_dst (c : Dev nD) (t : Fin cfg0.N) (e : Fin 128) (k : S1x640000.Idx)
    (hk0 : (k 0).val = 0) (hk1 : (k 1).val = 128 * t.val + e.val) :
    (iblk0 V c 2 t : Vec Ideal S1x128 .i32) (ix2 0 e) = (V c (Pipeline.arrRef spec0 2) : S1x640000.Idx → BitVec 32) k := by
  have hi := idx_moving0 t
  unfold iblk0
  rw [View.read_apply]
  show (V c (Pipeline.arrRef spec0 2) : S1x640000.Idx → BitVec 32) _ = _
  refine congrArg _ (funext fun a => Fin.ext ?_)
  match a with
  | ⟨0, _⟩ => show win0_2.index t 0 * 1 + 1 * 0 = (k 0).val; rw [hi.2.2.1, hk0]
  | ⟨1, _⟩ => show win0_2.index t 1 * 128 + 1 * e.val = (k 1).val; rw [hi.2.2.2, hk1]; omega

/-! The other five windows take their whole array at every point. -/

theorem blk0_whole_0 (c : Dev nD) (t : Fin cfg0.N) :
    (iblk0 V c 0 t : Vec Ideal S10000x128 .f32) = (V c (Pipeline.arrRef spec0 0) : S10000x128.Idx → EReal) := by
  funext y
  unfold iblk0
  rw [View.read_apply]
  show (V c (Pipeline.arrRef spec0 0) : S10000x128.Idx → EReal) _ = _
  refine congrArg _ (funext fun a => Fin.ext ?_)
  match a with
  | ⟨0, _⟩ => show win0_0.index t 0 * 10000 + 1 * (y 0).val = (y 0).val; rw [show win0_0.index t 0 = 0 from rfl]; omega
  | ⟨1, _⟩ => show win0_0.index t 1 * 128 + 1 * (y 1).val = (y 1).val; rw [show win0_0.index t 1 = 0 from rfl]; omega

theorem blk0_whole_3 (c : Dev nD) (t : Fin cfg0.N) :
    (iblk0 V c 3 t : Vec Ideal S10000x1 .f32) = (V c (Pipeline.arrRef spec0 3) : S10000x1.Idx → EReal) := by
  funext y
  unfold iblk0
  rw [View.read_apply]
  show (V c (Pipeline.arrRef spec0 3) : S10000x1.Idx → EReal) _ = _
  refine congrArg _ (funext fun a => Fin.ext ?_)
  match a with
  | ⟨0, _⟩ => show win0_3.index t 0 * 10000 + 1 * (y 0).val = (y 0).val; rw [show win0_3.index t 0 = 0 from rfl]; omega
  | ⟨1, _⟩ => show win0_3.index t 1 * 1 + 1 * (y 1).val = (y 1).val; rw [show win0_3.index t 1 = 0 from rfl]; omega

theorem blk0_whole_4 (c : Dev nD) (t : Fin cfg0.N) :
    (iblk0 V c 4 t : Vec Ideal S128x128 .f32) = (V c (Pipeline.arrRef spec0 4) : S128x128.Idx → EReal) := by
  funext y
  unfold iblk0
  rw [View.read_apply]
  show (V c (Pipeline.arrRef spec0 4) : S128x128.Idx → EReal) _ = _
  refine congrArg _ (funext fun a => Fin.ext ?_)
  match a with
  | ⟨0, _⟩ => show win0_4.index t 0 * 128 + 1 * (y 0).val = (y 0).val; rw [show win0_4.index t 0 = 0 from rfl]; omega
  | ⟨1, _⟩ => show win0_4.index t 1 * 128 + 1 * (y 1).val = (y 1).val; rw [show win0_4.index t 1 = 0 from rfl]; omega

theorem blk0_whole_5 (c : Dev nD) (t : Fin cfg0.N) :
    (iblk0 V c 5 t : Vec Ideal S1x128 .f32) = (V c (Pipeline.arrRef spec0 5) : S1x128.Idx → EReal) := by
  funext y
  unfold iblk0
  rw [View.read_apply]
  show (V c (Pipeline.arrRef spec0 5) : S1x128.Idx → EReal) _ = _
  refine congrArg _ (funext fun a => Fin.ext ?_)
  match a with
  | ⟨0, _⟩ => show win0_5.index t 0 * 1 + 1 * (y 0).val = (y 0).val; rw [show win0_5.index t 0 = 0 from rfl]; omega
  | ⟨1, _⟩ => show win0_5.index t 1 * 128 + 1 * (y 1).val = (y 1).val; rw [show win0_5.index t 1 = 0 from rfl]; omega

theorem blk0_whole_6 (c : Dev nD) (t : Fin cfg0.N) :
    (iblk0 V c 6 t : Vec Ideal S128x128 .f32) = (V c (Pipeline.arrRef spec0 6) : S128x128.Idx → EReal) := by
  funext y
  unfold iblk0
  rw [View.read_apply]
  show (V c (Pipeline.arrRef spec0 6) : S128x128.Idx → EReal) _ = _
  refine congrArg _ (funext fun a => Fin.ext ?_)
  match a with
  | ⟨0, _⟩ => show win0_6.index t 0 * 128 + 1 * (y 0).val = (y 0).val; rw [show win0_6.index t 0 = 0 from rfl]; omega
  | ⟨1, _⟩ => show win0_6.index t 1 * 128 + 1 * (y 1).val = (y 1).val; rw [show win0_6.index t 1 = 0 from rfl]; omega

/-! ## One grid point's update -/

/-- Point `t` adds, at node `node`, the source rows of chunk `t`'s edges whose destination is `node`: if the accumulator
    held the sum over the edges below 128 t, it now holds the sum over the edges below 128 (t + 1). -/
theorem pay3_step (x : Cert.Spec.SX.Idx → EReal) (ei : Cert.Spec.SE.Idx → BitVec 32) (hok : Cert.Spec.SrcOk ei)
    (s : Vec Ideal S128x1 .i32) (d : Vec Ideal S1x128 .i32) (xb : Vec Ideal S10000x128 .bf16) (acc : Vec Ideal S10000x128 .f32)
    (t : ℕ) (ht : t < 5000)
    (hs : ∀ e : Fin 128, s (ix2 e 0) = Cert.Spec.srcW ei (chunkEdge t ht e))
    (hd : ∀ e : Fin 128, d (ix2 0 e) = Cert.Spec.dstW ei (chunkEdge t ht e))
    (hxb : (xb : S10000x128.Idx → EReal) = x) (node : Fin 10000) (k : Fin 128)
    (hacc : acc (ix2 node k) = ∑ e' ∈ Finset.univ.filter (fun e' : Fin 640000 =>
      e'.val < 128 * t ∧ Cert.Spec.dstW ei e' = BitVec.ofNat 32 node.val), x (ix2 (Cert.Spec.srcN ei e') k)) :
    k0_pay3 s d xb acc (ix2 node k) = ∑ e' ∈ Finset.univ.filter (fun e' : Fin 640000 =>
      e'.val < 128 * (t + 1) ∧ Cert.Spec.dstW ei e' = BitVec.ofNat 32 node.val), x (ix2 (Cert.Spec.srcN ei e') k) := by
  rw [k0_pay3_at s d xb acc (fun e => by rw [hs e]; exact hok _) node k, hacc,
    sum_chunk_succ (fun e' => Cert.Spec.dstW ei e' = BitVec.ofNat 32 node.val) (fun e' => x (ix2 (Cert.Spec.srcN ei e') k)) t ht]
  refine congrArg (HAdd.hAdd _) (Finset.sum_congr (Finset.filter_congr fun e _ => by rw [hd e]) fun e _ => ?_)
  rw [hs e, hxb]
  rfl

/-! ## The accumulator after each point -/

theorem tpt_val_of_lt (n : ℕ) (hn : n < 5000) : (tpt n).val = n := Nat.mod_eq_of_lt hn

/-- The features cast once are the features. -/
theorem xb0_eq (c : Dev nD) : (xb0 V c : S10000x128.Idx → EReal) = (V c (Pipeline.arrRef spec0 0) : S10000x128.Idx → EReal) :=
  (k0_pay2_at (iblk0 V c 0 (tpt 0))).trans (blk0_whole_0 V c (tpt 0))

/-- Point `n`'s source block is the source words of chunk `n`. -/
theorem src_at (c : Dev nD) (ei : Cert.Spec.SE.Idx → BitVec 32)
    (hs : ∀ e : Fin 640000, (V c (Pipeline.arrRef spec0 1) : S640000x1.Idx → BitVec 32) (ix2 e 0) = Cert.Spec.srcW ei e)
    (n : ℕ) (hn : n < 5000) (e : Fin 128) :
    (iblk0 V c 1 (tpt n) : Vec Ideal S128x1 .i32) (ix2 e 0) = Cert.Spec.srcW ei (chunkEdge n hn e) :=
  (blk0_src V c (tpt n) e (ix2 (chunkEdge n hn e) 0)
    (by show 128 * n + e.val = 128 * (tpt n).val + e.val; rw [tpt_val_of_lt n hn]) rfl).trans (hs (chunkEdge n hn e))

/-- Point `n`'s destination block is the destination words of chunk `n`. -/
theorem dst_at (c : Dev nD) (ei : Cert.Spec.SE.Idx → BitVec 32)
    (hd : ∀ e : Fin 640000, (V c (Pipeline.arrRef spec0 2) : S1x640000.Idx → BitVec 32) (ix2 0 e) = Cert.Spec.dstW ei e)
    (n : ℕ) (hn : n < 5000) (e : Fin 128) :
    (iblk0 V c 2 (tpt n) : Vec Ideal S1x128 .i32) (ix2 0 e) = Cert.Spec.dstW ei (chunkEdge n hn e) :=
  (blk0_dst V c (tpt n) e (ix2 0 (chunkEdge n hn e)) rfl
    (by show 128 * n + e.val = 128 * (tpt n).val + e.val; rw [tpt_val_of_lt n hn])).trans (hd (chunkEdge n hn e))

/-- After point `n` the accumulator holds, at node `node`, the sum of the source rows of the edges below 128 (n + 1)
    whose destination is `node`. -/
theorem accAt0_eq (c : Dev nD) (x : Cert.Spec.SX.Idx → EReal) (ei : Cert.Spec.SE.Idx → BitVec 32)
    (hx : (V c (Pipeline.arrRef spec0 0) : S10000x128.Idx → EReal) = x)
    (hs : ∀ e : Fin 640000, (V c (Pipeline.arrRef spec0 1) : S640000x1.Idx → BitVec 32) (ix2 e 0) = Cert.Spec.srcW ei e)
    (hd : ∀ e : Fin 640000, (V c (Pipeline.arrRef spec0 2) : S1x640000.Idx → BitVec 32) (ix2 0 e) = Cert.Spec.dstW ei e)
    (hok : Cert.Spec.SrcOk ei) (node : Fin 10000) (k : Fin 128) (n : ℕ) (hn : n < 5000) :
    accAt0 V c n (ix2 node k) = ∑ e' ∈ Finset.univ.filter (fun e' : Fin 640000 =>
      e'.val < 128 * (n + 1) ∧ Cert.Spec.dstW ei e' = BitVec.ofNat 32 node.val), x (ix2 (Cert.Spec.srcN ei e') k) := by
  induction n with
  | zero =>
    show k0_pay3 (iblk0 V c 1 (tpt 0)) (iblk0 V c 2 (tpt 0)) (xb0 V c) (k0_pay1 (F := Ideal)) (ix2 node k) = _
    exact pay3_step x ei hok (iblk0 V c 1 (tpt 0)) (iblk0 V c 2 (tpt 0)) (xb0 V c) (k0_pay1 (F := Ideal)) 0 hn
      (src_at V c ei hs 0 hn) (dst_at V c ei hd 0 hn) ((xb0_eq V c).trans hx) node k
      ((k0_pay1_at (ix2 node k)).trans (sum_chunk_zero _ _).symm)
  | succ n ih =>
    show k0_pay3 (iblk0 V c 1 (tpt (n + 1))) (iblk0 V c 2 (tpt (n + 1))) (xb0 V c) (accAt0 V c n) (ix2 node k) = _
    exact pay3_step x ei hok (iblk0 V c 1 (tpt (n + 1))) (iblk0 V c 2 (tpt (n + 1))) (xb0 V c) (accAt0 V c n) (n + 1) hn
      (src_at V c ei hs (n + 1) hn) (dst_at V c ei hd (n + 1) hn) ((xb0_eq V c).trans hx) node k
      (ih (by omega))

/-- After the last point the accumulator is the sum over all the edges into each node. -/
theorem accAt0_last (c : Dev nD) (x : Cert.Spec.SX.Idx → EReal) (ei : Cert.Spec.SE.Idx → BitVec 32)
    (hx : (V c (Pipeline.arrRef spec0 0) : S10000x128.Idx → EReal) = x)
    (hs : ∀ e : Fin 640000, (V c (Pipeline.arrRef spec0 1) : S640000x1.Idx → BitVec 32) (ix2 e 0) = Cert.Spec.srcW ei e)
    (hd : ∀ e : Fin 640000, (V c (Pipeline.arrRef spec0 2) : S1x640000.Idx → BitVec 32) (ix2 0 e) = Cert.Spec.dstW ei e)
    (hok : Cert.Spec.SrcOk ei) (node : Fin 10000) (k : Fin 128) :
    accAt0 V c 4999 (ix2 node k) = Cert.Spec.nsum x ei node k := by
  rw [accAt0_eq V c x ei hx hs hd hok node k 4999 (by decide),
    filter_chunk_all (fun e' => Cert.Spec.dstW ei e' = BitVec.ofNat 32 node.val)]
  rfl

/-! ## The layer -/

/-- The last payload on the final accumulator, the reciprocal degrees, the two weight matrices, the bias row and the
    features is the layer, entry by entry. -/
theorem pay4_layer (x : Cert.Spec.SX.Idx → EReal) (ei : Cert.Spec.SE.Idx → BitVec 32) (Wl : Cert.Spec.SW.Idx → EReal)
    (b : Cert.Spec.SB.Idx → EReal) (Wr : Cert.Spec.SW.Idx → EReal)
    (acc : Vec Ideal S10000x128 .f32) (g : Vec Ideal S10000x1 .f32) (wl : Vec Ideal S128x128 .f32)
    (bb : Vec Ideal S1x128 .f32) (xx : Vec Ideal S10000x128 .f32) (wr : Vec Ideal S128x128 .f32)
    (n : Fin 10000) (j : Fin 128)
    (hacc : ∀ k : Fin 128, acc (ix2 n k) = Cert.Spec.nsum x ei n k)
    (hg : g (ix2 n 0) = Cert.Spec.invdeg ei n) (hwl : (wl : S128x128.Idx → EReal) = Wl)
    (hb : bb (ix2 0 j) = b (ix1 j)) (hxx : (xx : S10000x128.Idx → EReal) = x) (hwr : (wr : S128x128.Idx → EReal) = Wr) :
    k0_pay4 acc g wl bb xx wr (ix2 n j) = Cert.Spec.layer x ei Wl b Wr (ix2 n j) := by
  show _ = max (((∑ k : Fin 128, (Cert.Spec.nsum x ei n k * Cert.Spec.invdeg ei n) * Wl (ix2 k j)) + b (ix1 j))
      + ∑ k : Fin 128, x (ix2 n k) * Wr (ix2 k j)) 0
  rw [k0_pay4_at acc g wl bb xx wr n j, hg, hb, hwl, hxx, hwr]
  simp only [hacc]

/-- The first layer's output block is the layer of the region's input arrays. -/
theorem out0_eq_layer (c : Dev nD)
    (x : Cert.Spec.SX.Idx → EReal) (ei : Cert.Spec.SE.Idx → BitVec 32) (Wl : Cert.Spec.SW.Idx → EReal)
    (b : Cert.Spec.SB.Idx → EReal) (Wr : Cert.Spec.SW.Idx → EReal)
    (hx : (V c (Pipeline.arrRef spec0 0) : S10000x128.Idx → EReal) = x)
    (hs : ∀ e : Fin 640000, (V c (Pipeline.arrRef spec0 1) : S640000x1.Idx → BitVec 32) (ix2 e 0) = Cert.Spec.srcW ei e)
    (hd : ∀ e : Fin 640000, (V c (Pipeline.arrRef spec0 2) : S1x640000.Idx → BitVec 32) (ix2 0 e) = Cert.Spec.dstW ei e)
    (hg : ∀ n : Fin 10000, (V c (Pipeline.arrRef spec0 3) : S10000x1.Idx → EReal) (ix2 n 0) = Cert.Spec.invdeg ei n)
    (hWl : (V c (Pipeline.arrRef spec0 4) : S128x128.Idx → EReal) = Wl)
    (hb : ∀ j : Fin 128, (V c (Pipeline.arrRef spec0 5) : S1x128.Idx → EReal) (ix2 0 j) = b (ix1 j))
    (hWr : (V c (Pipeline.arrRef spec0 6) : S128x128.Idx → EReal) = Wr)
    (hok : Cert.Spec.SrcOk ei) :
    (out0 V c : S10000x128.Idx → EReal) = Cert.Spec.layer x ei Wl b Wr := by
  funext i
  obtain ⟨n, j, rfl⟩ : ∃ (n : Fin 10000) (j : Fin 128), i = ix2 n j := ⟨i 0, i 1, eq_ix2 i⟩
  show k0_pay4 (accAt0 V c 4999) (iblk0 V c 3 (tpt 4999)) (iblk0 V c 4 (tpt 4999)) (iblk0 V c 5 (tpt 4999))
    (iblk0 V c 0 (tpt 4999)) (iblk0 V c 6 (tpt 4999)) (ix2 n j) = _
  exact pay4_layer x ei Wl b Wr (accAt0 V c 4999) (iblk0 V c 3 (tpt 4999)) (iblk0 V c 4 (tpt 4999)) (iblk0 V c 5 (tpt 4999))
    (iblk0 V c 0 (tpt 4999)) (iblk0 V c 6 (tpt 4999)) n j
    (fun k => accAt0_last V c x ei hx hs hd hok n k)
    ((congrFun (blk0_whole_3 V c (tpt 4999)) (ix2 n 0)).trans (hg n))
    ((blk0_whole_4 V c (tpt 4999)).trans hWl)
    ((congrFun (blk0_whole_5 V c (tpt 4999)) (ix2 0 j)).trans (hb j))
    ((blk0_whole_0 V c (tpt 4999)).trans hx)
    ((blk0_whole_6 V c (tpt 4999)).trans hWr)

end Cert.KernelIdeal.R0

end
-- ==== Proof.PayValue1.lean ====
/-
  The second region's body stores the same four values as the first's: its reset value is the zero array, its cast
  features are the features, its accumulated value at `(n, k)` is the accumulator there plus the sum over the chunk's
  edges whose destination word is `n` of the features at the edge's source row, and its finished value at `(n, j)`
  is `max (((acc ⊙ g) · Wl + b) + x · Wr) 0` with the products written as sums over the 128 middle positions.
-/
import proofs.«422308_j53472342835254_2_alg».proof.Proof.PayValue

noncomputable section

open scoped BigOperators

namespace Cert.KernelIdeal.PayValue1

open Cert.KernelIdeal Cert.KernelIdeal.Gen
open Idealize.ShloMosaic Idealize.ShloMosaic.ValueIdx

theorem pay1_apply (i : S10000x128.Idx) : k1_pay1 (F := Ideal) i = 0 :=
  (congrFun PayValue.k1_pay1_eq i).trans (PayValue.pay1_apply i)

theorem pay2_eq (x : Vec Ideal S10000x128 .f32) : k1_pay2 x = x :=
  (PayValue.k1_pay2_eq x).trans (PayValue.pay2_eq x)

theorem pay3_apply (s : Vec Ideal S128x1 .i32) (d : Vec Ideal S1x128 .i32) (xb : Vec Ideal S10000x128 .bf16)
    (acc : Vec Ideal S10000x128 .f32) (hs : ∀ e : Fin 128, (s (ix2 e 0)).toNat < 10000) (n : Fin 10000) (k : Fin 128) :
    k1_pay3 s d xb acc (ix2 n k) = acc (ix2 n k)
      + ∑ e ∈ Finset.univ.filter (fun e : Fin 128 => d (ix2 0 e) = BitVec.ofNat 32 n.val),
          xb (ix2 ⟨(s (ix2 e 0)).toNat % 10000, Nat.mod_lt _ (by decide)⟩ k) :=
  (congrFun (PayValue.k1_pay3_eq s d xb acc) (ix2 n k)).trans (PayValue.pay3_apply s d xb acc hs n k)

theorem pay4_apply (acc : Vec Ideal S10000x128 .f32) (g : Vec Ideal S10000x1 .f32) (Wl : Vec Ideal S128x128 .f32)
    (b : Vec Ideal S1x128 .f32) (x : Vec Ideal S10000x128 .f32) (Wr : Vec Ideal S128x128 .f32) (n : Fin 10000) (j : Fin 128) :
    k1_pay4 acc g Wl b x Wr (ix2 n j)
      = max (((∑ k : Fin 128, (acc (ix2 n k) * g (ix2 n 0)) * Wl (ix2 k j)) + b (ix2 0 j))
          + ∑ k : Fin 128, x (ix2 n k) * Wr (ix2 k j)) 0 :=
  (congrFun (PayValue.k1_pay4_eq acc g Wl b x Wr) (ix2 n j)).trans (PayValue.pay4_apply acc g Wl b x Wr n j)

end Cert.KernelIdeal.PayValue1

end
-- ==== Proof.KernelValue1.lean ====
/-
  The first layer's kernel, read as mathematics over the extended reals.  The grid has 5000 points; point t reads
  rows 128 t … 128 t + 127 of the source column and columns 128 t … 128 t + 127 of the destination row (one chunk of
  128 edges), and the whole of the features, the reciprocal degrees, the two weight matrices and the bias row.
  Each point adds to the accumulator, at node n and feature k, the entry k of the source row of every edge of its
  chunk whose destination word is n.  So after point t the accumulator at (n, k) is the sum over the edges below
  128 (t + 1) with destination n of x(source node, k) (induction on t; a sum over the edges below 128 (t + 1) splits
  into the edges below 128 t and the 128 edges of chunk t), after the last point it is the sum over all the edges
  into n, and the block stored at the last point, relu((that sum · 1/deg) · W_l + b + x · W_r), is the layer.
-/
import proofs.«422308_j53472342835254_2_alg».proof.Proof.Shared1
import proofs.«422308_j53472342835254_2_alg».proof.Proof.Spec
import proofs.«422308_j53472342835254_2_alg».proof.Proof.PayValue1
import Idealize.ShloMosaic.Lib.ValueIdx
import Mathlib.Algebra.BigOperators.Group.Finset.Basic

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem

/-! ## Sums over the edges, chunk by chunk -/

/-- Edge number `e` of the chunk of 128 edges that grid point `t` reads. -/
def chunkEdge (t : ℕ) (ht : t < 5000) (e : Fin 128) : Fin 640000 := ⟨128 * t + e.val, by have := e.isLt; omega⟩

theorem chunkEdge_val (t : ℕ) (ht : t < 5000) (e : Fin 128) : (chunkEdge t ht e).val = 128 * t + e.val := rfl

/-- A sum over the edges below 128(t+1) that satisfy `P` is the sum over those below 128t plus the sum over
    chunk `t`'s 128 edges that satisfy `P`. -/
theorem sum_chunk_succ {M : Type*} [AddCommMonoid M] (P : Fin 640000 → Prop) [DecidablePred P] (f : Fin 640000 → M)
    (t : ℕ) (ht : t < 5000) :
    ∑ e' ∈ Finset.univ.filter (fun e' : Fin 640000 => e'.val < 128 * (t + 1) ∧ P e'), f e'
      = ∑ e' ∈ Finset.univ.filter (fun e' : Fin 640000 => e'.val < 128 * t ∧ P e'), f e'
        + ∑ e ∈ Finset.univ.filter (fun e : Fin 128 => P (chunkEdge t ht e)), f (chunkEdge t ht e) := by
  classical
  have hsplit : Finset.univ.filter (fun e' : Fin 640000 => e'.val < 128 * (t + 1) ∧ P e')
      = Finset.univ.filter (fun e' : Fin 640000 => e'.val < 128 * t ∧ P e')
        ∪ Finset.univ.filter (fun e' : Fin 640000 => (128 * t ≤ e'.val ∧ e'.val < 128 * (t + 1)) ∧ P e') := by
    ext e'
    simp only [Finset.mem_union, Finset.mem_filter, Finset.mem_univ, true_and]
    constructor
    · rintro ⟨h1, h2⟩
      by_cases h : e'.val < 128 * t
      · exact Or.inl ⟨h, h2⟩
      · exact Or.inr ⟨⟨by omega, h1⟩, h2⟩
    · rintro (⟨h1, h2⟩ | ⟨⟨_, h1⟩, h2⟩)
      · exact ⟨by omega, h2⟩
      · exact ⟨h1, h2⟩
  have hdisj : Disjoint (Finset.univ.filter (fun e' : Fin 640000 => e'.val < 128 * t ∧ P e'))
      (Finset.univ.filter (fun e' : Fin 640000 => (128 * t ≤ e'.val ∧ e'.val < 128 * (t + 1)) ∧ P e')) := by
    rw [Finset.disjoint_left]
    intro e' h1 h2
    simp only [Finset.mem_filter, Finset.mem_univ, true_and] at h1 h2
    omega
  rw [hsplit, Finset.sum_union hdisj]
  refine congrArg (HAdd.hAdd _) ?_
  symm
  refine Finset.sum_nbij' (fun e : Fin 128 => chunkEdge t ht e)
    (fun e' : Fin 640000 => (⟨(e'.val - 128 * t) % 128, Nat.mod_lt _ (by decide)⟩ : Fin 128)) ?_ ?_ ?_ ?_ ?_
  · intro e he
    simp only [Finset.mem_filter, Finset.mem_univ, true_and] at he ⊢
    have := e.isLt
    exact ⟨⟨by rw [chunkEdge_val]; omega, by rw [chunkEdge_val]; omega⟩, he⟩
  · intro e' he'
    simp only [Finset.mem_filter, Finset.mem_univ, true_and] at he' ⊢
    obtain ⟨⟨h1, h2⟩, h3⟩ := he'
    have : chunkEdge t ht ⟨(e'.val - 128 * t) % 128, Nat.mod_lt _ (by decide)⟩ = e' := by
      apply Fin.ext
      rw [chunkEdge_val]
      show 128 * t + (e'.val - 128 * t) % 128 = e'.val
      omega
    rw [this]; exact h3
  · intro e he
    apply Fin.ext
    have := e.isLt
    show (128 * t + e.val - 128 * t) % 128 = e.val
    omega
  · intro e' he'
    simp only [Finset.mem_filter, Finset.mem_univ, true_and] at he'
    obtain ⟨⟨h1, h2⟩, h3⟩ := he'
    apply Fin.ext
    rw [chunkEdge_val]
    show 128 * t + (e'.val - 128 * t) % 128 = e'.val
    omega
  · intro e he
    rfl

/-- Below 0 there is no edge. -/
theorem sum_chunk_zero {M : Type*} [AddCommMonoid M] (P : Fin 640000 → Prop) [DecidablePred P] (f : Fin 640000 → M) :
    ∑ e' ∈ Finset.univ.filter (fun e' : Fin 640000 => e'.val < 128 * 0 ∧ P e'), f e' = 0 := by
  rw [Finset.filter_false_of_mem, Finset.sum_empty]
  intro e' _ h
  omega

/-- Every edge is below 128 · 5000. -/
theorem filter_chunk_all (P : Fin 640000 → Prop) [DecidablePred P] :
    Finset.univ.filter (fun e' : Fin 640000 => e'.val < 128 * (4999 + 1) ∧ P e') = Finset.univ.filter P :=
  Finset.filter_congr fun e' _ => ⟨fun h => h.2, fun h => ⟨by have := e'.isLt; omega, h⟩⟩

/-! ## The four payloads, entry by entry -/

/-- The accumulator's reset value is zero everywhere. -/
theorem k1_pay1_at (i : S10000x128.Idx) : k1_pay1 (F := Ideal) i = 0 := Cert.KernelIdeal.PayValue1.pay1_apply i

/-- Casting the features to the narrower float format changes nothing over the extended reals. -/
theorem k1_pay2_at (x : Vec Ideal S10000x128 .f32) : k1_pay2 x = x := Cert.KernelIdeal.PayValue1.pay2_eq x

/-- One point's update: the two one-hot products add, at node `n`, the source rows of the chunk's edges whose destination
    word is `n`. -/
theorem k1_pay3_at (s : Vec Ideal S128x1 .i32) (d : Vec Ideal S1x128 .i32) (xb : Vec Ideal S10000x128 .bf16)
    (acc : Vec Ideal S10000x128 .f32) (hs : ∀ e : Fin 128, (s (ix2 e 0)).toNat < 10000) (n : Fin 10000) (k : Fin 128) :
    k1_pay3 s d xb acc (ix2 n k) = acc (ix2 n k) + ∑ e ∈ Finset.univ.filter (fun e : Fin 128 => d (ix2 0 e) = BitVec.ofNat 32 n.val),
      xb (ix2 ⟨(s (ix2 e 0)).toNat % 10000, Nat.mod_lt _ (by decide)⟩ k) :=
  Cert.KernelIdeal.PayValue1.pay3_apply s d xb acc hs n k

/-- The last point's expression: relu((acc · g) · W_l + b + x · W_r). -/
theorem k1_pay4_at (acc : Vec Ideal S10000x128 .f32) (g : Vec Ideal S10000x1 .f32) (Wl : Vec Ideal S128x128 .f32)
    (b : Vec Ideal S1x128 .f32) (x : Vec Ideal S10000x128 .f32) (Wr : Vec Ideal S128x128 .f32) (n : Fin 10000) (j : Fin 128) :
    k1_pay4 acc g Wl b x Wr (ix2 n j) = max (((∑ k : Fin 128, (acc (ix2 n k) * g (ix2 n 0)) * Wl (ix2 k j)) + b (ix2 0 j))
      + ∑ k : Fin 128, x (ix2 n k) * Wr (ix2 k j)) 0 :=
  Cert.KernelIdeal.PayValue1.pay4_apply acc g Wl b x Wr n j

variable (V : (c : Dev nD) → (b : Ref sig .tc) → Buf (Elt Ideal) ((c : Thread nD τ).loc b))

/-! ## From blocks to the arrays -/

/-- The block indices of the two moving windows at every grid point: point `t` takes block `t` of the source
    column and block `t` of the destination row. -/
theorem idx_moving1 : ∀ t : Fin cfg1.N, win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- Entry `e` of point `t`'s source block is row `128 t + e` of the source column. -/
theorem blk1_src (c : Dev nD) (t : Fin cfg1.N) (e : Fin 128) (k : S640000x1.Idx)
    (hk0 : (k 0).val = 128 * t.val + e.val) (hk1 : (k 1).val = 0) :
    (iblk1 V c 1 t : Vec Ideal S128x1 .i32) (ix2 e 0) = (V c (Pipeline.arrRef spec1 1) : S640000x1.Idx → BitVec 32) k := by
  have hi := idx_moving1 t
  unfold iblk1
  rw [View.read_apply]
  show (V c (Pipeline.arrRef spec1 1) : S640000x1.Idx → BitVec 32) _ = _
  refine congrArg _ (funext fun a => Fin.ext ?_)
  match a with
  | ⟨0, _⟩ => show win1_1.index t 0 * 128 + 1 * e.val = (k 0).val; rw [hi.1, hk0]; omega
  | ⟨1, _⟩ => show win1_1.index t 1 * 1 + 1 * 0 = (k 1).val; rw [hi.2.1, hk1]

/-- Entry `e` of point `t`'s destination block is column `128 t + e` of the destination row. -/
theorem blk1_dst (c : Dev nD) (t : Fin cfg1.N) (e : Fin 128) (k : S1x640000.Idx)
    (hk0 : (k 0).val = 0) (hk1 : (k 1).val = 128 * t.val + e.val) :
    (iblk1 V c 2 t : Vec Ideal S1x128 .i32) (ix2 0 e) = (V c (Pipeline.arrRef spec1 2) : S1x640000.Idx → BitVec 32) k := by
  have hi := idx_moving1 t
  unfold iblk1
  rw [View.read_apply]
  show (V c (Pipeline.arrRef spec1 2) : S1x640000.Idx → BitVec 32) _ = _
  refine congrArg _ (funext fun a => Fin.ext ?_)
  match a with
  | ⟨0, _⟩ => show win1_2.index t 0 * 1 + 1 * 0 = (k 0).val; rw [hi.2.2.1, hk0]
  | ⟨1, _⟩ => show win1_2.index t 1 * 128 + 1 * e.val = (k 1).val; rw [hi.2.2.2, hk1]; omega

/-! The other five windows take their whole array at every point. -/

theorem blk1_whole_0 (c : Dev nD) (t : Fin cfg1.N) :
    (iblk1 V c 0 t : Vec Ideal S10000x128 .f32) = (V c (Pipeline.arrRef spec1 0) : S10000x128.Idx → EReal) := by
  funext y
  unfold iblk1
  rw [View.read_apply]
  show (V c (Pipeline.arrRef spec1 0) : S10000x128.Idx → EReal) _ = _
  refine congrArg _ (funext fun a => Fin.ext ?_)
  match a with
  | ⟨0, _⟩ => show win1_0.index t 0 * 10000 + 1 * (y 0).val = (y 0).val; rw [show win1_0.index t 0 = 0 from rfl]; omega
  | ⟨1, _⟩ => show win1_0.index t 1 * 128 + 1 * (y 1).val = (y 1).val; rw [show win1_0.index t 1 = 0 from rfl]; omega

theorem blk1_whole_3 (c : Dev nD) (t : Fin cfg1.N) :
    (iblk1 V c 3 t : Vec Ideal S10000x1 .f32) = (V c (Pipeline.arrRef spec1 3) : S10000x1.Idx → EReal) := by
  funext y
  unfold iblk1
  rw [View.read_apply]
  show (V c (Pipeline.arrRef spec1 3) : S10000x1.Idx → EReal) _ = _
  refine congrArg _ (funext fun a => Fin.ext ?_)
  match a with
  | ⟨0, _⟩ => show win1_3.index t 0 * 10000 + 1 * (y 0).val = (y 0).val; rw [show win1_3.index t 0 = 0 from rfl]; omega
  | ⟨1, _⟩ => show win1_3.index t 1 * 1 + 1 * (y 1).val = (y 1).val; rw [show win1_3.index t 1 = 0 from rfl]; omega

theorem blk1_whole_4 (c : Dev nD) (t : Fin cfg1.N) :
    (iblk1 V c 4 t : Vec Ideal S128x128 .f32) = (V c (Pipeline.arrRef spec1 4) : S128x128.Idx → EReal) := by
  funext y
  unfold iblk1
  rw [View.read_apply]
  show (V c (Pipeline.arrRef spec1 4) : S128x128.Idx → EReal) _ = _
  refine congrArg _ (funext fun a => Fin.ext ?_)
  match a with
  | ⟨0, _⟩ => show win1_4.index t 0 * 128 + 1 * (y 0).val = (y 0).val; rw [show win1_4.index t 0 = 0 from rfl]; omega
  | ⟨1, _⟩ => show win1_4.index t 1 * 128 + 1 * (y 1).val = (y 1).val; rw [show win1_4.index t 1 = 0 from rfl]; omega

theorem blk1_whole_5 (c : Dev nD) (t : Fin cfg1.N) :
    (iblk1 V c 5 t : Vec Ideal S1x128 .f32) = (V c (Pipeline.arrRef spec1 5) : S1x128.Idx → EReal) := by
  funext y
  unfold iblk1
  rw [View.read_apply]
  show (V c (Pipeline.arrRef spec1 5) : S1x128.Idx → EReal) _ = _
  refine congrArg _ (funext fun a => Fin.ext ?_)
  match a with
  | ⟨0, _⟩ => show win1_5.index t 0 * 1 + 1 * (y 0).val = (y 0).val; rw [show win1_5.index t 0 = 0 from rfl]; omega
  | ⟨1, _⟩ => show win1_5.index t 1 * 128 + 1 * (y 1).val = (y 1).val; rw [show win1_5.index t 1 = 0 from rfl]; omega

theorem blk1_whole_6 (c : Dev nD) (t : Fin cfg1.N) :
    (iblk1 V c 6 t : Vec Ideal S128x128 .f32) = (V c (Pipeline.arrRef spec1 6) : S128x128.Idx → EReal) := by
  funext y
  unfold iblk1
  rw [View.read_apply]
  show (V c (Pipeline.arrRef spec1 6) : S128x128.Idx → EReal) _ = _
  refine congrArg _ (funext fun a => Fin.ext ?_)
  match a with
  | ⟨0, _⟩ => show win1_6.index t 0 * 128 + 1 * (y 0).val = (y 0).val; rw [show win1_6.index t 0 = 0 from rfl]; omega
  | ⟨1, _⟩ => show win1_6.index t 1 * 128 + 1 * (y 1).val = (y 1).val; rw [show win1_6.index t 1 = 0 from rfl]; omega

/-! ## One grid point's update -/

/-- Point `t` adds, at node `node`, the source rows of chunk `t`'s edges whose destination is `node`: if the accumulator
    held the sum over the edges below 128 t, it now holds the sum over the edges below 128 (t + 1). -/
theorem pay3_step (x : Cert.Spec.SX.Idx → EReal) (ei : Cert.Spec.SE.Idx → BitVec 32) (hok : Cert.Spec.SrcOk ei)
    (s : Vec Ideal S128x1 .i32) (d : Vec Ideal S1x128 .i32) (xb : Vec Ideal S10000x128 .bf16) (acc : Vec Ideal S10000x128 .f32)
    (t : ℕ) (ht : t < 5000)
    (hs : ∀ e : Fin 128, s (ix2 e 0) = Cert.Spec.srcW ei (chunkEdge t ht e))
    (hd : ∀ e : Fin 128, d (ix2 0 e) = Cert.Spec.dstW ei (chunkEdge t ht e))
    (hxb : (xb : S10000x128.Idx → EReal) = x) (node : Fin 10000) (k : Fin 128)
    (hacc : acc (ix2 node k) = ∑ e' ∈ Finset.univ.filter (fun e' : Fin 640000 =>
      e'.val < 128 * t ∧ Cert.Spec.dstW ei e' = BitVec.ofNat 32 node.val), x (ix2 (Cert.Spec.srcN ei e') k)) :
    k1_pay3 s d xb acc (ix2 node k) = ∑ e' ∈ Finset.univ.filter (fun e' : Fin 640000 =>
      e'.val < 128 * (t + 1) ∧ Cert.Spec.dstW ei e' = BitVec.ofNat 32 node.val), x (ix2 (Cert.Spec.srcN ei e') k) := by
  rw [k1_pay3_at s d xb acc (fun e => by rw [hs e]; exact hok _) node k, hacc,
    sum_chunk_succ (fun e' => Cert.Spec.dstW ei e' = BitVec.ofNat 32 node.val) (fun e' => x (ix2 (Cert.Spec.srcN ei e') k)) t ht]
  refine congrArg (HAdd.hAdd _) (Finset.sum_congr (Finset.filter_congr fun e _ => by rw [hd e]) fun e _ => ?_)
  rw [hs e, hxb]
  rfl

/-! ## The accumulator after each point -/

theorem tpt_val_of_lt (n : ℕ) (hn : n < 5000) : (tpt n).val = n := Nat.mod_eq_of_lt hn

/-- The features cast once are the features. -/
theorem xb1_eq (c : Dev nD) : (xb1 V c : S10000x128.Idx → EReal) = (V c (Pipeline.arrRef spec1 0) : S10000x128.Idx → EReal) :=
  (k1_pay2_at (iblk1 V c 0 (tpt 0))).trans (blk1_whole_0 V c (tpt 0))

/-- Point `n`'s source block is the source words of chunk `n`. -/
theorem src_at (c : Dev nD) (ei : Cert.Spec.SE.Idx → BitVec 32)
    (hs : ∀ e : Fin 640000, (V c (Pipeline.arrRef spec1 1) : S640000x1.Idx → BitVec 32) (ix2 e 0) = Cert.Spec.srcW ei e)
    (n : ℕ) (hn : n < 5000) (e : Fin 128) :
    (iblk1 V c 1 (tpt n) : Vec Ideal S128x1 .i32) (ix2 e 0) = Cert.Spec.srcW ei (chunkEdge n hn e) :=
  (blk1_src V c (tpt n) e (ix2 (chunkEdge n hn e) 0)
    (by show 128 * n + e.val = 128 * (tpt n).val + e.val; rw [tpt_val_of_lt n hn]) rfl).trans (hs (chunkEdge n hn e))

/-- Point `n`'s destination block is the destination words of chunk `n`. -/
theorem dst_at (c : Dev nD) (ei : Cert.Spec.SE.Idx → BitVec 32)
    (hd : ∀ e : Fin 640000, (V c (Pipeline.arrRef spec1 2) : S1x640000.Idx → BitVec 32) (ix2 0 e) = Cert.Spec.dstW ei e)
    (n : ℕ) (hn : n < 5000) (e : Fin 128) :
    (iblk1 V c 2 (tpt n) : Vec Ideal S1x128 .i32) (ix2 0 e) = Cert.Spec.dstW ei (chunkEdge n hn e) :=
  (blk1_dst V c (tpt n) e (ix2 0 (chunkEdge n hn e)) rfl
    (by show 128 * n + e.val = 128 * (tpt n).val + e.val; rw [tpt_val_of_lt n hn])).trans (hd (chunkEdge n hn e))

/-- After point `n` the accumulator holds, at node `node`, the sum of the source rows of the edges below 128 (n + 1)
    whose destination is `node`. -/
theorem accAt1_eq (c : Dev nD) (x : Cert.Spec.SX.Idx → EReal) (ei : Cert.Spec.SE.Idx → BitVec 32)
    (hx : (V c (Pipeline.arrRef spec1 0) : S10000x128.Idx → EReal) = x)
    (hs : ∀ e : Fin 640000, (V c (Pipeline.arrRef spec1 1) : S640000x1.Idx → BitVec 32) (ix2 e 0) = Cert.Spec.srcW ei e)
    (hd : ∀ e : Fin 640000, (V c (Pipeline.arrRef spec1 2) : S1x640000.Idx → BitVec 32) (ix2 0 e) = Cert.Spec.dstW ei e)
    (hok : Cert.Spec.SrcOk ei) (node : Fin 10000) (k : Fin 128) (n : ℕ) (hn : n < 5000) :
    accAt1 V c n (ix2 node k) = ∑ e' ∈ Finset.univ.filter (fun e' : Fin 640000 =>
      e'.val < 128 * (n + 1) ∧ Cert.Spec.dstW ei e' = BitVec.ofNat 32 node.val), x (ix2 (Cert.Spec.srcN ei e') k) := by
  induction n with
  | zero =>
    show k1_pay3 (iblk1 V c 1 (tpt 0)) (iblk1 V c 2 (tpt 0)) (xb1 V c) (k1_pay1 (F := Ideal)) (ix2 node k) = _
    exact pay3_step x ei hok (iblk1 V c 1 (tpt 0)) (iblk1 V c 2 (tpt 0)) (xb1 V c) (k1_pay1 (F := Ideal)) 0 hn
      (src_at V c ei hs 0 hn) (dst_at V c ei hd 0 hn) ((xb1_eq V c).trans hx) node k
      ((k1_pay1_at (ix2 node k)).trans (sum_chunk_zero _ _).symm)
  | succ n ih =>
    show k1_pay3 (iblk1 V c 1 (tpt (n + 1))) (iblk1 V c 2 (tpt (n + 1))) (xb1 V c) (accAt1 V c n) (ix2 node k) = _
    exact pay3_step x ei hok (iblk1 V c 1 (tpt (n + 1))) (iblk1 V c 2 (tpt (n + 1))) (xb1 V c) (accAt1 V c n) (n + 1) hn
      (src_at V c ei hs (n + 1) hn) (dst_at V c ei hd (n + 1) hn) ((xb1_eq V c).trans hx) node k
      (ih (by omega))

/-- After the last point the accumulator is the sum over all the edges into each node. -/
theorem accAt1_last (c : Dev nD) (x : Cert.Spec.SX.Idx → EReal) (ei : Cert.Spec.SE.Idx → BitVec 32)
    (hx : (V c (Pipeline.arrRef spec1 0) : S10000x128.Idx → EReal) = x)
    (hs : ∀ e : Fin 640000, (V c (Pipeline.arrRef spec1 1) : S640000x1.Idx → BitVec 32) (ix2 e 0) = Cert.Spec.srcW ei e)
    (hd : ∀ e : Fin 640000, (V c (Pipeline.arrRef spec1 2) : S1x640000.Idx → BitVec 32) (ix2 0 e) = Cert.Spec.dstW ei e)
    (hok : Cert.Spec.SrcOk ei) (node : Fin 10000) (k : Fin 128) :
    accAt1 V c 4999 (ix2 node k) = Cert.Spec.nsum x ei node k := by
  rw [accAt1_eq V c x ei hx hs hd hok node k 4999 (by decide),
    filter_chunk_all (fun e' => Cert.Spec.dstW ei e' = BitVec.ofNat 32 node.val)]
  rfl

/-! ## The layer -/

/-- The last payload on the final accumulator, the reciprocal degrees, the two weight matrices, the bias row and the
    features is the layer, entry by entry. -/
theorem pay4_layer (x : Cert.Spec.SX.Idx → EReal) (ei : Cert.Spec.SE.Idx → BitVec 32) (Wl : Cert.Spec.SW.Idx → EReal)
    (b : Cert.Spec.SB.Idx → EReal) (Wr : Cert.Spec.SW.Idx → EReal)
    (acc : Vec Ideal S10000x128 .f32) (g : Vec Ideal S10000x1 .f32) (wl : Vec Ideal S128x128 .f32)
    (bb : Vec Ideal S1x128 .f32) (xx : Vec Ideal S10000x128 .f32) (wr : Vec Ideal S128x128 .f32)
    (n : Fin 10000) (j : Fin 128)
    (hacc : ∀ k : Fin 128, acc (ix2 n k) = Cert.Spec.nsum x ei n k)
    (hg : g (ix2 n 0) = Cert.Spec.invdeg ei n) (hwl : (wl : S128x128.Idx → EReal) = Wl)
    (hb : bb (ix2 0 j) = b (ix1 j)) (hxx : (xx : S10000x128.Idx → EReal) = x) (hwr : (wr : S128x128.Idx → EReal) = Wr) :
    k1_pay4 acc g wl bb xx wr (ix2 n j) = Cert.Spec.layer x ei Wl b Wr (ix2 n j) := by
  show _ = max (((∑ k : Fin 128, (Cert.Spec.nsum x ei n k * Cert.Spec.invdeg ei n) * Wl (ix2 k j)) + b (ix1 j))
      + ∑ k : Fin 128, x (ix2 n k) * Wr (ix2 k j)) 0
  rw [k1_pay4_at acc g wl bb xx wr n j, hg, hb, hwl, hxx, hwr]
  simp only [hacc]

/-- The first layer's output block is the layer of the region's input arrays. -/
theorem out1_eq_layer (c : Dev nD)
    (x : Cert.Spec.SX.Idx → EReal) (ei : Cert.Spec.SE.Idx → BitVec 32) (Wl : Cert.Spec.SW.Idx → EReal)
    (b : Cert.Spec.SB.Idx → EReal) (Wr : Cert.Spec.SW.Idx → EReal)
    (hx : (V c (Pipeline.arrRef spec1 0) : S10000x128.Idx → EReal) = x)
    (hs : ∀ e : Fin 640000, (V c (Pipeline.arrRef spec1 1) : S640000x1.Idx → BitVec 32) (ix2 e 0) = Cert.Spec.srcW ei e)
    (hd : ∀ e : Fin 640000, (V c (Pipeline.arrRef spec1 2) : S1x640000.Idx → BitVec 32) (ix2 0 e) = Cert.Spec.dstW ei e)
    (hg : ∀ n : Fin 10000, (V c (Pipeline.arrRef spec1 3) : S10000x1.Idx → EReal) (ix2 n 0) = Cert.Spec.invdeg ei n)
    (hWl : (V c (Pipeline.arrRef spec1 4) : S128x128.Idx → EReal) = Wl)
    (hb : ∀ j : Fin 128, (V c (Pipeline.arrRef spec1 5) : S1x128.Idx → EReal) (ix2 0 j) = b (ix1 j))
    (hWr : (V c (Pipeline.arrRef spec1 6) : S128x128.Idx → EReal) = Wr)
    (hok : Cert.Spec.SrcOk ei) :
    (out1 V c : S10000x128.Idx → EReal) = Cert.Spec.layer x ei Wl b Wr := by
  funext i
  obtain ⟨n, j, rfl⟩ : ∃ (n : Fin 10000) (j : Fin 128), i = ix2 n j := ⟨i 0, i 1, eq_ix2 i⟩
  show k1_pay4 (accAt1 V c 4999) (iblk1 V c 3 (tpt 4999)) (iblk1 V c 4 (tpt 4999)) (iblk1 V c 5 (tpt 4999))
    (iblk1 V c 0 (tpt 4999)) (iblk1 V c 6 (tpt 4999)) (ix2 n j) = _
  exact pay4_layer x ei Wl b Wr (accAt1 V c 4999) (iblk1 V c 3 (tpt 4999)) (iblk1 V c 4 (tpt 4999)) (iblk1 V c 5 (tpt 4999))
    (iblk1 V c 0 (tpt 4999)) (iblk1 V c 6 (tpt 4999)) n j
    (fun k => accAt1_last V c x ei hx hs hd hok n k)
    ((congrFun (blk1_whole_3 V c (tpt 4999)) (ix2 n 0)).trans (hg n))
    ((blk1_whole_4 V c (tpt 4999)).trans hWl)
    ((congrFun (blk1_whole_5 V c (tpt 4999)) (ix2 0 j)).trans (hb j))
    ((blk1_whole_0 V c (tpt 4999)).trans hx)
    ((blk1_whole_6 V c (tpt 4999)).trans hWr)

end Cert.KernelIdeal.R1

end
-- ==== Proof.ArrOut0.lean ====
/-
  Region 0's output array after its 5000 points. The output window's one block is the whole array, at block index
  (0, 0) at every point, and it is written back at the last point only; what that point leaves is the finished
  layer, so the array ends holding it.
-/
import proofs.«422308_j53472342835254_2_alg».proof.Proof.Region0
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window's block index is zero on both axes, at every point. -/
theorem index0_7 (t : Fin cfg0.N) (a : Fin (cfg0.win 7).shape.rank) : (cfg0.win 7).index t a = 0 := by
  fin_cases a <;> rfl

/-- So the block sits at offset zero on both axes of its array. -/
theorem off0_7 (t : Fin cfg0.N) :
    (fun a => (cfg0.win 7).index t a * (Pipeline.arrRef spec0 7).ty.shape.size a) = fun _ => 0 :=
  funext fun a => by
    show (cfg0.win 7).index t a * _ = 0
    rw [index0_7 t a, Nat.zero_mul]

/-- What a point leaves for the output window, cut to what a write-back moves, is the finished layer read through
    the point's block: the block is the whole array. -/
theorem flushed0_7 (c : Dev nD) (t : Fin cfg0.N) :
    (dat0 V c).flushed 7 t = ((cfg0.win 7).blk t).view.read (Elt F) (out0 V c) := by
  show (cfg0.win 7).cut (grid0.coords t) ((dat0 V c).after 7 t) = _
  rw [after0_7]
  generalize out0 V c = G
  exact (Memref.read_access_unit_zero (Elt F) (Pipeline.arrRef spec0 7) (off0_7 t)
    (fun a => by rw [congrFun (off0_7 t) a]; simp) G).symm

/-- The last point of the grid. -/
def tlast : Fin cfg0.N := ⟨4999, lt_of_lt_of_eq (by decide) (show (5000 : ℕ) = cfg0.N from N_0.symm)⟩

/-- Every index of the output array lies in the block of the last point, which is written back. -/
theorem cover0_7 (c : Dev nD) (i : ((cfg0.win 7).arr.view.loc (c.tc : Thread nD τ)).2.ty.Idx) :
    ∃ t : Fin cfg0.N, (cfg0.win 7).flush t = true ∧ i ∈ ((cfg0.win 7).blk t).view.set := by
  refine ⟨tlast, (flush0_7 tlast).mpr (by decide), ?_⟩
  show i ∈ ((View.whole (Pipeline.arrRef spec0 7)).slice ((cfg0.win 7).rect tlast)).set
  rw [View.set_slice_whole, Rect.mem_set_unit]
  intro a
  have hz := congrFun (off0_7 tlast) a
  have hi := (i a).isLt
  refine ⟨?_, ?_⟩
  · show (cfg0.win 7).index tlast a * (Pipeline.arrRef spec0 7).ty.shape.size a ≤ (i a).val
    rw [hz]; exact Nat.zero_le _
  · show (i a).val < (cfg0.win 7).index tlast a * (Pipeline.arrRef spec0 7).ty.shape.size a + (Pipeline.arrRef spec0 7).ty.shape.size a
    rw [hz, Nat.zero_add]; exact hi

/-- The output array after all 5000 points is the block stored at the last point. -/
theorem arrAt_out0 (c : Dev nD) : (dat0 V c).arrAt 7 cfg0.N = out0 V c :=
  (dat0 V c).arrAt_eq_of_cover 7 (out0 V c) (fun t _ => flushed0_7 V c t) (cover0_7 c)

end Cert.KernelIdeal.R0

end
-- ==== Proof.ArrOut1.lean ====
/-
  Region 1's output array after its 5000 points. The output window's one block is the whole array, at block index
  (0, 0) at every point, and it is written back at the last point only; what that point leaves is the finished
  layer, so the array ends holding it.
-/
import proofs.«422308_j53472342835254_2_alg».proof.Proof.Region1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window's block index is zero on both axes, at every point. -/
theorem index1_7 (t : Fin cfg1.N) (a : Fin (cfg1.win 7).shape.rank) : (cfg1.win 7).index t a = 0 := by
  fin_cases a <;> rfl

/-- So the block sits at offset zero on both axes of its array. -/
theorem off1_7 (t : Fin cfg1.N) :
    (fun a => (cfg1.win 7).index t a * (Pipeline.arrRef spec1 7).ty.shape.size a) = fun _ => 0 :=
  funext fun a => by
    show (cfg1.win 7).index t a * _ = 0
    rw [index1_7 t a, Nat.zero_mul]

/-- What a point leaves for the output window, cut to what a write-back moves, is the finished layer read through
    the point's block: the block is the whole array. -/
theorem flushed1_7 (c : Dev nD) (t : Fin cfg1.N) :
    (dat1 V c).flushed 7 t = ((cfg1.win 7).blk t).view.read (Elt F) (out1 V c) := by
  show (cfg1.win 7).cut (grid1.coords t) ((dat1 V c).after 7 t) = _
  rw [after1_7]
  generalize out1 V c = G
  exact (Memref.read_access_unit_zero (Elt F) (Pipeline.arrRef spec1 7) (off1_7 t)
    (fun a => by rw [congrFun (off1_7 t) a]; simp) G).symm

/-- The last point of the grid. -/
def tlast : Fin cfg1.N := ⟨4999, lt_of_lt_of_eq (by decide) (show (5000 : ℕ) = cfg1.N from N_1.symm)⟩

/-- Every index of the output array lies in the block of the last point, which is written back. -/
theorem cover1_7 (c : Dev nD) (i : ((cfg1.win 7).arr.view.loc (c.tc : Thread nD τ)).2.ty.Idx) :
    ∃ t : Fin cfg1.N, (cfg1.win 7).flush t = true ∧ i ∈ ((cfg1.win 7).blk t).view.set := by
  refine ⟨tlast, (flush1_7 tlast).mpr (by decide), ?_⟩
  show i ∈ ((View.whole (Pipeline.arrRef spec1 7)).slice ((cfg1.win 7).rect tlast)).set
  rw [View.set_slice_whole, Rect.mem_set_unit]
  intro a
  have hz := congrFun (off1_7 tlast) a
  have hi := (i a).isLt
  refine ⟨?_, ?_⟩
  · show (cfg1.win 7).index tlast a * (Pipeline.arrRef spec1 7).ty.shape.size a ≤ (i a).val
    rw [hz]; exact Nat.zero_le _
  · show (i a).val < (cfg1.win 7).index tlast a * (Pipeline.arrRef spec1 7).ty.shape.size a + (Pipeline.arrRef spec1 7).ty.shape.size a
    rw [hz, Nat.zero_add]; exact hi

/-- The output array after all 5000 points is the block stored at the last point. -/
theorem arrAt_out1 (c : Dev nD) : (dat1 V c).arrAt 7 cfg1.N = out1 V c :=
  (dat1 V c).arrAt_eq_of_cover 7 (out1 V c) (fun t _ => flushed1_7 V c t) (cover1_7 c)

end Cert.KernelIdeal.R1

end
-- ==== Proof.LibScatter.lean ====
/-
  The host's accumulating scatter read at an index, for the two layouts a sparse product uses: scalars added into
  a vector at the positions an index column names, and rows added into a matrix at the rows an index column names.
-/
import Idealize.ShloMosaic.PureOps
import Idealize.ShloMosaic.Lib.ValueIdx

noncomputable section

namespace Idealize.ShloMosaic.ScatterRead

open Idealize.ShloMosaic Idealize.ShloMosaic.ValueIdx

/-! ## When an update lands at a given entry -/

/-- An update lands at `i` exactly when, on every operand axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hh
      have h2 := congrArg Fin.val (congrFun (Option.some.inj h) a)
      simp only at h2
      have := (hh a).1
      omega
    · exact absurd h (by simp)
  · intro h
    have hh : ∀ a, 0 ≤ d.start j idx a + d.window j a ∧ d.start j idx a + d.window j a < s.size a := by
      intro a; rw [h a]; exact ⟨by omega, by exact_mod_cast (i a).isLt⟩
    rw [dif_pos hh]
    congr 1
    funext a
    apply Fin.ext
    simp [h a]

/-! ## Scalars into a vector: start and window of an update -/

private theorem flat_start {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) :
    (⟨[], [0], [0], 1, wf⟩ : ScatterDims ⟨1, ![N]⟩ ⟨2, ![n, 1]⟩ ⟨1, ![n]⟩).start j idx 0 = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem flat_window {N n : Nat} (wf : ScatterDims.WF ⟨1, ![N]⟩ ⟨2, ![n, 1]⟩ ⟨1, ![n]⟩ [] [0] [0] 1)
    (j : (⟨1, ![n]⟩ : Shape).Idx) :
    (⟨[], [0], [0], 1, wf⟩ : ScatterDims ⟨1, ![N]⟩ ⟨2, ![n, 1]⟩ ⟨1, ![n]⟩).window j 0 = 0 := by
  unfold ScatterDims.window
  rw [dif_neg]
  exact fun h => (of_decide_eq_true (List.mem_filter.mp h).2) (List.mem_singleton.mpr rfl)

/-- Flat layout: an update lands at `k` exactly when its index word, read signed, is `k`. -/
private theorem flat_resultIdx? {N n w : Nat} (wf : ScatterDims.WF ⟨1, ![N]⟩ ⟨2, ![n, 1]⟩ ⟨1, ![n]⟩ [] [0] [0] 1)
    (idx : IVec ⟨2, ![n, 1]⟩ w) (j : (⟨1, ![n]⟩ : Shape).Idx) (k : Fin N) :
    (⟨[], [0], [0], 1, wf⟩ : ScatterDims ⟨1, ![N]⟩ ⟨2, ![n, 1]⟩ ⟨1, ![n]⟩).resultIdx? j idx = some (ix1 k)
      ↔ (idx (ix2 (j 0) 0)).toInt = (k.val : Int) := by
  rw [resultIdx?_eq_some_iff]
  constructor
  · intro h
    have h0 := h 0
    rw [flat_start, flat_window, Nat.cast_zero, add_zero] at h0
    exact h0
  · intro h a
    obtain rfl : a = 0 := Subsingleton.elim _ _
    rw [flat_start, flat_window, h, Nat.cast_zero, add_zero]
    rfl

/-- SCALARS INTO A VECTOR. Entry `k` of the result is the operand's entry plus the sum of the updates `upd[i]`
    whose index word `idx[i, 0]`, read signed, is `k`; an update whose index is outside `[0, N)` lands nowhere. -/
theorem scatterAdd_flat_apply {N n w : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![n, 1]⟩ w) (upd : (⟨1, ![n]⟩ : Shape).Idx → EReal) (k : Fin N) :
    Ideal.hostScatterAdd d x idx upd (ix1 k)
      = x (ix1 k) + ∑ i ∈ Finset.univ.filter (fun i : Fin n => (idx (ix2 i 0)).toInt = (k.val : Int)), upd (ix1 i) := by
  obtain ⟨uw, iw, sd, iv, wf⟩ := d
  dsimp only at hu hi hs hv
  subst hu hi hs hv
  unfold Ideal.hostScatterAdd
  congr 1
  refine Finset.sum_nbij' (fun j : (⟨1, ![n]⟩ : Shape).Idx => (j 0 : Fin n)) (fun i : Fin n => ix1 i) ?_ ?_ ?_ ?_ ?_
  · intro j hj
    exact Finset.mem_filter.mpr ⟨Finset.mem_univ _, (flat_resultIdx? wf idx j k).mp (Finset.mem_filter.mp hj).2⟩
  · intro i hi
    exact Finset.mem_filter.mpr ⟨Finset.mem_univ _, (flat_resultIdx? wf idx (ix1 i) k).mpr (Finset.mem_filter.mp hi).2⟩
  · intro j _
    exact (eq_ix1 j).symm
  · intro i _
    rfl
  · intro j _
    exact congrArg upd (eq_ix1 j)

/-! ## Rows into a matrix: start and window of an update -/

private theorem rows_start0 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 0
      = (idx (ix2 (j 0) 0)).toInt := by
  unfold ScatterDims.start
  rw [dif_pos (List.mem_singleton.mpr rfl)]
  congr 2
  funext b; refine Fin.ext ?_
  match b with
  | ⟨0, _⟩ => rfl
  | ⟨1, _⟩ => rfl

private theorem rows_start1 {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) :
    (⟨[1], [0], [0], 1, wf⟩ : ScatterDims ⟨2, ![R, C]⟩ ⟨2, ![n, 1]⟩ ⟨2, ![n, C]⟩).start j idx 1 = 0 := by
  unfold ScatterDims.start
  rw [dif_neg]
  exact fun h => Nat.one_ne_zero (congrArg Fin.val (List.mem_singleton.mp h))

private theorem rows_window0 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 0 = 0 := by
  unfold ScatterDims.window
  rw [dif_neg]
  exact fun h => (of_decide_eq_true (List.mem_filter.mp h).2) (List.mem_singleton.mpr rfl)

private theorem rows_window1 {R C n : Nat} (wf : ScatterDims.WF ⟨2, ![R, C]⟩ ⟨2, ![n, 1]⟩ ⟨2, ![n, C]⟩ [1] [0] [0] 1)
    (j : (⟨2, ![n, C]⟩ : Shape).Idx) :
    (⟨[1], [0], [0], 1, wf⟩ : ScatterDims ⟨2, ![R, C]⟩ ⟨2, ![n, 1]⟩ ⟨2, ![n, C]⟩).window j 1 = (j 1).val := by
  have h1 : (1 : Fin 2) ∈ (⟨[1], [0], [0], 1, wf⟩ : ScatterDims ⟨2, ![R, C]⟩ ⟨2, ![n, 1]⟩ ⟨2, ![n, C]⟩).sKept :=
    List.mem_filter.mpr ⟨List.mem_finRange _,
      decide_eq_true (fun h => Nat.one_ne_zero (congrArg Fin.val (List.mem_singleton.mp h)))⟩
  unfold ScatterDims.window
  rw [dif_pos h1]
  rfl

/-- Row layout: an update lands at `(r, b)` exactly when its index word, read signed, is `r` and its column is `b`. -/
private theorem rows_resultIdx? {R C n w : Nat} (wf : ScatterDims.WF ⟨2, ![R, C]⟩ ⟨2, ![n, 1]⟩ ⟨2, ![n, C]⟩ [1] [0] [0] 1)
    (idx : IVec ⟨2, ![n, 1]⟩ w) (j : (⟨2, ![n, C]⟩ : Shape).Idx) (r : Fin R) (b : Fin C) :
    (⟨[1], [0], [0], 1, wf⟩ : ScatterDims ⟨2, ![R, C]⟩ ⟨2, ![n, 1]⟩ ⟨2, ![n, C]⟩).resultIdx? j idx = some (ix2 r b)
      ↔ (idx (ix2 (j 0) 0)).toInt = (r.val : Int) ∧ (j 1).val = b.val := by
  rw [resultIdx?_eq_some_iff]
  constructor
  · intro h
    have h0 := h 0
    have h1 := h 1
    rw [rows_start0, rows_window0, Nat.cast_zero, add_zero] at h0
    rw [rows_start1, rows_window1, zero_add] at h1
    exact ⟨h0, by exact_mod_cast h1⟩
  · intro h a
    match a with
    | ⟨0, _⟩ =>
      show ScatterDims.start _ j idx 0 + ((ScatterDims.window _ j 0 : Nat) : Int) = _
      rw [rows_start0, rows_window0, h.1, Nat.cast_zero, add_zero]
    | ⟨1, _⟩ =>
      show ScatterDims.start _ j idx 1 + ((ScatterDims.window _ j 1 : Nat) : Int) = _
      rw [rows_start1, rows_window1, h.2, zero_add]

/-- ROWS INTO A MATRIX. Entry `(r, b)` of the result is the operand's entry plus the sum of the updates
    `upd[i, b]` over the rows `i` whose index word `idx[i, 0]`, read signed, is `r`. -/
theorem scatterAdd_rows_apply {R C n w : Nat} (d : ScatterDims (⟨2, ![R, C]⟩ : Shape) ⟨2, ![n, 1]⟩ ⟨2, ![n, C]⟩)
    (hu : d.updateWindowDims = [1]) (hi : d.insertedWindowDims = [0]) (hs : d.scatterDimsToOperandDims = [0])
    (hv : d.indexVectorDim = 1)
    (x : (⟨2, ![R, C]⟩ : Shape).Idx → EReal) (idx : IVec ⟨2, ![n, 1]⟩ w) (upd : (⟨2, ![n, C]⟩ : Shape).Idx → EReal)
    (r : Fin R) (b : Fin C) :
    Ideal.hostScatterAdd d x idx upd (ix2 r b)
      = x (ix2 r b) + ∑ i ∈ Finset.univ.filter (fun i : Fin n => (idx (ix2 i 0)).toInt = (r.val : Int)), upd (ix2 i b) := by
  obtain ⟨uw, iw, sd, iv, wf⟩ := d
  dsimp only at hu hi hs hv
  subst hu hi hs hv
  unfold Ideal.hostScatterAdd
  congr 1
  refine Finset.sum_nbij' (fun j : (⟨2, ![n, C]⟩ : Shape).Idx => (j 0 : Fin n)) (fun i : Fin n => ix2 i b) ?_ ?_ ?_ ?_ ?_
  · intro j hj
    exact Finset.mem_filter.mpr ⟨Finset.mem_univ _, ((rows_resultIdx? wf idx j r b).mp (Finset.mem_filter.mp hj).2).1⟩
  · intro i hi
    exact Finset.mem_filter.mpr ⟨Finset.mem_univ _, (rows_resultIdx? wf idx (ix2 i b) r b).mpr ⟨(Finset.mem_filter.mp hi).2, rfl⟩⟩
  · intro j hj
    have hb : (j 1 : Fin C) = b := Fin.ext ((rows_resultIdx? wf idx j r b).mp (Finset.mem_filter.mp hj).2).2
    show ix2 (j 0 : Fin n) b = j
    rw [← hb]
    exact (eq_ix2 j).symm
  · intro i _
    rfl
  · intro j hj
    have hb : (j 1 : Fin C) = b := Fin.ext ((rows_resultIdx? wf idx j r b).mp (Finset.mem_filter.mp hj).2).2
    show upd j = upd (ix2 (j 0 : Fin n) b)
    rw [← hb]
    exact congrArg upd (eq_ix2 j)

end Idealize.ShloMosaic.ScatterRead

end
-- ==== Proof.HostValue.lean ====
/-
  What the host operations before each kernel region leave in the arrays the regions read, at the ideal instance and
  from any starting contents W of the buffers.  Writing ei for the edge list (a [2, 640000] array of 32-bit words):

  * the source column, a [640000, 1] array, holds at (e, 0) the word ei[0, e];
  * the destination row, a [1, 640000] array, holds at (0, e) the word ei[1, e];
  * the reciprocal-degree column, a [10000, 1] array, holds at (n, 0) the real 1 / max(deg n, 1), where deg n is the
    number of edges whose destination word is n.  The program computes deg by adding a one into entry d of a zero vector
    for every edge with destination d (an integer scatter with an add body, read here as the left fold over the edges
    in order); an edge whose destination is outside [0, 10000) adds nowhere.  Entry n of the result is therefore the
    number of edges e with ei[1, e] = n read signed, which for n < 2 ^ 31 is word equality; the count is at most
    640000, so 32-bit addition never wraps and the conversion to a float is exact; the maximum with 1.0 and the
    quotient 1.0 / · are then real operations on a nonzero real;
  * each bias row, a [1, 128] array, holds at (0, j) entry j of its bias vector.
-/
import proofs.«422308_j53472342835254_2_alg».proof.Proof.Gen.KernelIdeal.Launch
import proofs.«422308_j53472342835254_2_alg».proof.Proof.Spec
import proofs.«422308_j53472342835254_2_alg».proof.Proof.LibScatter
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.IdealHost

noncomputable section

namespace Cert.KernelIdeal.HostValue

open Cert.KernelIdeal Cert.KernelIdeal.Gen
open Idealize.ShloMosaic Idealize.ShloMosaic.ValueIdx
open Idealize.SL.Sem

section Count
variable {s si u : Shape} {w : Nat}

/-- One update of an accumulating integer scatter: the array after update number n. -/
def step (d : ScatterDims s si u) (idx : IVec si w) (upd : u.Idx → BitVec 32) (r : s.Idx → BitVec 32) (n : Fin u.numel) :
    s.Idx → BitVec 32 :=
  match d.resultIdx? (u.rowMajor.symm n) idx with
  | some i => fun i' => if i' = i then IntOp.addi (r i) (upd (u.rowMajor.symm n)) else r i'
  | none => r

theorem scatter_eq_foldl (d : ScatterDims s si u) (idx : IVec si w) (upd : u.Idx → BitVec 32) (x : s.Idx → BitVec 32) :
    Host.scatter d IntOp.addi x idx upd = (List.finRange u.numel).foldl (step d idx upd) x := rfl

theorem step_apply (d : ScatterDims s si u) (idx : IVec si w) (upd : u.Idx → BitVec 32) (r : s.Idx → BitVec 32)
    (n : Fin u.numel) (i : s.Idx) :
    step d idx upd r n i
      = if d.resultIdx? (u.rowMajor.symm n) idx = some i then IntOp.addi (r i) (upd (u.rowMajor.symm n)) else r i := by
  unfold step
  cases h : d.resultIdx? (u.rowMajor.symm n) idx with
  | none => simp
  | some i0 =>
    by_cases e : i = i0
    · subst e; simp
    · have e' : ¬ i0 = i := fun h => e h.symm
      simp [e, e']

theorem foldl_step_toNat (d : ScatterDims s si u) (idx : IVec si w) (upd : u.Idx → BitVec 32) (hupd : ∀ j, upd j = 1#32)
    (i : s.Idx) :
    ∀ (l : List (Fin u.numel)) (r : s.Idx → BitVec 32), (r i).toNat + l.length < 2 ^ 32 →
      ((l.foldl (step d idx upd) r) i).toNat
        = (r i).toNat + (l.filter fun n => decide (d.resultIdx? (u.rowMajor.symm n) idx = some i)).length
  | [], r, _ => by simp
  | a :: l, r, h => by
    have hlen : (a :: l).length = l.length + 1 := rfl
    rw [hlen] at h
    by_cases c : d.resultIdx? (u.rowMajor.symm a) idx = some i
    · have e1 : (step d idx upd r a i).toNat = (r i).toNat + 1 := by
        rw [step_apply, if_pos c, hupd]
        show (r i + 1#32).toNat = _
        rw [BitVec.toNat_add]
        have h1 : (1#32 : BitVec 32).toNat = 1 := rfl
        rw [h1]
        exact Nat.mod_eq_of_lt (by omega)
      rw [List.foldl_cons, foldl_step_toNat d idx upd hupd i l _ (by rw [e1]; omega), e1,
        List.filter_cons_of_pos (by simpa using c), List.length_cons]
      omega
    · have e1 : step d idx upd r a i = r i := by rw [step_apply, if_neg c]
      rw [List.foldl_cons, foldl_step_toNat d idx upd hupd i l _ (by rw [e1]; omega), e1,
        List.filter_cons_of_neg (by simpa using c)]

theorem filter_finRange_length (M : Nat) (P : Fin M → Prop) [DecidablePred P] :
    ((List.finRange M).filter fun n => decide (P n)).length = (Finset.univ.filter P).card := by
  rfl

/-- In the layout that adds scalars into a vector at the positions an index column names, the updates that land at
    entry k are those whose index word, read signed, is k. -/
theorem card_landing {N n w : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1) (idx : IVec ⟨2, ![n, 1]⟩ w) (k : Fin N) :
    (Finset.univ.filter fun j : (⟨1, ![n]⟩ : Shape).Idx => d.resultIdx? j idx = some (ix1 k)).card
      = (Finset.univ.filter fun i : Fin n => (idx (ix2 i 0)).toInt = (k.val : Int)).card := by
  have h := ScatterRead.scatterAdd_flat_apply d hu hi hs hv (fun _ => 0) idx (fun _ => 1) k
  unfold Ideal.hostScatterAdd at h
  simp only [zero_add, Finset.sum_const, nsmul_one] at h
  exact_mod_cast h

/-- The count of the updates landing at entry k, as a natural number: the scatter adds a one per landing update into a
    zero entry, and the count does not wrap because there are fewer than 2 ^ 32 updates in all. -/
theorem scatter_count {N n w : Nat} (d : ScatterDims (⟨1, ![N]⟩ : Shape) ⟨2, ![n, 1]⟩ ⟨1, ![n]⟩)
    (hu : d.updateWindowDims = []) (hi : d.insertedWindowDims = [0]) (hs : d.scatterDimsToOperandDims = [0])
    (hv : d.indexVectorDim = 1) (x : (⟨1, ![N]⟩ : Shape).Idx → BitVec 32) (idx : IVec ⟨2, ![n, 1]⟩ w)
    (upd : (⟨1, ![n]⟩ : Shape).Idx → BitVec 32) (hupd : ∀ j, upd j = 1#32) (k : Fin N) (hx : x (ix1 k) = 0#32)
    (hn : n < 2 ^ 32) :
    (Host.scatter d IntOp.addi x idx upd (ix1 k)).toNat
      = (Finset.univ.filter fun i : Fin n => (idx (ix2 i 0)).toInt = (k.val : Int)).card := by
  have hnum : (⟨1, ![n]⟩ : Shape).numel = n := Shape.numel_rank1 _
  rw [scatter_eq_foldl, foldl_step_toNat d idx upd hupd (ix1 k) _ _ (by rw [hx, List.length_finRange, hnum]; simpa using hn),
    hx, filter_finRange_length, ← card_landing d hu hi hs hv idx k]
  show 0 + _ = _
  rw [Nat.zero_add]
  exact Finset.card_equiv (⟨1, ![n]⟩ : Shape).rowMajor.symm fun a => by simp

end Count

/-! ## The layout operations read at an index -/

section Reads
variable {α : Type}

/-- Row 0 of the edge list, cut out and flattened, holds at position e the word at (0, e). -/
theorem row0_apply (a : S2x640000.Idx → α) (hs : S2x640000.Slices ![0, 0] S1x640000)
    (hc : S1x640000.ShapeCasts S640000) (e : Fin 640000) :
    shapeCast S640000 (extractStridedSlice S1x640000 ![0, 0] a hs) hc (ix1 e) = a (ix2 (0 : Fin 2) e) := by
  refine (shapeCast_apply _ hc (ix1 e) (ix2 (0 : Fin 1) e) ?_).trans ?_
  · rw [Shape.rowMajor_val_two, Shape.rowMajor_val_one]
    show 0 * 640000 + e.val = e.val
    omega
  · refine extractStridedSlice_apply _ a hs _ _ fun b => ?_
    match b with
    | ⟨0, _⟩ => show (0 : Nat) = 0 + 0; rfl
    | ⟨1, _⟩ => show e.val = 0 + e.val; omega

/-- Row 1 of the edge list, cut out and flattened, holds at position e the word at (1, e). -/
theorem row1_apply (a : S2x640000.Idx → α) (hs : S2x640000.Slices ![1, 0] S1x640000)
    (hc : S1x640000.ShapeCasts S640000) (e : Fin 640000) :
    shapeCast S640000 (extractStridedSlice S1x640000 ![1, 0] a hs) hc (ix1 e) = a (ix2 (1 : Fin 2) e) := by
  refine (shapeCast_apply _ hc (ix1 e) (ix2 (0 : Fin 1) e) ?_).trans ?_
  · rw [Shape.rowMajor_val_two, Shape.rowMajor_val_one]
    show 0 * 640000 + e.val = e.val
    omega
  · refine extractStridedSlice_apply _ a hs _ _ fun b => ?_
    match b with
    | ⟨0, _⟩ => show (1 : Nat) = 1 + 0; rfl
    | ⟨1, _⟩ => show e.val = 0 + e.val; omega

/-- A vector stood up as a one-column matrix holds at (e, 0) the vector's entry e. -/
theorem col_apply (v : S640000.Idx → α) (hc : S640000.ShapeCasts S640000x1) (e : Fin 640000) :
    shapeCast S640000x1 v hc (ix2 e (0 : Fin 1)) = v (ix1 e) := by
  refine shapeCast_apply _ hc _ _ ?_
  rw [Shape.rowMajor_val_two, Shape.rowMajor_val_one]
  show e.val = e.val * 1 + 0
  omega

/-- A vector laid down as a one-row matrix holds at (0, e) the vector's entry e. -/
theorem row_apply (v : S640000.Idx → α) (hc : S640000.ShapeCasts S1x640000) (e : Fin 640000) :
    shapeCast S1x640000 v hc (ix2 (0 : Fin 1) e) = v (ix1 e) := by
  refine shapeCast_apply _ hc _ _ ?_
  rw [Shape.rowMajor_val_two, Shape.rowMajor_val_one]
  show e.val = 0 * 640000 + e.val
  omega

/-- The same for a vector of 10000 entries stood up as a column. -/
theorem col10000_apply (v : S10000.Idx → α) (hc : S10000.ShapeCasts S10000x1) (n : Fin 10000) :
    shapeCast S10000x1 v hc (ix2 n (0 : Fin 1)) = v (ix1 n) := by
  refine shapeCast_apply _ hc _ _ ?_
  rw [Shape.rowMajor_val_two, Shape.rowMajor_val_one]
  show n.val = n.val * 1 + 0
  omega

/-- And for a vector of 128 entries laid down as a row. -/
theorem row128_apply (v : S128.Idx → α) (hc : S128.ShapeCasts S1x128) (j : Fin 128) :
    shapeCast S1x128 v hc (ix2 (0 : Fin 1) j) = v (ix1 j) := by
  refine shapeCast_apply _ hc _ _ ?_
  rw [Shape.rowMajor_val_two, Shape.rowMajor_val_one]
  show j.val = 0 * 128 + j.val
  omega

/-- A vector broadcast along a new unit axis holds at (e, 0) the vector's entry e. -/
theorem bcast_col_apply (v : S640000.Idx → α) (h : S640000.BroadcastsInDim S640000x1 ![0]) (e : Fin 640000) :
    broadcastInDim S640000x1 ![0] h v (ix2 e (0 : Fin 1)) = v (ix1 e) := by
  unfold broadcastInDim
  congr 1
  funext b
  obtain rfl : b = 0 := Subsingleton.elim _ _
  apply Fin.ext
  split
  · next h1 => exact absurd h1 (by decide)
  · rfl

end Reads

/-! ## Words and the reciprocal -/

/-- A word read signed is the natural number n (below 2 ^ 31) exactly when it is the word of n. -/
theorem toInt_eq_iff (w : BitVec 32) (n : Nat) (hn : n < 2 ^ 31) : w.toInt = (n : Int) ↔ w = BitVec.ofNat 32 n := by
  constructor
  · intro h
    apply BitVec.eq_of_toInt_eq
    rw [h, StableHlo.Predicate.toInt_ofNat_small n hn]
  · rintro rfl
    exact StableHlo.Predicate.toInt_ofNat_small n hn

/-- One divided by the larger of a count and one: the count converted exactly, the maximum and the quotient real. -/
theorem invdeg_of_count (c : S10000.Idx → BitVec 32) (hb : S_.BroadcastsInDim S10000 (![] : Fin 0 → Fin S10000.rank))
    (hc : S10000.ShapeCasts S10000x1) (n : Fin 10000) (m : Nat) (hm : (c (ix1 n)).toInt = (m : Int)) :
    shapeCast S10000x1 (Host.divf (broadcastInDim S10000 ![] hb (constant (F := Ideal) S_ .f32 0x3F800000#32))
        (maximumf (sitofp (F := Ideal) .f32 c) (broadcastInDim S10000 ![] hb (constant (F := Ideal) S_ .f32 0x3F800000#32))))
        hc (ix2 n (0 : Fin 1))
      = ((1 / max (m : ℝ) 1 : ℝ) : EReal) := by
  refine (col10000_apply _ hc n).trans ?_
  show Ideal.div (Ideal.ofBits .f32 0x3F800000#32)
      (max ((((c (ix1 n)).toInt : ℝ)) : EReal) (Ideal.ofBits .f32 0x3F800000#32)) = _
  rw [Ideal.ofBits_one_f32, hm, Int.cast_natCast]
  have h1 : max ((m : ℝ) : EReal) 1 = ((max (m : ℝ) 1 : ℝ) : EReal) := by
    rw [← EReal.coe_one]
    exact (EReal.coe_strictMono.monotone.map_max (a := (m : ℝ)) (b := 1)).symm
  rw [h1, Ideal.div_coe (ne_of_gt (lt_of_lt_of_le one_pos (le_max_right _ _))), one_mul]

/-- The reciprocal-degree column over variables: the scatter of ones counts, at node n, the edges whose destination
    word is n; the count is at most 640000, so it reads the same signed; and one over the larger of it and one is
    the specification's reciprocal degree. -/
theorem invdeg_read (a : S2x640000.Idx → BitVec 32) (hs : S2x640000.Slices ![1, 0] S1x640000)
    (hc : S1x640000.ShapeCasts S640000) (hb8 : S640000.BroadcastsInDim S640000x1 ![0])
    (hb6 : S_.BroadcastsInDim S640000 (![] : Fin 0 → Fin S640000.rank))
    (hb7 : S_.BroadcastsInDim S10000 (![] : Fin 0 → Fin S10000.rank)) (hc15 : S10000.ShapeCasts S10000x1)
    (d : ScatterDims S10000 S640000x1 S640000)
    (hu : d.updateWindowDims = []) (hi : d.insertedWindowDims = [0]) (hsd : d.scatterDimsToOperandDims = [0])
    (hv : d.indexVectorDim = 1) (n : Fin 10000) :
    shapeCast S10000x1 (Host.divf (broadcastInDim S10000 ![] hb7 (constant (F := Ideal) S_ .f32 0x3F800000#32))
        (maximumf (sitofp (F := Ideal) .f32 (Host.scatter d IntOp.addi (broadcastInDim S10000 ![] hb7 (constantI S_ 32 0#32))
            (broadcastInDim S640000x1 ![0] hb8 (shapeCast S640000 (extractStridedSlice S1x640000 ![1, 0] a hs) hc))
            (broadcastInDim S640000 ![] hb6 (constantI S_ 32 1#32))))
          (broadcastInDim S10000 ![] hb7 (constant (F := Ideal) S_ .f32 0x3F800000#32))))
        hc15 (ix2 n (0 : Fin 1))
      = Cert.Spec.invdeg a n := by
  have hcount := scatter_count d hu hi hsd hv (broadcastInDim S10000 ![] hb7 (constantI S_ 32 0#32))
    (broadcastInDim S640000x1 ![0] hb8 (shapeCast S640000 (extractStridedSlice S1x640000 ![1, 0] a hs) hc))
    (broadcastInDim S640000 ![] hb6 (constantI S_ 32 1#32)) (fun _ => rfl) n rfl (by norm_num)
  have hfilt : (Finset.univ.filter fun i : Fin 640000 =>
      ((broadcastInDim S640000x1 ![0] hb8 (shapeCast S640000 (extractStridedSlice S1x640000 ![1, 0] a hs) hc))
        (ix2 i (0 : Fin 1))).toInt = (n.val : Int)) = Cert.Spec.into a n := by
    unfold Cert.Spec.into
    refine Finset.filter_congr fun e _ => ?_
    rw [bcast_col_apply, row1_apply]
    exact toInt_eq_iff _ n.val (by have := n.isLt; omega)
  rw [hfilt] at hcount
  have hle : (Cert.Spec.into a n).card ≤ 640000 := (Finset.card_le_univ _).trans (by simp)
  refine (invdeg_of_count _ hb7 hc15 n (Cert.Spec.into a n).card ?_).trans rfl
  rw [StableHlo.Predicate.toInt_eq_toNat_of_lt (by rw [hcount]; omega), hcount]

/-! ## What the host operations leave in the arrays the regions read -/

section Host
variable (W : Valuation τ sig (Elt Ideal))

/-- The source column as the operations build it: row 0, flattened, stood up as a column. -/
theorem v4_term :
    (StableHlo.after (hostOps0 (F := Ideal)) W (Proc.devRef .tc main_v4) : S640000x1.Idx → BitVec 32)
      = shapeCast S640000x1 (shapeCast S640000 (extractStridedSlice S1x640000 ![0, 0]
          (W (Proc.devRef .tc main_arg1) : S2x640000.Idx → BitVec 32) Facts₀.slices_S2x640000_S1x640000_0_0)
          Facts₀.shapeCasts_S1x640000_S640000) Facts₀.shapeCasts_S640000_S640000x1 := by
  after_results
  rfl

/-- The destination row as the operations build it: row 1, flattened, laid down as a row. -/
theorem v5_term :
    (StableHlo.after (hostOps0 (F := Ideal)) W (Proc.devRef .tc main_v5) : S1x640000.Idx → BitVec 32)
      = shapeCast S1x640000 (shapeCast S640000 (extractStridedSlice S1x640000 ![1, 0]
          (W (Proc.devRef .tc main_arg1) : S2x640000.Idx → BitVec 32) Facts₀.slices_S2x640000_S1x640000_1_0)
          Facts₀.shapeCasts_S1x640000_S640000) Facts₀.shapeCasts_S640000_S1x640000 := by
  after_results
  rfl

/-- The reciprocal-degree column as the operations build it. -/
theorem v15_term :
    (StableHlo.after (hostOps0 (F := Ideal)) W (Proc.devRef .tc main_v15) : S10000x1.Idx → EReal)
      = shapeCast S10000x1 (Host.divf
          (broadcastInDim S10000 ![] Facts₀.bcast_S_S10000 (constant (F := Ideal) S_ .f32 0x3F800000#32))
          (maximumf (sitofp (F := Ideal) .f32 (Host.scatter scatter_S10000_S640000x1_S640000_n_0_0_1 IntOp.addi
              (broadcastInDim S10000 ![] Facts₀.bcast_S_S10000 (constantI S_ 32 0#32))
              (broadcastInDim S640000x1 ![0] Facts₀.bcast_S640000_S640000x1_0 (shapeCast S640000
                (extractStridedSlice S1x640000 ![1, 0] (W (Proc.devRef .tc main_arg1) : S2x640000.Idx → BitVec 32)
                  Facts₀.slices_S2x640000_S1x640000_1_0) Facts₀.shapeCasts_S1x640000_S640000))
              (broadcastInDim S640000 ![] Facts₀.bcast_S_S640000 (constantI S_ 32 1#32))))
            (broadcastInDim S10000 ![] Facts₀.bcast_S_S10000 (constant (F := Ideal) S_ .f32 0x3F800000#32))))
          Facts₀.shapeCasts_S10000_S10000x1 := by
  after_results
  rfl

/-- The first bias as a row. -/
theorem v16_term :
    (StableHlo.after (hostOps0 (F := Ideal)) W (Proc.devRef .tc main_v16) : S1x128.Idx → EReal)
      = shapeCast S1x128 (W (Proc.devRef .tc main_arg3) : S128.Idx → EReal) Facts₀.shapeCasts_S128_S1x128 := by
  after_results
  rfl

/-- The second bias as a row. -/
theorem v18_term :
    (StableHlo.after (hostOps1 (F := Ideal)) W (Proc.devRef .tc main_v18) : S1x128.Idx → EReal)
      = shapeCast S1x128 (W (Proc.devRef .tc main_arg6) : S128.Idx → EReal) Facts₀.shapeCasts_S128_S1x128 := by
  after_results
  rfl

/-- The source column holds, at edge e, the source word of e. -/
theorem src_col (e : Fin 640000) :
    (StableHlo.after (hostOps0 (F := Ideal)) W (Proc.devRef .tc main_v4) : S640000x1.Idx → BitVec 32) (ix2 e (0 : Fin 1))
      = Cert.Spec.srcW (W (Proc.devRef .tc main_arg1) : S2x640000.Idx → BitVec 32) e := by
  rw [v4_term]
  exact (col_apply _ _ e).trans (row0_apply _ _ _ e)

/-- The destination row holds, at edge e, the destination word of e. -/
theorem dst_row (e : Fin 640000) :
    (StableHlo.after (hostOps0 (F := Ideal)) W (Proc.devRef .tc main_v5) : S1x640000.Idx → BitVec 32) (ix2 (0 : Fin 1) e)
      = Cert.Spec.dstW (W (Proc.devRef .tc main_arg1) : S2x640000.Idx → BitVec 32) e := by
  rw [v5_term]
  exact (row_apply _ _ e).trans (row1_apply _ _ _ e)

/-- The reciprocal-degree column holds, at node n, one over the larger of n's in-degree and one. -/
theorem invdeg_col (n : Fin 10000) :
    (StableHlo.after (hostOps0 (F := Ideal)) W (Proc.devRef .tc main_v15) : S10000x1.Idx → EReal) (ix2 n (0 : Fin 1))
      = Cert.Spec.invdeg (W (Proc.devRef .tc main_arg1) : S2x640000.Idx → BitVec 32) n := by
  rw [v15_term]
  exact invdeg_read _ _ _ _ _ _ _ _ rfl rfl rfl rfl n

/-- The first layer's bias row holds, at column j, the bias vector's entry j. -/
theorem b1_row (j : Fin 128) :
    (StableHlo.after (hostOps0 (F := Ideal)) W (Proc.devRef .tc main_v16) : S1x128.Idx → EReal) (ix2 (0 : Fin 1) j)
      = (W (Proc.devRef .tc main_arg3) : S128.Idx → EReal) (ix1 j) := by
  rw [v16_term]
  exact row128_apply _ _ j

/-- The second layer's bias row holds, at column j, the bias vector's entry j. -/
theorem b2_row (j : Fin 128) :
    (StableHlo.after (hostOps1 (F := Ideal)) W (Proc.devRef .tc main_v18) : S1x128.Idx → EReal) (ix2 (0 : Fin 1) j)
      = (W (Proc.devRef .tc main_arg6) : S128.Idx → EReal) (ix1 j) := by
  rw [v18_term]
  exact row128_apply _ _ j

end Host

end Cert.KernelIdeal.HostValue

end
-- ==== Proof.KernelNet.lean ====
/-
  The idealized kernel program's result, at the ideal instance, is the two-layer network of Spec.lean of its
  arguments, whenever every source word names a node.  Region 0 is entered with the feature array, the two weight
  matrices and the bias row as launched, the source column and destination row the two rows of the edge list, and
  the reciprocal-degree column computed by the host; it leaves the first layer in its output array.  Region 1 is
  entered with that array as its features and the second layer's weights and bias, the same edge columns and degrees;
  it leaves the second layer of the first.
-/
import proofs.«422308_j53472342835254_2_alg».proof.Proof.MainRun
import proofs.«422308_j53472342835254_2_alg».proof.Proof.KernelValue0
import proofs.«422308_j53472342835254_2_alg».proof.Proof.KernelValue1
import proofs.«422308_j53472342835254_2_alg».proof.Proof.ArrOut0
import proofs.«422308_j53472342835254_2_alg».proof.Proof.ArrOut1
import proofs.«422308_j53472342835254_2_alg».proof.Proof.HostValue
import proofs.«422308_j53472342835254_2_alg».proof.Proof.Spec

set_option maxRecDepth 16384

noncomputable section

namespace Cert.KernelIdeal.Net

open Cert.KernelIdeal Cert.KernelIdeal.Gen Cert.KernelIdeal.R0 Cert.KernelIdeal.R1 Cert.KernelIdeal.Main
open Idealize.ShloMosaic Idealize.ShloMosaic.TcCoe Idealize.ShloMosaic.ValueIdx Idealize.SL.Sem

variable (m : (ℓ : Loc nD τ sig) → Buf (Elt Ideal) ℓ) (ρ : Dev nD → PrngReg)

/-- Region 0 leaves the first layer of the arguments. -/
theorem layer1 (c : Dev nD) (hok : Cert.Spec.SrcOk (m ((c : Thread nD τ).loc main_arg1))) :
    (out0 (Vat1 m ρ) c : S10000x128.Idx → EReal)
      = Cert.Spec.layer (m ((c : Thread nD τ).loc main_arg0)) (m ((c : Thread nD τ).loc main_arg1)) (m ((c : Thread nD τ).loc main_arg2))
          (m ((c : Thread nD τ).loc main_arg3)) (m ((c : Thread nD τ).loc main_arg4)) :=
  out0_eq_layer (Vat1 m ρ) c _ _ _ _ _
    (W1_of m ρ c main_arg0 (by decide))
    (fun e => Cert.KernelIdeal.HostValue.src_col (W0 m ρ c) e)
    (fun e => Cert.KernelIdeal.HostValue.dst_row (W0 m ρ c) e)
    (fun n => Cert.KernelIdeal.HostValue.invdeg_col (W0 m ρ c) n)
    (W1_of m ρ c main_arg2 (by decide))
    (fun j => Cert.KernelIdeal.HostValue.b1_row (W0 m ρ c) j)
    (W1_of m ρ c main_arg4 (by decide))
    hok

/-- A reference neither host stretch writes and region 0 does not change is at region 1's entry as launched-side computed. -/
theorem W3_eq_W1 (c : Dev nD) (r : Ref sig .tc) (h3 : r ∉ hostOps1_W) (h2 : ∀ w, Pipeline.arrRef spec0 w ≠ r) :
    W3 m ρ c (Proc.devRef .tc r) = W1 m ρ c (Proc.devRef .tc r) :=
  (W3_of m ρ c r h3).trans (W2_of_ne m ρ c r h2)

/-- The array of an INPUT window of region 0 that the second host stretch does not write is at region 1's entry what it
    was at region 0's entry: a region only reads its inputs. -/
theorem W3_eq_W1_in (c : Dev nD) (w : Fin cfg0.W) (hin : (cfg0.win w).isOut = false) (h3 : Pipeline.arrRef spec0 w ∉ hostOps1_W) :
    W3 m ρ c (Proc.devRef .tc (Pipeline.arrRef spec0 w)) = W1 m ρ c (Proc.devRef .tc (Pipeline.arrRef spec0 w)) :=
  (W3_of m ρ c _ h3).trans ((W2_arr m ρ c w).trans (((dat0 (Vat1 m ρ) c).arrAt_in w hin _).trans (A_eq0 (Vat1 m ρ) c w)))

/-- The result array after region 1 is the two-layer network of the arguments. -/
theorem net_value (c : Dev nD) (hok : Cert.Spec.SrcOk (m ((c : Thread nD τ).loc main_arg1))) :
    ((dat1 (Vat3 m ρ) c).arrAt 7 cfg1.N : S10000x128.Idx → EReal)
      = Cert.Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (arrAt_out1 (Vat3 m ρ) c).trans ?_
  unfold Cert.Spec.net
  refine out1_eq_layer (Vat3 m ρ) c _ _ _ _ _ ?hx ?hs ?hd ?hg ?hWl ?hb ?hWr hok
  case hx =>
    exact (W3_of m ρ c main_v17 (by decide)).trans ((W2_arr m ρ c 7).trans ((arrAt_out0 (Vat1 m ρ) c).trans (layer1 m ρ c hok)))
  case hs =>
    intro e
    exact (congrFun (W3_eq_W1_in m ρ c 1 rfl (by decide)) (ix2 e 0)).trans (Cert.KernelIdeal.HostValue.src_col (W0 m ρ c) e)
  case hd =>
    intro e
    exact (congrFun (W3_eq_W1_in m ρ c 2 rfl (by decide)) (ix2 0 e)).trans (Cert.KernelIdeal.HostValue.dst_row (W0 m ρ c) e)
  case hg =>
    intro n
    exact (congrFun (W3_eq_W1_in m ρ c 3 rfl (by decide)) (ix2 n 0)).trans (Cert.KernelIdeal.HostValue.invdeg_col (W0 m ρ c) n)
  case hWl =>
    exact (W3_eq_W1 m ρ c main_arg5 (by decide) (by decide)).trans (W1_of m ρ c main_arg5 (by decide))
  case hb =>
    intro j
    exact (Cert.KernelIdeal.HostValue.b2_row (W2 m ρ c) j).trans
      (congrFun ((W2_of_ne m ρ c main_arg6 (by decide)).trans (W1_of m ρ c main_arg6 (by decide))) (ix1 j))
  case hWr =>
    exact (W3_eq_W1 m ρ c main_arg7 (by decide) (by decide)).trans (W1_of m ρ c main_arg7 (by decide))

end Cert.KernelIdeal.Net

end
-- ==== Proof.LibGather.lean ====
/-
  Two layout reads a sparse product's reference needs: a gather of whole rows of a matrix by an index column, and
  two matrices joined along their second axis.
-/
import Idealize.ShloMosaic.PureOps
import Idealize.ShloMosaic.Lib.ValueIdx
import Idealize.ShloMosaic.Lib.Pipeline.Value

noncomputable section

namespace Idealize.ShloMosaic.GatherRead

open Idealize.ShloMosaic Idealize.ShloMosaic.ValueIdx

/-- The dimension numbers of a gather of whole rows: operand `[R, C]`, start indices `[n, 1]` (one row number per
    result row), result `[n, C]`; the row axis is collapsed and indexed, the column axis is kept whole. -/
private abbrev rowsDims (R C n : Nat)
    (wf : GatherDims.WF ⟨2, ![R, C]⟩ ⟨2, ![n, 1]⟩ ⟨2, ![n, C]⟩ [1] [0] [] [0] [] 1 ![1, C]) :
    GatherDims (⟨2, ![R, C]⟩ : Shape) ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Axis 1 is not axis 0. -/
private theorem one_not_mem_zero : (1 : Fin 2) ∉ ([0] : List (Fin 2)) := by decide

/-- The gather of whole rows read at `(i, b)`, for the dimension numbers spelled out. -/
private theorem rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (i : Fin n) (b : Fin C) :
    Host.gather (rowsDims R C n wf) x idx (ix2 i b)
      = x (ix2 ⟨min (idx (ix2 i 0)).toInt.toNat (R - 1), by omega⟩ b) := by
  unfold Host.gather
  congr 1
  funext a
  refine Fin.ext ?_
  match a with
  | ⟨0, _⟩ =>
    -- the row axis: the clamped start index; no batching coordinate, and no offset since the axis is collapsed
    show (rowsDims R C n wf).start (ix2 i b) idx 0 + (rowsDims R C n wf).batchCoord (ix2 i b) 0
      + (rowsDims R C n wf).offCoord (ix2 i b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims R C n wf).startIndexMap from List.mem_singleton.mpr rfl)]
    have hsi : (rowsDims R C n wf).siIdx (ix2 i b) ⟨List.idxOf (0 : Fin 2) (rowsDims R C n wf).startIndexMap,
        List.idxOf_lt_length_iff.2 (List.mem_singleton.mpr rfl)⟩ = ix2 i 0 := by
      funext c; refine Fin.ext ?_
      match c with
      | ⟨0, _⟩ => rfl
      | ⟨1, _⟩ => rfl
    rw [hsi]
    rfl
  | ⟨1, _⟩ =>
    -- the column axis: not indexed (start 0), not batching, and the offset is the result's column
    show (rowsDims R C n wf).start (ix2 i b) idx 1 + (rowsDims R C n wf).batchCoord (ix2 i b) 1
      + (rowsDims R C n wf).offCoord (ix2 i b) 1 = b.val
    rw [GatherDims.batchCoord_eq_zero _ _ _ List.not_mem_nil]
    have hs : (rowsDims R C n wf).start (ix2 i b) idx 1 = 0 := by
      unfold GatherDims.start
      rw [dif_neg (show ¬ (1 : Fin 2) ∈ (rowsDims R C n wf).startIndexMap from one_not_mem_zero)]
    have hk : (1 : Fin 2) ∈ (rowsDims R C n wf).sKept :=
      (GatherDims.mem_sKept _ _).mpr ⟨one_not_mem_zero, List.not_mem_nil⟩
    rw [hs]
    simp only [Nat.add_zero, Nat.zero_add]
    unfold GatherDims.offCoord
    rw [dif_pos hk]
    rfl

/-- ROWS OF A MATRIX. Entry `(i, b)` of the result is the operand at row `idx[i, 0]` — read signed and clamped
    into `[0, R − 1]` — and column `b`. -/
theorem gather_rows_apply {α : Type} {R C n w : Nat} (hR : 0 < R)
    (d : GatherDims (⟨2, ![R, C]⟩ : Shape) ⟨2, ![n, 1]⟩ ⟨2, ![n, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![n, 1]⟩ w) (i : Fin n) (b : Fin C) :
    Host.gather d x idx (ix2 i b) = x (ix2 ⟨min (idx (ix2 i 0)).toInt.toNat (R - 1), by omega⟩ b) := by
  obtain ⟨od, cd, ob, sb, sm, iv, ss, wf⟩ := d
  dsimp only at h1 h2 h3 h4 h5 h6 h7
  subst h1 h2 h3 h4 h5 h6 h7
  exact rows_apply hR wf x idx i b

/-- TWO MATRICES SIDE BY SIDE. Entry `(p, q)` of `[a | b]` is `a[p, q]` for `q` below `a`'s width and
    `b[p, q − width]` from there on. -/
theorem concat_cols_apply {α : Type} {A B₁ B₂ B : Nat} (hB : B₁ + B₂ = B)
    (h : Shape.Concatenates [(⟨2, ![A, B₁]⟩ : Shape), ⟨2, ![A, B₂]⟩] (⟨2, ![A, B]⟩ : Shape) 1)
    (a : (⟨2, ![A, B₁]⟩ : Shape).Idx → α) (b : (⟨2, ![A, B₂]⟩ : Shape).Idx → α) (p : Fin A) (q : Fin B) :
    concatenate (⟨2, ![A, B]⟩ : Shape) 1 [⟨⟨2, ![A, B₁]⟩, a⟩, ⟨⟨2, ![A, B₂]⟩, b⟩] h (ix2 p q)
      = if hq : q.val < B₁ then a (ix2 p ⟨q.val, hq⟩) else b (ix2 p ⟨q.val - B₁, by omega⟩) := by
  by_cases hq : q.val < B₁
  · -- the column falls in the first matrix: same coordinates there
    rw [dif_pos hq]
    refine concatenate_pair_apply_left (1 : Fin 2) a b h (ix2 p q) rfl (ix2 p ⟨q.val, hq⟩) ?_
    intro c
    match c with
    | ⟨0, _⟩ => rfl
    | ⟨1, _⟩ => rfl
  · -- the column falls in the second matrix: same row, the column the first width less
    rw [dif_neg hq]
    refine concatenate_pair_apply_right (1 : Fin 2) a b h (ix2 p q) rfl rfl (ix2 p ⟨q.val - B₁, by omega⟩) ?_ ?_
    · intro c hc
      match c, hc with
      | ⟨0, _⟩, _ => rfl
      | ⟨1, _⟩, hc => exact absurd rfl hc
    · show q.val - B₁ + B₁ = q.val
      omega

end Idealize.ShloMosaic.GatherRead

end
-- ==== Proof.RefValue.lean ====
/-
  The reference's result, read at an index: it is the two-layer network of Spec.lean at the argument arrays,
  whenever every source word names a node.
-/
import proofs.«422308_j53472342835254_2_alg».proof.Proof.Gen.ReferenceIdeal.Run
import proofs.«422308_j53472342835254_2_alg».proof.Proof.Gen.ReferenceIdeal.Read
import proofs.«422308_j53472342835254_2_alg».proof.Proof.Spec
import proofs.«422308_j53472342835254_2_alg».proof.Proof.LibScatter
import proofs.«422308_j53472342835254_2_alg».proof.Proof.LibGather

noncomputable section

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo Cert.Spec

/-! ## Words -/

/-- A word below the node count is not negative, so the wrap of negative words leaves it alone. -/
theorem wrap_id (w : BitVec 32) (h : w.toNat < 10000) :
    Scalar.select (IntOp.cmpi .slt w 0#32) (IntOp.addi w 10000#32) w = w := by
  have hs : w.slt 0#32 = false := by
    rw [BitVec.slt, decide_eq_false_iff_not, BitVec.toInt_eq_toNat_of_lt (by omega)]
    simp
  simp [Scalar.select, IntOp.cmpi, hs]

/-- A word below the node count, read signed and clamped to the rows, is its own value. -/
theorem clamp_id (w : BitVec 32) (h : w.toNat < 10000) : min w.toInt.toNat (10000 - 1) = w.toNat := by
  rw [BitVec.toInt_eq_toNat_of_lt (by omega)]
  simp only [Int.toNat_natCast]
  omega

/-- A word read signed is the node number exactly when it is that number's word. -/
theorem toInt_eq_node (w : BitVec 32) (n : Fin 10000) :
    w.toInt = (n.val : Int) ↔ w = BitVec.ofNat 32 n.val := by
  have hn := n.isLt
  constructor
  · intro h
    apply BitVec.eq_of_toInt_eq
    rw [h, BitVec.toInt_eq_toNat_of_lt (by simp; omega)]
    simp
    omega
  · intro h
    subst h
    rw [BitVec.toInt_eq_toNat_of_lt (by simp; omega)]
    simp
    omega

/-! ## The count -/

/-- The word of one is one. -/
theorem ofBits_one_f32 : (FloatOps.ofBits .f32 0x3F800000#32 : Ideal .f32) = 1 := by
  show Ideal.ofBits .f32 0x3F800000#32 = 1
  simp [Ideal.ofBits, Ideal.ieee, -EReal.coe_mul]; norm_num

/-- Zero plus a sum of ones is the number of terms, as a real. -/
theorem zero_add_sum_ones {ι : Type} (s : Finset ι) :
    (0 : EReal) + ∑ _i ∈ s, (1 : EReal) = ((s.card : ℝ) : EReal) := by
  rw [zero_add, Finset.sum_const, nsmul_one]
  rfl

/-- The larger of a real and one, taken among the extended reals, is the real one. -/
theorem max_coe_one (c : ℝ) : max (c : EReal) 1 = ((max c 1 : ℝ) : EReal) := by
  rw [← EReal.coe_one]
  exact (EReal.coe_strictMono.monotone.map_max).symm

/-! ## Mean aggregation over abstract operands -/

/-- The filter of a scatter by a destination column is the set of edges into the node. -/
theorem filter_eq_into (ei : SE.Idx → BitVec 32) (dc : IVec (⟨2, ![640000, 1]⟩ : Shape) 32)
    (hdc : ∀ e : Fin 640000, dc (ix2 e 0) = dstW ei e) (n : Fin 10000) :
    Finset.univ.filter (fun e : Fin 640000 => (dc (ix2 e 0)).toInt = (n.val : Int)) = into ei n := by
  unfold into
  refine Finset.filter_congr fun e _ => ?_
  rw [hdc e, toInt_eq_node]

/-- MEAN AGGREGATION. Rows gathered by the source column, added into the rows the destination column names, and
    divided by max(number of such edges, 1): the sum over the edges into the node times the reciprocal. -/
theorem mean_aggr
    (dG : GatherDims (⟨2, ![10000, 128]⟩ : Shape) ⟨2, ![640000, 1]⟩ ⟨2, ![640000, 128]⟩)
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, 128])
    (dS : ScatterDims (⟨2, ![10000, 128]⟩ : Shape) ⟨2, ![640000, 1]⟩ ⟨2, ![640000, 128]⟩)
    (s1 : dS.updateWindowDims = [1]) (s2 : dS.insertedWindowDims = [0]) (s3 : dS.scatterDimsToOperandDims = [0])
    (s4 : dS.indexVectorDim = 1)
    (dF : ScatterDims (⟨1, ![10000]⟩ : Shape) ⟨2, ![640000, 1]⟩ ⟨1, ![640000]⟩)
    (f1 : dF.updateWindowDims = []) (f2 : dF.insertedWindowDims = [0]) (f3 : dF.scatterDimsToOperandDims = [0])
    (f4 : dF.indexVectorDim = 1)
    (h : FVec Ideal (⟨2, ![10000, 128]⟩ : Shape) .f32) (ei : SE.Idx → BitVec 32) (hsrc : SrcOk ei)
    (z : FVec Ideal (⟨2, ![10000, 128]⟩ : Shape) .f32) (hz : ∀ i, z i = 0)
    (z1 : FVec Ideal (⟨1, ![10000]⟩ : Shape) .f32) (hz1 : ∀ i, z1 i = 0)
    (ones : FVec Ideal (⟨1, ![640000]⟩ : Shape) .f32) (hones : ∀ i, ones i = 1)
    (one : Ideal .f32) (hone : one = 1)
    (sc dc dc' : IVec (⟨2, ![640000, 1]⟩ : Shape) 32)
    (hsc : ∀ e : Fin 640000, sc (ix2 e 0) = srcW ei e)
    (hdc : ∀ e : Fin 640000, dc (ix2 e 0) = dstW ei e)
    (hdc' : ∀ e : Fin 640000, dc' (ix2 e 0) = dstW ei e)
    (n : Fin 10000) (k : Fin 128) :
    FloatOps.hostDivf (Host.scatterAdd dS z dc (Host.gather dG h sc) (ix2 n k))
        (FloatOps.maximumf (Host.scatterAdd dF z1 dc' ones (ix1 n)) one)
      = nsum h ei n k * invdeg ei n := by
  show Ideal.div (Ideal.hostScatterAdd dS z dc (Host.gather dG h sc) (ix2 n k))
        (max (Ideal.hostScatterAdd dF z1 dc' ones (ix1 n)) one) = _
  have e1 : Ideal.hostScatterAdd dS z dc (Host.gather dG h sc) (ix2 n k) = nsum h ei n k := by
    rw [ScatterRead.scatterAdd_rows_apply dS s1 s2 s3 s4, filter_eq_into ei dc hdc, hz, zero_add]
    unfold nsum
    refine Finset.sum_congr rfl fun e _ => ?_
    rw [GatherRead.gather_rows_apply (by norm_num) dG g1 g2 g3 g4 g5 g6 g7]
    have hw : (srcW ei e).toNat < 10000 := hsrc e
    refine congrArg (fun r => h (ix2 r k)) (Fin.ext ?_)
    show min (sc (ix2 e 0)).toInt.toNat (10000 - 1) = (srcW ei e).toNat % 10000
    rw [hsc e, clamp_id _ hw, Nat.mod_eq_of_lt hw]
  have hcnt : (0 : EReal) + ∑ i ∈ into ei n, ones (ix1 i) = (((into ei n).card : ℝ) : EReal) :=
    (congrArg (fun t => (0 : EReal) + t) (Finset.sum_congr rfl fun i _ => hones (ix1 i))).trans
      (zero_add_sum_ones _)
  have e2 : max (Ideal.hostScatterAdd dF z1 dc' ones (ix1 n)) one
      = ((max ((into ei n).card : ℝ) 1 : ℝ) : EReal) := by
    rw [ScatterRead.scatterAdd_flat_apply dF f1 f2 f3 f4, filter_eq_into ei dc' hdc', hz1, hone, hcnt, max_coe_one]
  exact (congrArg₂ Ideal.div e1 e2).trans
    (Ideal.div_coe (lt_of_lt_of_le one_pos (le_max_right _ _)).ne' _)

/-! ## One layer over abstract operands -/

/-- The word of zero is zero. -/
theorem ofBits_zero_f32' : (FloatOps.ofBits .f32 0x00000000#32 : Ideal .f32) = 0 := Ideal.ofBits_zero_f32

/-- ONE LAYER FROM ITS AGGREGATE. The aggregate contracted with the left weights, plus the bias, plus the input
    contracted with the right weights, floored at zero: the layer of the specification, entry by entry. The index
    functions of the two contractions and of the bias are taken as given with their values. -/
theorem layer_of_aggr
    (h : FVec Ideal (⟨2, ![10000, 128]⟩ : Shape) .f32) (ei : SE.Idx → BitVec 32)
    (Wl : FVec Ideal (⟨2, ![128, 128]⟩ : Shape) .f32) (b : FVec Ideal (⟨1, ![128]⟩ : Shape) .f32)
    (Wr : FVec Ideal (⟨2, ![128, 128]⟩ : Shape) .f32)
    (aggr : FVec Ideal (⟨2, ![10000, 128]⟩ : Shape) .f32)
    (haggr : ∀ (n : Fin 10000) (k : Fin 128), aggr (ix2 n k) = nsum h ei n k * invdeg ei n)
    (zero : Ideal .f32) (hzero : zero = 0) (n : Fin 10000) (c : Fin 128)
    (li : Fin 128 → (⟨2, ![10000, 128]⟩ : Shape).Idx) (hli : ∀ k, li k = ix2 n k)
    (ri : Fin 128 → (⟨2, ![128, 128]⟩ : Shape).Idx) (hri : ∀ k, ri k = ix2 k c)
    (bi : (⟨1, ![128]⟩ : Shape).Idx) (hbi : bi = ix1 c)
    (li' : Fin 128 → (⟨2, ![10000, 128]⟩ : Shape).Idx) (hli' : ∀ k, li' k = ix2 n k)
    (ri' : Fin 128 → (⟨2, ![128, 128]⟩ : Shape).Idx) (hri' : ∀ k, ri' k = ix2 k c) :
    FloatOps.maximumf
        (FloatOps.addf (FloatOps.addf (∑ k : Fin 128, aggr (li k) * Wl (ri k)) (b bi))
          (∑ k : Fin 128, h (li' k) * Wr (ri' k))) zero
      = layer h ei Wl b Wr (ix2 n c) := by
  obtain rfl : li = fun k => ix2 n k := funext hli
  obtain rfl : ri = fun k => ix2 k c := funext hri
  obtain rfl : li' = fun k => ix2 n k := funext hli'
  obtain rfl : ri' = fun k => ix2 k c := funext hri'
  subst hbi hzero
  have hA : (∑ k : Fin 128, aggr (ix2 n k) * Wl (ix2 k c))
      = ∑ k : Fin 128, (nsum h ei n k * invdeg ei n) * Wl (ix2 k c) :=
    Finset.sum_congr rfl fun k _ => by rw [haggr n k]
  show max (((∑ k : Fin 128, aggr (ix2 n k) * Wl (ix2 k c)) + b (ix1 c)) + ∑ k : Fin 128, h (ix2 n k) * Wr (ix2 k c)) 0 = _
  rw [hA]
  rfl

/-! ## The reference's index columns -/

section Columns
variable (x1 : (⟨S2x640000, .i32⟩ : BufTy).Contents (Elt Ideal))

/-- Row 0 of the edge list, read through the slice, the reshape and the column broadcast. -/
theorem src_idx (e : Fin 640000) :
    idx_main_v0 (idx_main_v1 (idx_main_v9 (ix2 e (0 : Fin 1)))) = ix2 (0 : Fin 2) e := by
  funext a; refine Fin.ext ?_
  match a with
  | ⟨0, _⟩ => rfl
  | ⟨1, _⟩ => exact Nat.mod_eq_of_lt e.isLt

/-- Row 1 of the edge list, read through the slice, the reshape and the column broadcast. -/
theorem dst_idx (e : Fin 640000) :
    idx_main_v2 (idx_main_v3 (idx_main_v12 (ix2 e (0 : Fin 1)))) = ix2 (1 : Fin 2) e := by
  funext a; refine Fin.ext ?_
  match a with
  | ⟨0, _⟩ => rfl
  | ⟨1, _⟩ => exact Nat.mod_eq_of_lt e.isLt

/-- The source word of an edge, wrapped. -/
theorem v8_at (hsrc : SrcOk x1) (e : Fin 640000) (j : S640000.Idx)
    (hj : idx_main_v0 (idx_main_v1 j) = ix2 (0 : Fin 2) e) :
    Scalar.select (IntOp.cmpi .slt (val_main_v1 (F := Ideal) x1 j) 0#32)
      (IntOp.addi (val_main_v1 (F := Ideal) x1 j) 10000#32) (val_main_v1 (F := Ideal) x1 j) = srcW x1 e := by
  have h1 : val_main_v1 (F := Ideal) x1 j = srcW x1 e := by
    rw [val_main_v1_apply, val_main_v0_apply, hj]; rfl
  rw [h1]
  exact wrap_id _ (hsrc e)

/-- The first layer's source column holds the source words. -/
theorem v9_at (hsrc : SrcOk x1) (e : Fin 640000) : val_main_v9 (F := Ideal) x1 (ix2 e 0) = srcW x1 e := by
  rw [val_main_v9_apply, val_main_v8_apply, val_main_v5_apply, val_main_v7_apply, val_main_v4_apply,
    val_main_v6_apply, val_main_c_apply, val_main_c_0_apply]
  exact v8_at x1 hsrc e _ (src_idx e)

/-- The second layer's source column holds the source words. -/
theorem v35_at (hsrc : SrcOk x1) (e : Fin 640000) : val_main_v35 (F := Ideal) x1 (ix2 e 0) = srcW x1 e := by
  rw [val_main_v35_apply, val_main_v34_apply, val_main_v31_apply, val_main_v33_apply, val_main_v30_apply,
    val_main_v32_apply, val_main_c_4_apply, val_main_c_5_apply]
  exact v8_at x1 hsrc e _ (src_idx e)

/-- The destination word of an edge, through the slice and the reshape. -/
theorem v3_at (e : Fin 640000) (j : S640000.Idx) (hj : idx_main_v2 (idx_main_v3 j) = ix2 (1 : Fin 2) e) :
    val_main_v3 (F := Ideal) x1 j = dstW x1 e := by
  rw [val_main_v3_apply, val_main_v2_apply, hj]; rfl

theorem v12_at (e : Fin 640000) : val_main_v12 (F := Ideal) x1 (ix2 e 0) = dstW x1 e := by
  rw [val_main_v12_apply]; exact v3_at x1 e _ (dst_idx e)
theorem v16_at (e : Fin 640000) : val_main_v16 (F := Ideal) x1 (ix2 e 0) = dstW x1 e := by
  rw [val_main_v16_apply]; exact v3_at x1 e _ (dst_idx e)
theorem v38_at (e : Fin 640000) : val_main_v38 (F := Ideal) x1 (ix2 e 0) = dstW x1 e := by
  rw [val_main_v38_apply]; exact v3_at x1 e _ (dst_idx e)
theorem v42_at (e : Fin 640000) : val_main_v42 (F := Ideal) x1 (ix2 e 0) = dstW x1 e := by
  rw [val_main_v42_apply]; exact v3_at x1 e _ (dst_idx e)

end Columns

/-! ## The reference's constant arrays -/

theorem v11_zero (i : S10000x128.Idx) : val_main_v11 (F := Ideal) i = 0 := by
  rw [val_main_v11_apply, val_main_cst_apply]; exact Ideal.ofBits_zero_f32
theorem v37_zero (i : S10000x128.Idx) : val_main_v37 (F := Ideal) i = 0 := by
  rw [val_main_v37_apply, val_main_cst_6_apply]; exact Ideal.ofBits_zero_f32
theorem v15_zero (i : S10000.Idx) : val_main_v15 (F := Ideal) i = 0 := by
  rw [val_main_v15_apply, val_main_cst_2_apply]; exact Ideal.ofBits_zero_f32
theorem v41_zero (i : S10000.Idx) : val_main_v41 (F := Ideal) i = 0 := by
  rw [val_main_v41_apply, val_main_cst_8_apply]; exact Ideal.ofBits_zero_f32
theorem v14_one (i : S640000.Idx) : val_main_v14 (F := Ideal) i = 1 := by
  rw [val_main_v14_apply, val_main_cst_1_apply]; exact ofBits_one_f32
theorem v40_one (i : S640000.Idx) : val_main_v40 (F := Ideal) i = 1 := by
  rw [val_main_v40_apply, val_main_cst_7_apply]; exact ofBits_one_f32

/-! ## The mean aggregate of each layer -/

/-- The first layer's aggregate: the rows of the input. -/
theorem v22_at (x0 : (⟨S10000x128, .f32⟩ : BufTy).Contents (Elt Ideal))
    (x1 : (⟨S2x640000, .i32⟩ : BufTy).Contents (Elt Ideal)) (hsrc : SrcOk x1) (n : Fin 10000) (k : Fin 128) :
    val_main_v22 (F := Ideal) x0 x1 (ix2 n k) = nsum x0 x1 n k * invdeg x1 n := by
  rw [val_main_v22_apply, val_main_v21_apply, val_main_v20_apply, val_main_v19_apply, val_main_v18_apply,
    val_main_cst_3_apply]
  have hi : idx_main_v20 (idx_main_v21 (ix2 n k)) = ix1 n := by
    funext a; match a with | ⟨0, _⟩ => rfl
  rw [hi]
  have key := mean_aggr gather_S10000x128_S640000x1_S640000x128_1_0_n_n_0_1_1128 rfl rfl rfl rfl rfl rfl rfl
    scatter_S10000x128_S640000x1_S640000x128_1_0_0_1 rfl rfl rfl rfl
    scatter_S10000_S640000x1_S640000_n_0_0_1 rfl rfl rfl rfl
    x0 x1 hsrc (val_main_v11 (F := Ideal)) v11_zero (val_main_v15 (F := Ideal)) v15_zero
    (val_main_v14 (F := Ideal)) v14_one _ ofBits_one_f32
    (val_main_v9 (F := Ideal) x1) (val_main_v12 (F := Ideal) x1) (val_main_v16 (F := Ideal) x1)
    (v9_at x1 hsrc) (v12_at x1) (v16_at x1) n k
  unfold val_main_v13 val_main_v10 val_main_v17
  exact key

/-- The second layer's aggregate: the rows of the first layer's result. -/
theorem v48_at (x0 : (⟨S10000x128, .f32⟩ : BufTy).Contents (Elt Ideal))
    (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (hsrc : SrcOk x1) (n : Fin 10000) (k : Fin 128) :
    val_main_v48 (F := Ideal) x0 x1 x2 x3 x4 (ix2 n k)
      = nsum (val_main_v29 (F := Ideal) x0 x1 x2 x3 x4) x1 n k * invdeg x1 n := by
  rw [val_main_v48_apply, val_main_v47_apply, val_main_v46_apply, val_main_v45_apply, val_main_v44_apply,
    val_main_cst_9_apply]
  have hi : idx_main_v46 (idx_main_v47 (ix2 n k)) = ix1 n := by
    funext a; match a with | ⟨0, _⟩ => rfl
  rw [hi]
  have key := mean_aggr gather_S10000x128_S640000x1_S640000x128_1_0_n_n_0_1_1128 rfl rfl rfl rfl rfl rfl rfl
    scatter_S10000x128_S640000x1_S640000x128_1_0_0_1 rfl rfl rfl rfl
    scatter_S10000_S640000x1_S640000_n_0_0_1 rfl rfl rfl rfl
    (val_main_v29 (F := Ideal) x0 x1 x2 x3 x4) x1 hsrc (val_main_v37 (F := Ideal)) v37_zero
    (val_main_v41 (F := Ideal)) v41_zero
    (val_main_v40 (F := Ideal)) v40_one _ ofBits_one_f32
    (val_main_v35 (F := Ideal) x1) (val_main_v38 (F := Ideal) x1) (val_main_v42 (F := Ideal) x1)
    (v35_at x1 hsrc) (v38_at x1) (v42_at x1) n k
  unfold val_main_v39 val_main_v36 val_main_v43
  exact key

/-! ## The layers -/

theorem lidx23_eq (n : Fin 10000) (c k : Fin 128) : lidx_main_v23 (ix2 n c) k = ix2 n k :=
  funext fun a => Fin.ext (by match a with | ⟨0, _⟩ => rfl | ⟨1, _⟩ => rfl)
theorem ridx23_eq (n : Fin 10000) (c k : Fin 128) : ridx_main_v23 (ix2 n c) k = ix2 k c :=
  funext fun a => Fin.ext (by match a with | ⟨0, _⟩ => rfl | ⟨1, _⟩ => rfl)
theorem lidx27_eq (n : Fin 10000) (c k : Fin 128) : lidx_main_v27 (ix2 n c) k = ix2 n k :=
  funext fun a => Fin.ext (by match a with | ⟨0, _⟩ => rfl | ⟨1, _⟩ => rfl)
theorem ridx27_eq (n : Fin 10000) (c k : Fin 128) : ridx_main_v27 (ix2 n c) k = ix2 k c :=
  funext fun a => Fin.ext (by match a with | ⟨0, _⟩ => rfl | ⟨1, _⟩ => rfl)
theorem lidx49_eq (n : Fin 10000) (c k : Fin 128) : lidx_main_v49 (ix2 n c) k = ix2 n k :=
  funext fun a => Fin.ext (by match a with | ⟨0, _⟩ => rfl | ⟨1, _⟩ => rfl)
theorem ridx49_eq (n : Fin 10000) (c k : Fin 128) : ridx_main_v49 (ix2 n c) k = ix2 k c :=
  funext fun a => Fin.ext (by match a with | ⟨0, _⟩ => rfl | ⟨1, _⟩ => rfl)
theorem lidx53_eq (n : Fin 10000) (c k : Fin 128) : lidx_main_v53 (ix2 n c) k = ix2 n k :=
  funext fun a => Fin.ext (by match a with | ⟨0, _⟩ => rfl | ⟨1, _⟩ => rfl)
theorem ridx53_eq (n : Fin 10000) (c k : Fin 128) : ridx_main_v53 (ix2 n c) k = ix2 k c :=
  funext fun a => Fin.ext (by match a with | ⟨0, _⟩ => rfl | ⟨1, _⟩ => rfl)
theorem bias1_idx (n : Fin 10000) (c : Fin 128) : idx_main_v24 (idx_main_v25 (ix2 n c)) = ix1 c :=
  funext fun a => Fin.ext (by match a with | ⟨0, _⟩ => rfl)
theorem bias2_idx (n : Fin 10000) (c : Fin 128) : idx_main_v50 (idx_main_v51 (ix2 n c)) = ix1 c :=
  funext fun a => Fin.ext (by match a with | ⟨0, _⟩ => rfl)

/-- The first layer. -/
theorem v29_eq (x0 : (⟨S10000x128, .f32⟩ : BufTy).Contents (Elt Ideal))
    (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (hsrc : SrcOk x1) :
    val_main_v29 (F := Ideal) x0 x1 x2 x3 x4 = layer x0 x1 x2 x3 x4 := by
  funext i
  obtain ⟨n, c, rfl⟩ : ∃ (n : Fin 10000) (c : Fin 128), i = ix2 n c := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply]
  exact layer_of_aggr x0 x1 x2 x3 x4 (val_main_v22 (F := Ideal) x0 x1) (v22_at x0 x1 hsrc) _ ofBits_zero_f32' n c
    (lidx_main_v23 (ix2 n c)) (lidx23_eq n c) (ridx_main_v23 (ix2 n c)) (ridx23_eq n c) _ (bias1_idx n c)
    (lidx_main_v27 (ix2 n c)) (lidx27_eq n c) (ridx_main_v27 (ix2 n c)) (ridx27_eq n c)

/-- The second layer, over the first layer's result. -/
theorem v55_eq (x0 : (⟨S10000x128, .f32⟩ : BufTy).Contents (Elt Ideal))
    (x1 : (⟨S2x640000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal))
    (x6 : (⟨S128, .f32⟩ : BufTy).Contents (Elt Ideal)) (x7 : (⟨S128x128, .f32⟩ : BufTy).Contents (Elt Ideal))
    (hsrc : SrcOk x1) :
    val_main_v55 (F := Ideal) x0 x1 x2 x3 x4 x5 x6 x7
      = layer (val_main_v29 (F := Ideal) x0 x1 x2 x3 x4) x1 x5 x6 x7 := by
  funext i
  obtain ⟨n, c, rfl⟩ : ∃ (n : Fin 10000) (c : Fin 128), i = ix2 n c := ⟨i 0, i 1, eq_ix2 i⟩
  rw [val_main_v55_apply, val_main_v54_apply, val_main_v52_apply, val_main_v49_apply, val_main_v53_apply,
    val_main_v51_apply, val_main_v50_apply, val_main_call1_v0_apply, val_main_call1_cst_apply]
  exact layer_of_aggr (val_main_v29 (F := Ideal) x0 x1 x2 x3 x4) x1 x5 x6 x7
    (val_main_v48 (F := Ideal) x0 x1 x2 x3 x4) (v48_at x0 x1 x2 x3 x4 hsrc) _ ofBits_zero_f32' n c
    (lidx_main_v49 (ix2 n c)) (lidx49_eq n c) (ridx_main_v49 (ix2 n c)) (ridx49_eq n c) _ (bias2_idx n c)
    (lidx_main_v53 (ix2 n c)) (lidx53_eq n c) (ridx_main_v53 (ix2 n c)) (ridx53_eq n c)

/-- THE REFERENCE'S RESULT is the two-layer network at the argument arrays, whenever every source word names a node. -/
theorem result_eq (m : (ℓ : Loc nD τ sig) → Buf (Elt Ideal) ℓ) (c : Dev nD)
    (hsrc : Cert.Spec.SrcOk (m ((c.tc : Thread nD τ).loc main_arg1))) :
    Cert.ReferenceIdeal.Value.res_main_v55 (F := Ideal) m c
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [val_main_v55_eq, v55_eq _ _ _ _ _ _ _ _ hsrc, v29_eq _ _ _ _ _ hsrc]
  rfl

end Cert.ReferenceIdeal.RefValue

end
-- ==== Proof.PreDecode.lean ====
/-
  The precondition's last two conjuncts say that every word of row 0 of the edge list, read as a signed 32-bit
  integer, is at least 0 and below 10000.  A signed word in [0, 10000) has the same value read unsigned, so every
  source word is below the node count: this is `Spec.SrcOk`.  The predicate is a conjunction of all-quantified
  comparisons; the two that matter here compare the flattened row 0 (a slice of the first row, reshaped to a vector)
  entry by entry with the constants 0 and 10000.
-/
import proofs.«422308_j53472342835254_2_alg».proof.Pre_finite_inputs
import proofs.«422308_j53472342835254_2_alg».proof.Proof.Spec
import Idealize.ShloMosaic.Lib.ReduceAll
import Idealize.ShloMosaic.Lib.StableHlo.Predicate
import Idealize.ShloMosaic.Lib.Pipeline.Value

noncomputable section

namespace Cert.PreDecode

open Idealize.ShloMosaic Idealize.ShloMosaic.ValueIdx
open Cert.Pre_finite_inputs

/-- The rank-0 shape has exactly one index. -/
theorem subsingleton_scalarIdx : Subsingleton S_.Idx := ⟨fun a b => funext fun d => d.elim0⟩

/-- A 32-bit word that is at least 0 and below 10000 as a signed integer is below 10000 as a natural number. -/
theorem toNat_lt_of_signed (w : BitVec 32) (h0 : IntOp.cmpi .sge w 0#32 = 1#1)
    (h1 : IntOp.cmpi .slt w 10000#32 = 1#1) : w.toNat < 10000 := by
  have a := IntOp.cmpi_sge.1 h0
  have b := IntOp.cmpi_slt.1 h1
  have z : (0#32 : BitVec 32).toInt = 0 := by decide
  have t : (10000#32 : BitVec 32).toInt = 10000 := by decide
  rw [z] at a
  rw [t] at b
  rw [BitVec.toInt_eq_toNat_cond] at a b
  split at a <;> omega

/-- The first row of the [2, 640000] edge list, cut out as a [1, 640000] slice and flattened to a vector, holds at
    position `e` the word at (0, e): the slice starts at the origin and the flattening keeps row-major order. -/
theorem row0_apply (a1 : IVec S2x640000 32) (hs : S2x640000.Slices ![0, 0] S1x640000)
    (hc : S1x640000.ShapeCasts S640000) (e : Fin 640000) :
    shapeCast S640000 (extractStridedSlice S1x640000 ![0, 0] a1 hs) hc (ix1 e) = a1 (ix2 (0 : Fin 2) e) := by
  refine (shapeCast_apply _ hc (ix1 e) (ix2 (0 : Fin 1) e) ?_).trans ?_
  · rw [Shape.rowMajor_val_two, Shape.rowMajor_val_one]
    show 0 * 640000 + e.val = e.val
    omega
  · refine extractStridedSlice_apply _ a1 hs _ _ fun a => ?_
    match a with
    | ⟨0, _⟩ => show (0 : Nat) = 0 + 0; rfl
    | ⟨1, _⟩ => show e.val = 0 + e.val; omega

/-- The tail of the predicate is (earlier conjuncts) ∧ (every row-0 word ≥ 0) ∧ (every row-0 word < 10000), each
    "every" a conjunction over all 640000 positions.  If the tail is 1 then both comparisons are 1 at every position,
    and so every source word is below 10000. -/
theorem srcOk_of_part2 {F : FTy → Type} [FloatOps F] [Facts] (a1 : IVec S2x640000 32) (v : IVec S_ 1)
    (h : fn_part2 (F := F) a1 v ix0 = 1#1) : Cert.Spec.SrcOk a1 := by
  haveI := subsingleton_scalarIdx
  dsimp only [fn_part2] at h
  obtain ⟨h12, h2⟩ := IntOp.andi_eq_one.1 h
  obtain ⟨-, h1⟩ := IntOp.andi_eq_one.1 h12
  intro e
  have g1 := Host.reduce_andi_all _ _ _ _ ix0 h1 (ix1 e)
  have g2 := Host.reduce_andi_all _ _ _ _ ix0 h2 (ix1 e)
  have k1 : IntOp.cmpi .sge (shapeCast S640000 (extractStridedSlice S1x640000 ![0, 0] a1
      Facts.slices_S2x640000_S1x640000_0_0) Facts.shapeCasts_S1x640000_S640000 (ix1 e)) 0#32 = 1#1 := g1
  have k2 : IntOp.cmpi .slt (shapeCast S640000 (extractStridedSlice S1x640000 ![0, 0] a1
      Facts.slices_S2x640000_S1x640000_0_0) Facts.shapeCasts_S1x640000_S640000 (ix1 e)) 10000#32 = 1#1 := g2
  rw [row0_apply] at k1 k2
  exact toNat_lt_of_signed _ k1 k2

/-- If the whole predicate (finiteness of every float input, and the range of row 0 of the edge list) is 1, then every
    source word of the edge list is below the node count 10000.  Only the last two conjuncts are used: the predicate is
    its earlier conjuncts joined with them. -/
theorem srcOk_of_pre {F : FTy → Type} [FloatOps F] (a0 : FVec F Cert.Pre_finite_inputs.S10000x128 .f32)
    (a1 : IVec Cert.Pre_finite_inputs.S2x640000 32) (a2 : FVec F Cert.Pre_finite_inputs.S128x128 .f32)
    (a3 : FVec F Cert.Pre_finite_inputs.S128 .f32) (a4 : FVec F Cert.Pre_finite_inputs.S128x128 .f32)
    (a5 : FVec F Cert.Pre_finite_inputs.S128x128 .f32) (a6 : FVec F Cert.Pre_finite_inputs.S128 .f32)
    (a7 : FVec F Cert.Pre_finite_inputs.S128x128 .f32)
    [Cert.Pre_finite_inputs.Facts]
    (h : Cert.Pre_finite_inputs.fn (F := F) a0 a1 a2 a3 a4 a5 a6 a7 = (fun _ => 1#1)) : Cert.Spec.SrcOk a1 := by
  obtain ⟨v, hv⟩ : ∃ v : IVec S_ 1,
      Cert.Pre_finite_inputs.fn (F := F) a0 a1 a2 a3 a4 a5 a6 a7 = fn_part2 (F := F) a1 v := ⟨_, rfl⟩
  have e := congrFun h ix0
  rw [hv] at e
  exact srcOk_of_part2 (F := F) a1 v e

end Cert.PreDecode

end
-- ==== Proof.lean ====
/-
  Two graph layers with mean aggregation, as one-hot matrix products in two kernel regions, against the gather /
  segment-sum reference, over the extended reals.

  For every node n the aggregate is the sum, over the edges whose destination word is n, of the source node's
  feature row, times 1 / max(in-degree, 1); a layer is relu((aggregate · W_l + b) + x · W_r); the program applies two.
  The kernel finds each edge's source row by comparing the source word with every node number, so a source word that
  names no node contributes a zero row, where the reference's gather reads a (wrapped, clamped) row of the feature
  array: the two agree when every source word names a node, which is the precondition's last two conjuncts.  An edge
  whose DESTINATION word names no node is dropped by both programs, so nothing is asked of destinations.

  The kernel regions run 5000 grid points of 128 edges each, carrying the running sum in a scratch buffer: zeroed at
  the first point, a chunk added at every point, the layer finished and stored at the last.  The frames (every
  execution terminates, nothing faults, the arguments end unchanged) are that run with the result dropped, once at
  the word-level instance and once at the ideal one; the reference's frame is its run with the result dropped.
  No rewrite of the ideal pass applies to this kernel, so the preservation claim has nothing to state.
-/
import proofs.«422308_j53472342835254_2_alg».proof.Defs
import proofs.«422308_j53472342835254_2_alg».proof.Proof.Gen.Kernel
import proofs.«422308_j53472342835254_2_alg».proof.Proof.Gen.KernelIdeal
import proofs.«422308_j53472342835254_2_alg».proof.Proof.Gen.ReferenceIdeal
import proofs.«422308_j53472342835254_2_alg».proof.Proof.Gen.Pre_finite_inputs
import proofs.«422308_j53472342835254_2_alg».proof.Proof.Gen.ReferenceIdeal.Run
import proofs.«422308_j53472342835254_2_alg».proof.Proof.MainRun
import proofs.«422308_j53472342835254_2_alg».proof.Proof.Bits.MainRun
import proofs.«422308_j53472342835254_2_alg».proof.Proof.KernelNet
import proofs.«422308_j53472342835254_2_alg».proof.Proof.RefValue
import proofs.«422308_j53472342835254_2_alg».proof.Proof.PreDecode
import Idealize.ShloMosaic.Adequacy
import Idealize.ShloMosaic.Init

noncomputable section

namespace Cert.Proof

open Idealize.ShloMosaic Idealize.SL.Sem

/-- The word-level program's frame: its run with the result dropped. -/
theorem frame_kernel : Cert.frame_Kernel := fun m ρ _ =>
  (θ_run Cert.Kernel.defs _ _).mono (fun _ h c => (h c).2) (Cert.Kernel.Main.run_main (F := Bits) m ρ)

/-- The idealized program's frame: its run with the result dropped. -/
theorem frame_kernelIdeal : Cert.frame_KernelIdeal := fun m ρ _ =>
  (θ_run Cert.KernelIdeal.defs _ _).mono (fun _ h c => (h c).2) (Cert.KernelIdeal.Main.run_main (F := Ideal) m ρ)

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No rewrite was applied when the kernel was idealized. -/
theorem preserves : Cert.preserves_Kernel_KernelIdeal := trivial

/-- Both programs end with the two-layer network of the arguments. -/
theorem algebraic : Cert.algebraic_KernelIdeal_ReferenceIdeal := by
  intro m ρ m' ρ' hpre hagree
  have hok : ∀ c : Dev Cert.KernelIdeal.nD, Cert.Spec.SrcOk (m ((c.tc : Thread Cert.KernelIdeal.nD Cert.KernelIdeal.τ).loc Cert.KernelIdeal.main_arg1)) :=
    fun c => Cert.PreDecode.srcOk_of_pre _ _ _ _ _ _ _ _ (hpre c)
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Net.net_value m ρ c (hok c)), (h c).2⟩)
      (Cert.KernelIdeal.Main.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    have hok' : Cert.Spec.SrcOk (m' ((c.tc : Thread Cert.ReferenceIdeal.nD Cert.ReferenceIdeal.τ).loc Cert.ReferenceIdeal.main_arg1)) := by
      rw [e1]; exact hok c
    rw [Cert.ReferenceIdeal.RefValue.result_eq m' c hok', e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
